-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x8192x64 : Shape := ⟨4, ![4, 16, 8192, 64]⟩
abbrev S4x8192 : Shape := ⟨2, ![4, 8192]⟩
abbrev S2 : Shape := ⟨1, ![2]⟩
abbrev S2x16x64 : Shape := ⟨3, ![2, 16, 64]⟩
abbrev S_ : Shape := ⟨0, ![]⟩

class Facts : Prop where
  bcast_S_S4x16x8192x64 : S_.BroadcastsInDim S4x16x8192x64 (![] : Fin 0 → Fin S4x16x8192x64.rank)
  reducesTo_S4x16x8192x64_S_d0_1_2_3 : S4x16x8192x64.ReducesTo [0, 1, 2, 3] S_
  h_S_ : 0 < S_.numel
  bcast_S_S4x8192 : S_.BroadcastsInDim S4x8192 (![] : Fin 0 → Fin S4x8192.rank)
  reducesTo_S4x8192_S_d0_1 : S4x8192.ReducesTo [0, 1] S_
  bcast_S_S2 : S_.BroadcastsInDim S2 (![] : Fin 0 → Fin S2.rank)
  reducesTo_S2_S_d0 : S2.ReducesTo [0] S_
  bcast_S_S2x16x64 : S_.BroadcastsInDim S2x16x64 (![] : Fin 0 → Fin S2x16x64.rank)
  reducesTo_S2x16x64_S_d0_1_2 : S2x16x64.ReducesTo [0, 1, 2] S_

variable [Facts]

def fn_part1 {F : FTy → Type} [FloatOps F] (main_arg4 : FVec F S2 .f32) (main_arg5 : FVec F S2x16x64 .f32) (main_v13 : IVec S_ 1) (main_v16 : IVec S4x8192 1) : IVec S_ 1 :=
  let main_c_5 : IVec S_ 1 := constantI S_ 1 1#1
  let main_v17 : IVec S_ 1 := (fun x v => Host.reduce IntOp.andi x v reducesTo_S4x8192_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S2x16x64 .f32 := Host.absf main_arg5
  let main_cst_8 : FVec F S_ .f32 := constant S_ .f32 0x7F800000#32
  let main_v25 : FVec F S2x16x64 .f32 := broadcastInDim S2x16x64 ![] bcast_S_S2x16x64 main_cst_8
  let main_v26 : IVec S2x16x64 1 := cmpf .olt main_v24 main_v25
  let main_c_9 : IVec S_ 1 := constantI S_ 1 1#1
  let main_v27 : IVec S_ 1 := (fun x v => Host.reduce IntOp.andi x v reducesTo_S2x16x64_S_d0_1_2 h_S_) main_v26 main_c_9
  let main_v28 : IVec S_ 1 := andi main_v23 main_v27
  main_v28

def fn {F : FTy → Type} [FloatOps F] (main_arg0 : FVec F S4x16x8192x64 .f32) (main_arg1 : FVec F S4x16x8192x64 .f32) (main_arg2 : FVec F S4x16x8192x64 .f32) (main_arg3 : FVec F S4x8192 .f32) (main_arg4 : FVec F S2 .f32) (main_arg5 : FVec F S2x16x64 .f32) : IVec S_ 1 :=
  let main_v0 : FVec F S4x16x8192x64 .f32 := Host.absf main_arg0
  let main_cst : FVec F S_ .f32 := constant S_ .f32 0x7F800000#32
  let main_v1 : FVec F S4x16x8192x64 .f32 := broadcastInDim S4x16x8192x64 ![] bcast_S_S4x16x8192x64 main_cst
  let main_v2 : IVec S4x16x8192x64 1 := cmpf .olt main_v0 main_v1
  let main_c : IVec S_ 1 := constantI S_ 1 1#1
  let main_v3 : IVec S_ 1 := (fun x v => Host.reduce IntOp.andi x v reducesTo_S4x16x8192x64_S_d0_1_2_3 h_S_) main_v2 main_c
  let main_v4 : FVec F S4x16x8192x64 .f32 := Host.absf main_arg1
  let main_cst_0 : FVec F S_ .f32 := constant S_ .f32 0x7F800000#32
  let main_v5 : FVec F S4x16x8192x64 .f32 := broadcastInDim S4x16x8192x64 ![] bcast_S_S4x16x8192x64 main_cst_0
  let main_v6 : IVec S4x16x8192x64 1 := cmpf .olt main_v4 main_v5
  let main_c_1 : IVec S_ 1 := constantI S_ 1 1#1
  let main_v7 : IVec S_ 1 := (fun x v => Host.reduce IntOp.andi x v reducesTo_S4x16x8192x64_S_d0_1_2_3 h_S_) main_v6 main_c_1
  let main_v8 : IVec S_ 1 := andi main_v3 main_v7
  let main_v9 : FVec F S4x16x8192x64 .f32 := Host.absf main_arg2
  let main_cst_2 : FVec F S_ .f32 := constant S_ .f32 0x7F800000#32
  let main_v10 : FVec F S4x16x8192x64 .f32 := broadcastInDim S4x16x8192x64 ![] bcast_S_S4x16x8192x64 main_cst_2
  let main_v11 : IVec S4x16x8192x64 1 := cmpf .olt main_v9 main_v10
  let main_c_3 : IVec S_ 1 := constantI S_ 1 1#1
  let main_v12 : IVec S_ 1 := (fun x v => Host.reduce IntOp.andi x v reducesTo_S4x16x8192x64_S_d0_1_2_3 h_S_) main_v11 main_c_3
  let main_v13 : IVec S_ 1 := andi main_v8 main_v12
  let main_v14 : FVec F S4x8192 .f32 := Host.absf main_arg3
  let main_cst_4 : FVec F S_ .f32 := constant S_ .f32 0x7F800000#32
  let main_v15 : FVec F S4x8192 .f32 := broadcastInDim S4x8192 ![] bcast_S_S4x8192 main_cst_4
  let main_v16 : IVec S4x8192 1 := cmpf .olt main_v14 main_v15
  fn_part1 (F := F) main_arg4 main_arg5 main_v13 main_v16
-- ==== Kernel.lean ====
abbrev S4x16x8192x64 : Shape := ⟨4, ![4, 16, 8192, 64]⟩
abbrev S4x8192 : Shape := ⟨2, ![4, 8192]⟩
abbrev S2 : Shape := ⟨1, ![2]⟩
abbrev S2x16x64 : Shape := ⟨3, ![2, 16, 64]⟩
abbrev S_ : Shape := ⟨0, ![]⟩
abbrev S1 : Shape := ⟨1, ![1]⟩
abbrev S1x16x64 : Shape := ⟨3, ![1, 16, 64]⟩
abbrev S16x64 : Shape := ⟨2, ![16, 64]⟩
abbrev S16x1x64 : Shape := ⟨3, ![16, 1, 64]⟩
abbrev S4x8192x1 : Shape := ⟨3, ![4, 8192, 1]⟩
abbrev S4x16x64x64 : Shape := ⟨4, ![4, 16, 64, 64]⟩
abbrev S1x1x2048x64 : Shape := ⟨4, ![1, 1, 2048, 64]⟩
abbrev S1x2048x1 : Shape := ⟨3, ![1, 2048, 1]⟩
abbrev S1x1x64 : Shape := ⟨3, ![1, 1, 64]⟩
abbrev S1x1x64x64 : Shape := ⟨4, ![1, 1, 64, 64]⟩
abbrev S64x64 : Shape := ⟨2, ![64, 64]⟩
abbrev S2048x64 : Shape := ⟨2, ![2048, 64]⟩
abbrev S2048x1 : Shape := ⟨2, ![2048, 1]⟩
abbrev S64 : Shape := ⟨1, ![64]⟩
abbrev S1x64 : Shape := ⟨2, ![1, 64]⟩

abbrev nBuf : Space → Nat
  | .hbm => 38
  | .vmem => 19
  | .smem => 0
  | _ => 0

abbrev bufTy : (tb : Table) → Fin (tcTables nBuf tb) → BufTy
  | .hbm, ⟨0, _⟩ => ⟨S4x16x8192x64, .f32⟩
  | .hbm, ⟨1, _⟩ => ⟨S4x16x8192x64, .f32⟩
  | .hbm, ⟨2, _⟩ => ⟨S4x16x8192x64, .f32⟩
  | .hbm, ⟨3, _⟩ => ⟨S4x8192, .f32⟩
  | .hbm, ⟨4, _⟩ => ⟨S2, .f32⟩
  | .hbm, ⟨5, _⟩ => ⟨S2x16x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2, .f32⟩
  | .hbm, ⟨10, _⟩ => ⟨S2, .f32⟩
  | .hbm, ⟨11, _⟩ => ⟨S_, .f32⟩
  | .hbm, ⟨12, _⟩ => ⟨S2, .f32⟩
  | .hbm, ⟨13, _⟩ => ⟨S2, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S_, .f32⟩
  | .hbm, ⟨19, _⟩ => ⟨S1x16x64, .f32⟩
  | .hbm, ⟨20, _⟩ => ⟨S16x64, .f32⟩
  | .hbm, ⟨21, _⟩ => ⟨S1, .f32⟩
  | .hbm, ⟨22, _⟩ => ⟨S_, .f32⟩
  | .hbm, ⟨23, _⟩ => ⟨S16x64, .f32⟩
  | .hbm, ⟨24, _⟩ => ⟨S16x64, .f32⟩
  | .hbm, ⟨25, _⟩ => ⟨S1x16x64, .f32⟩
  | .hbm, ⟨26, _⟩ => ⟨S16x64, .f32⟩
  | .hbm, ⟨27, _⟩ => ⟨S1, .f32⟩
  | .hbm, ⟨28, _⟩ => ⟨S_, .f32⟩
  | .hbm, ⟨29, _⟩ => ⟨S16x64, .f32⟩
  | .hbm, ⟨30, _⟩ => ⟨S16x64, .f32⟩
  | .hbm, ⟨31, _⟩ => ⟨S16x64, .f32⟩
  | .hbm, ⟨32, _⟩ => ⟨S16x64, .f32⟩
  | .hbm, ⟨33, _⟩ => ⟨S16x1x64, .f32⟩
  | .hbm, ⟨34, _⟩ => ⟨S16x1x64, .f32⟩
  | .hbm, ⟨35, _⟩ => ⟨S4x8192x1, .f32⟩
  | .hbm, ⟨36, _⟩ => ⟨S4x16x64x64, .f32⟩
  | .hbm, ⟨37, _⟩ => ⟨S4x16x8192x64, .f32⟩
  | .local _ .vmem, ⟨0, _⟩ => ⟨S1x1x2048x64, .f32⟩
  | .local _ .vmem, ⟨1, _⟩ => ⟨S1x1x2048x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x2048x1, .f32⟩
  | .local _ .vmem, ⟨5, _⟩ => ⟨S1x2048x1, .f32⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S1x1x64x64, .f32⟩
  | .local _ .vmem, ⟨11, _⟩ => ⟨S1x1x64x64, .f32⟩
  | .local _ .vmem, ⟨12, _⟩ => ⟨S64x64, .f32⟩
  | .local _ .vmem, ⟨13, _⟩ => ⟨S1x1x2048x64, .f32⟩
  | .local _ .vmem, ⟨14, _⟩ => ⟨S1x1x2048x64, .f32⟩
  | .local _ .vmem, ⟨15, _⟩ => ⟨S1x1x64x64, .f32⟩
  | .local _ .vmem, ⟨16, _⟩ => ⟨S1x1x64x64, .f32⟩
  | .local _ .vmem, ⟨17, _⟩ => ⟨S1x1x2048x64, .f32⟩
  | .local _ .vmem, ⟨18, _⟩ => ⟨S1x1x2048x64, .f32⟩
  | _, _ => ⟨S4x16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨3, ![4, 16, 4], ![false, false, false]⟩

def k0_cond2 (i : grid0.Coords) : BitVec 1 :=
  let arg2 : BitVec 32 := BitVec.ofNat 32 (i 2).val
  let c3_i32 : BitVec 32 := 3#32
  let v39 : BitVec 1 := Scalar.cmpi .eq arg2 c3_i32
  let v40 : BitVec 32 := Scalar.extui v39
  let c0_i32_24 : BitVec 32 := 0#32
  let v41 : BitVec 1 := Scalar.cmpi .ne v40 c0_i32_24
  v41

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![4, 16, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  bcast_S_S2 : S_.BroadcastsInDim S2 (![] : Fin 0 → Fin S2.rank)
  slices_S2_S1_0 : S2.Slices ![0] S1
  shapeCasts_S1_S_ : S1.ShapeCasts S_
  slices_S2_S1_1 : S2.Slices ![1] S1
  slices_S2x16x64_S1x16x64_0_0_0 : S2x16x64.Slices ![0, 0, 0] S1x16x64
  shapeCasts_S1x16x64_S16x64 : S1x16x64.ShapeCasts S16x64
  bcast_S_S16x64 : S_.BroadcastsInDim S16x64 (![] : Fin 0 → Fin S16x64.rank)
  slices_S2x16x64_S1x16x64_1_0_0 : S2x16x64.Slices ![1, 0, 0] S1x16x64
  shapeCasts_S16x64_S16x1x64 : S16x64.ShapeCasts S16x1x64
  shapeCasts_S4x8192_S4x8192x1 : S4x8192.ShapeCasts S4x8192x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  shapeCasts_S64_S1x64 : S64.ShapeCasts S1x64
  broadcasts_S1x64_S2048x64 : S1x64.Broadcasts S2048x64
  broadcasts_S2048x1_S2048x64 : S2048x1.Broadcasts S2048x64
  bitsLt_bf16_f32 : FTy.bits .bf16 < FTy.bits .f32
  inb_S1x1x64x64_S1x1x64x64_0_0_0_0 : ∀ a, (![0, 0, 0, 0] : Fin 4 → Nat) a + S1x1x64x64.size a ≤ S1x1x64x64.size a
  h_S1x1x64x64 : 0 < S1x1x64x64.numel
  shapeCasts_S1x1x64x64_S64x64 : S1x1x64x64.ShapeCasts S64x64
  shapeCasts_S64x64_S1x1x64x64 : S64x64.ShapeCasts S1x1x64x64
  shapeCasts_S2048x64_S1x1x2048x64 : S2048x64.ShapeCasts S1x1x2048x64
  dot_S2048x64_S2048x64_S64x64_0_0_1_1_n_n_wf : DotDims.WF S2048x64 S2048x64 S64x64 [0] [0] [1] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048x64.size a ≤ S4x16x8192x64.size a
  hwx0_0 : ∀ i : grid0.Coords, EltTy.bits .f32 = 32 ∨ (Rect.block (s := S4x16x8192x64) S1x1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x8192x64.size a
  hwx0_1 : ∀ i : grid0.Coords, EltTy.bits .f32 = 32 ∨ (Rect.block (s := S4x16x8192x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S4x8192x1.size a
  hwx0_2 : ∀ i : grid0.Coords, EltTy.bits .f32 = 32 ∨ (Rect.block (s := S4x8192x1) S1x2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S16x1x64.size a
  hwx0_3 : ∀ i : grid0.Coords, EltTy.bits .f32 = 32 ∨ (Rect.block (s := S16x1x64) S1x1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S16x1x64.size a
  hwx0_4 : ∀ i : grid0.Coords, EltTy.bits .f32 = 32 ∨ (Rect.block (s := S16x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64x64.size a ≤ S4x16x64x64.size a
  hwx0_5 : ∀ i : grid0.Coords, EltTy.bits .f32 = 32 ∨ (Rect.block (s := S4x16x64x64) S1x1x64x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x2048x64.size a ≤ S4x16x8192x64.size a
  hwx1_0 : ∀ i : grid1.Coords, EltTy.bits .f32 = 32 ∨ (Rect.block (s := S4x16x8192x64) S1x1x2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64x64.size a ≤ S4x16x64x64.size a
  hwx1_1 : ∀ i : grid1.Coords, EltTy.bits .f32 = 32 ∨ (Rect.block (s := S4x16x64x64) S1x1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S4x16x8192x64.size a
  hwx1_2 : ∀ i : grid1.Coords, EltTy.bits .f32 = 32 ∨ (Rect.block (s := S4x16x8192x64) S1x1x2048x64.size (cc1_transform_2 i) (hinb1_2 i)).WholeWords (EltTy.packing .f32)

variable [Facts₀]

def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_arg1) S1x1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x1x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x1x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S1x1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x1x2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x16x8192x64 : Shape := ⟨4, ![4, 16, 8192, 64]⟩
abbrev S4x8192 : Shape := ⟨2, ![4, 8192]⟩
abbrev S2 : Shape := ⟨1, ![2]⟩
abbrev S2x16x64 : Shape := ⟨3, ![2, 16, 64]⟩
abbrev S_ : Shape := ⟨0, ![]⟩
abbrev S1x16x64 : Shape := ⟨3, ![1, 16, 64]⟩
abbrev S16x64 : Shape := ⟨2, ![16, 64]⟩
abbrev S1x16x1x64 : Shape := ⟨4, ![1, 16, 1, 64]⟩
abbrev S1 : Shape := ⟨1, ![1]⟩
abbrev S4x1x8192x1 : Shape := ⟨4, ![4, 1, 8192, 1]⟩
abbrev S4x16x64x64 : Shape := ⟨4, ![4, 16, 64, 64]⟩

abbrev nBuf : Space → Nat
  | .hbm => 82
  | .vmem => 0
  | .smem => 0
  | _ => 0

abbrev bufTy : (tb : Table) → Fin (tcTables nBuf tb) → BufTy
  | .hbm, ⟨0, _⟩ => ⟨S4x16x8192x64, .f32⟩
  | .hbm, ⟨1, _⟩ => ⟨S4x16x8192x64, .f32⟩
  | .hbm, ⟨2, _⟩ => ⟨S4x16x8192x64, .f32⟩
  | .hbm, ⟨3, _⟩ => ⟨S4x8192, .f32⟩
  | .hbm, ⟨4, _⟩ => ⟨S2, .f32⟩
  | .hbm, ⟨5, _⟩ => ⟨S2x16x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2, .f32⟩
  | .hbm, ⟨10, _⟩ => ⟨S2, .f32⟩
  | .hbm, ⟨11, _⟩ => ⟨S_, .f32⟩
  | .hbm, ⟨12, _⟩ => ⟨S2, .f32⟩
  | .hbm, ⟨13, _⟩ => ⟨S2, .f32⟩
  | .hbm, ⟨14, _⟩ => ⟨S1x16x64, .f32⟩
  | .hbm, ⟨15, _⟩ => ⟨S16x64, .f32⟩
  | .hbm, ⟨16, _⟩ => ⟨S1x16x1x64, .f32⟩
  | .hbm, ⟨17, _⟩ => ⟨S4x16x8192x64, .f32⟩
  | .hbm, ⟨18, _⟩ => ⟨S4x16x8192x64, .f32⟩
  | .hbm, ⟨19, _⟩ => ⟨S1x16x64, .f32⟩
  | .hbm, ⟨20, _⟩ => ⟨S16x64, .f32⟩
  | .hbm, ⟨21, _⟩ => ⟨S1x16x1x64, .f32⟩
  | .hbm, ⟨22, _⟩ => ⟨S4x16x8192x64, .f32⟩
  | .hbm, ⟨23, _⟩ => ⟨S4x16x8192x64, .f32⟩
  | .hbm, ⟨24, _⟩ => ⟨S1, .f32⟩
  | .hbm, ⟨25, _⟩ => ⟨S_, .f32⟩
  | .hbm, ⟨26, _⟩ => ⟨S4x16x8192x64, .f32⟩
  | .hbm, ⟨27, _⟩ => ⟨S4x16x8192x64, .f32⟩
  | .hbm, ⟨28, _⟩ => ⟨S1, .f32⟩
  | .hbm, ⟨29, _⟩ => ⟨S_, .f32⟩
  | .hbm, ⟨30, _⟩ => ⟨S4x16x8192x64, .f32⟩
  | .hbm, ⟨31, _⟩ => ⟨S4x16x8192x64, .f32⟩
  | .hbm, ⟨32, _⟩ => ⟨S4x16x8192x64, .f32⟩
  | .hbm, ⟨33, _⟩ => ⟨S4x1x8192x1, .f32⟩
  | .hbm, ⟨34, _⟩ => ⟨S_, .f32⟩
  | .hbm, ⟨35, _⟩ => ⟨S4x16x8192x64, .f32⟩
  | .hbm, ⟨36, _⟩ => ⟨S4x16x8192x64, .i1⟩
  | .hbm, ⟨37, _⟩ => ⟨S_, .f32⟩
  | .hbm, ⟨38, _⟩ => ⟨S4x16x8192x64, .f32⟩
  | .hbm, ⟨39, _⟩ => ⟨S4x16x8192x64, .i1⟩
  | .hbm, ⟨40, _⟩ => ⟨S_, .f32⟩
  | .hbm, ⟨41, _⟩ => ⟨S_, .f32⟩
  | .hbm, ⟨42, _⟩ => ⟨S4x16x8192x64, .f32⟩
  | .hbm, ⟨43, _⟩ => ⟨S4x16x8192x64, .f32⟩
  | .hbm, ⟨44, _⟩ => ⟨S4x16x8192x64, .f32⟩
  | .hbm, ⟨45, _⟩ => ⟨S_, .f32⟩
  | .hbm, ⟨46, _⟩ => ⟨S4x16x8192x64, .f32⟩
  | .hbm, ⟨47, _⟩ => ⟨S4x16x8192x64, .f32⟩
  | .hbm, ⟨48, _⟩ => ⟨S4x16x8192x64, .f32⟩
  | .hbm, ⟨49, _⟩ => ⟨S_, .f32⟩
  | .hbm, ⟨50, _⟩ => ⟨S4x16x8192x64, .f32⟩
  | .hbm, ⟨51, _⟩ => ⟨S4x16x8192x64, .f32⟩
  | .hbm, ⟨52, _⟩ => ⟨S_, .f32⟩
  | .hbm, ⟨53, _⟩ => ⟨S4x16x8192x64, .f32⟩
  | .hbm, ⟨54, _⟩ => ⟨S4x16x8192x64, .f32⟩
  | .hbm, ⟨55, _⟩ => ⟨S_, .f32⟩
  | .hbm, ⟨56, _⟩ => ⟨S4x16x8192x64, .f32⟩
  | .hbm, ⟨57, _⟩ => ⟨S4x16x8192x64, .i1⟩
  | .hbm, ⟨58, _⟩ => ⟨S_, .f32⟩
  | .hbm, ⟨59, _⟩ => ⟨S4x16x8192x64, .f32⟩
  | .hbm, ⟨60, _⟩ => ⟨S4x16x8192x64, .i1⟩
  | .hbm, ⟨61, _⟩ => ⟨S_, .f32⟩
  | .hbm, ⟨62, _⟩ => ⟨S_, .f32⟩
  | .hbm, ⟨63, _⟩ => ⟨S4x16x8192x64, .f32⟩
  | .hbm, ⟨64, _⟩ => ⟨S4x16x8192x64, .f32⟩
  | .hbm, ⟨65, _⟩ => ⟨S4x16x8192x64, .f32⟩
  | .hbm, ⟨66, _⟩ => ⟨S_, .f32⟩
  | .hbm, ⟨67, _⟩ => ⟨S4x16x8192x64, .f32⟩
  | .hbm, ⟨68, _⟩ => ⟨S4x16x8192x64, .f32⟩
  | .hbm, ⟨69, _⟩ => ⟨S4x16x8192x64, .f32⟩
  | .hbm, ⟨70, _⟩ => ⟨S_, .f32⟩
  | .hbm, ⟨71, _⟩ => ⟨S4x16x8192x64, .f32⟩
  | .hbm, ⟨72, _⟩ => ⟨S4x16x8192x64, .f32⟩
  | .hbm, ⟨73, _⟩ => ⟨S4x16x8192x64, .f32⟩
  | .hbm, ⟨74, _⟩ => ⟨S4x16x8192x64, .f32⟩
  | .hbm, ⟨75, _⟩ => ⟨S_, .f32⟩
  | .hbm, ⟨76, _⟩ => ⟨S4x16x8192x64, .f32⟩
  | .hbm, ⟨77, _⟩ => ⟨S4x16x8192x64, .f32⟩
  | .hbm, ⟨78, _⟩ => ⟨S4x16x8192x64, .f32⟩
  | .hbm, ⟨79, _⟩ => ⟨S4x16x8192x64, .f32⟩
  | .hbm, ⟨80, _⟩ => ⟨S4x16x64x64, .f32⟩
  | .hbm, ⟨81, _⟩ => ⟨S4x16x8192x64, .f32⟩
  | _, _ => ⟨S4x16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_cst_0 : Ref sig .tc := ⟨.hbm, 37, rfl⟩
abbrev main_call1_v2 : Ref sig .tc := ⟨.hbm, 38, rfl⟩
abbrev main_call1_v3 : Ref sig .tc := ⟨.hbm, 39, rfl⟩
abbrev main_call1_cst_1 : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_v4 : Ref sig .tc := ⟨.hbm, 43, rfl⟩
abbrev main_call1_v5 : Ref sig .tc := ⟨.hbm, 44, rfl⟩
abbrev main_call1_cst_2 : Ref sig .tc := ⟨.hbm, 45, rfl⟩
abbrev main_call1_v6 : Ref sig .tc := ⟨.hbm, 46, rfl⟩
abbrev main_call1_v7 : Ref sig .tc := ⟨.hbm, 47, rfl⟩
abbrev main_v21 : Ref sig .tc := ⟨.hbm, 48, rfl⟩
abbrev main_cst_1 : Ref sig .tc := ⟨.hbm, 49, rfl⟩
abbrev main_v22 : Ref sig .tc := ⟨.hbm, 50, rfl⟩
abbrev main_v23 : Ref sig .tc := ⟨.hbm, 51, rfl⟩
abbrev main_cst_2 : Ref sig .tc := ⟨.hbm, 52, rfl⟩
abbrev main_v24 : Ref sig .tc := ⟨.hbm, 53, rfl⟩
abbrev main_v25 : Ref sig .tc := ⟨.hbm, 54, rfl⟩
abbrev main_call2_cst : Ref sig .tc := ⟨.hbm, 55, rfl⟩
abbrev main_call2_v0 : Ref sig .tc := ⟨.hbm, 56, rfl⟩
abbrev main_call2_v1 : Ref sig .tc := ⟨.hbm, 57, rfl⟩
abbrev main_call2_cst_0 : Ref sig .tc := ⟨.hbm, 58, rfl⟩
abbrev main_call2_v2 : Ref sig .tc := ⟨.hbm, 59, rfl⟩
abbrev main_call2_v3 : Ref sig .tc := ⟨.hbm, 60, rfl⟩
abbrev main_call2_cst_1 : Ref sig .tc := ⟨.hbm, 61, rfl⟩
abbrev main_call2_call0_v0 : Ref sig .tc := ⟨.hbm, 62, rfl⟩
abbrev main_call2_call0_v1 : Ref sig .tc := ⟨.hbm, 63, rfl⟩
abbrev main_call2_v4 : Ref sig .tc := ⟨.hbm, 64, rfl⟩
abbrev main_call2_v5 : Ref sig .tc := ⟨.hbm, 65, rfl⟩
abbrev main_call2_cst_2 : Ref sig .tc := ⟨.hbm, 66, rfl⟩
abbrev main_call2_v6 : Ref sig .tc := ⟨.hbm, 67, rfl⟩
abbrev main_call2_v7 : Ref sig .tc := ⟨.hbm, 68, rfl⟩
abbrev main_v26 : Ref sig .tc := ⟨.hbm, 69, rfl⟩
abbrev main_cst_3 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_cst_4 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩

abbrev nD : Nat := 1
abbrev τ : Topo := Topo.v7x

variable {F : FTy → Type} [FloatOps F]

class Facts₀ : Prop where
  bcast_S_S2 : S_.BroadcastsInDim S2 (![] : Fin 0 → Fin S2.rank)
  slices_S2x16x64_S1x16x64_0_0_0 : S2x16x64.Slices ![0, 0, 0] S1x16x64
  shapeCasts_S1x16x64_S16x64 : S1x16x64.ShapeCasts S16x64
  bcast_S16x64_S1x16x1x64_1_3 : S16x64.BroadcastsInDim S1x16x1x64 (![1, 3] : Fin 2 → Fin S1x16x1x64.rank)
  bcast_S1x16x1x64_S4x16x8192x64_0_1_2_3 : S1x16x1x64.BroadcastsInDim S4x16x8192x64 (![0, 1, 2, 3] : Fin 4 → Fin S4x16x8192x64.rank)
  slices_S2x16x64_S1x16x64_1_0_0 : S2x16x64.Slices ![1, 0, 0] S1x16x64
  slices_S2_S1_0 : S2.Slices ![0] S1
  shapeCasts_S1_S_ : S1.ShapeCasts S_
  bcast_S_S4x16x8192x64 : S_.BroadcastsInDim S4x16x8192x64 (![] : Fin 0 → Fin S4x16x8192x64.rank)
  slices_S2_S1_1 : S2.Slices ![1] S1
  bcast_S4x8192_S4x1x8192x1_0_2 : S4x8192.BroadcastsInDim S4x1x8192x1 (![0, 2] : Fin 2 → Fin S4x1x8192x1.rank)
  bcast_S4x1x8192x1_S4x16x8192x64_0_1_2_3 : S4x1x8192x1.BroadcastsInDim S4x16x8192x64 (![0, 1, 2, 3] : Fin 4 → Fin S4x16x8192x64.rank)
  dot_S4x16x8192x64_S4x16x8192x64_S4x16x64x64_2_2_3_3_01_01_wf : DotDims.WF S4x16x8192x64 S4x16x8192x64 S4x16x64x64 [2] [2] [3] [3] [0, 1] [0, 1]
  dot_S4x16x8192x64_S4x16x64x64_S4x16x8192x64_3_2_2_3_01_01_wf : DotDims.WF S4x16x8192x64 S4x16x64x64 S4x16x8192x64 [3] [2] [2] [3] [0, 1] [0, 1]

variable [Facts₀]

def dot_S4x16x8192x64_S4x16x8192x64_S4x16x64x64_2_2_3_3_01_01 : DotDims S4x16x8192x64 S4x16x8192x64 S4x16x64x64 where
  lhsContracting := [2]
  rhsContracting := [2]
  lhsNonContracting := [3]
  rhsNonContracting := [3]
  lhsBatch := [0, 1]
  rhsBatch := [0, 1]
  wf := dot_S4x16x8192x64_S4x16x8192x64_S4x16x64x64_2_2_3_3_01_01_wf
def dot_S4x16x8192x64_S4x16x64x64_S4x16x8192x64_3_2_2_3_01_01 : DotDims S4x16x8192x64 S4x16x64x64 S4x16x8192x64 where
  lhsContracting := [3]
  rhsContracting := [2]
  lhsNonContracting := [2]
  rhsNonContracting := [3]
  lhsBatch := [0, 1]
  rhsBatch := [0, 1]
  wf := dot_S4x16x8192x64_S4x16x64x64_S4x16x8192x64_3_2_2_3_01_01_wf

class Facts : Prop extends Facts₀ where

variable [Facts]
-- ==== Proof.Kernel.Blk.lean ====
/-
  The blocks the two launches read. Launch 0 walks a grid of 4 × 16 × 4 points (b, h, j): window 0 is rows
  2048·j … 2048·j + 2047 of K[b, h], window 1 the same rows of V[b, h], window 2 the same rows of the mask column of
  batch b, windows 3 and 4 row h of the two [16, 1, 64] coefficient arrays, window 5 the 64 × 64 state of (b, h).
  Launch 1 walks the same grid: window 0 is the same rows of Q[b, h], window 1 the state of (b, h), window 2 the
  same rows of the result. A block is read off its array as the launch finds it.
-/
import proofs.«152070_j15891378995472_1_alg».proof.Proof.Gen.Kernel.Launch

noncomputable section

namespace Cert.Kernel.Hand

open Cert.Kernel Cert.Kernel.Gen
open Idealize.ShloMosaic Idealize.ShloMosaic.TcCoe Idealize.SL.Sem

variable {F : FTy → Type} [FloatOps F]
variable (V : (c : Dev nD) → (b : Ref sig .tc) → Buf (Elt F) ((c : Thread nD τ).loc b))

/-- Window `w` of launch 0 at point `t`: its block of the array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of launch 1 at point `t`: its block of the array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Cert.Kernel.Hand

end
-- ==== Proof.Kernel.R0Runs.lean ====
/-
  The state launch walks 4 × 16 × 4 points (b, h, j). Its body keeps a 64 × 64 accumulator between points: it
  is set to zero where j = 0, the tile's product is added at every point, and it is copied to the output block
  where j = 3. This module fixes the two conditions on the point and their closed forms, where the output
  window is idle, the names of the buffers the body is called with, and the shape of the invariant around it.
-/
import proofs.«152070_j15891378995472_1_alg».proof.Proof.Gen.Kernel.Launch
import proofs.«152070_j15891378995472_1_alg».proof.Proof.Gen.Kernel.Skeleton
import proofs.«152070_j15891378995472_1_alg».proof.Proof.Gen.Kernel.Points
import proofs.«152070_j15891378995472_1_alg».proof.Proof.Kernel.Blk
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The two conditions on the grid point -/

/-- The first condition: the tile index is 0. -/
abbrev cond0_0 (i : grid0.Coords) : Prop := (Scalar.cmpi .ne (Scalar.extui (Scalar.cmpi .eq (BitVec.ofNat 32 (i 2).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second condition: the tile index is 3. -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The five inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- Where the tile index is 0 the output block is idle and is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- Where the tile index is 1 or 2 the output block is idle and is not written back. -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- Where the tile index is 3 the output block is live. -/
theorem liveAt0_5_C : ∀ t : Fin cfg0.N, ¬cond0_0 (grid0.coords t) → cond0_1 (grid0.coords t) → cfg0.idle 5 (grid0.coords t) = false := by decide +kernel

/-! ## The buffers the body is called with -/

/-- One buffer of the output window, through which its contents are stated. -/
abbrev VO0_5 : View sig .tc .vmem S1x1x64x64 .f32 := (Memref.whole cc0_stg5_0 : Memref sig .tc .vmem S1x1x64x64 .f32).view
/-- Each window's current buffer at point `t`, and that it is a whole buffer. -/
abbrev ms0_0 (t : Fin cfg0.N) : Memref sig .tc .vmem S1x1x2048x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64x64 .f32 := win0_5.stage (cfg0.slots t 5)
abbrev hs0_5 (t : Fin cfg0.N) : (ms0_5 t).IsWhole := hstage0_5 ((cfg0.slots t 5).cast nbuf0_5)
/-- The accumulator: a whole buffer of the launch's own, passed beside the windows. -/
abbrev scM0_0 : Memref sig .tc .vmem S64x64 .f32 := Memref.whole cc0_scratch0
/-- The accumulator as a view: what it holds is stated through it. -/
abbrev VS0_0 : View sig .tc .vmem S64x64 .f32 := scM0_0.view

/-! ## The invariant around the launch -/

/-- The second launch's six buffers, each whole at some contents: carried through this launch untouched. -/
def rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The invariant the launch is entered and left with: the accumulator owned at some contents, the second launch's
    six buffers, and the generator register at some state. -/
theorem PhiA0_eq (c : Dev nD) :
    (Pipeline.ΦA spec0 c : sProp 𝕄)
      = iprop(iprop((∃ d, owns (c : Thread nD τ) scM0_0 fullShare d) ∗ rest6 c) ∗ (∃ r, prngReg c r)) := by
  unfold Pipeline.ΦA rest6; rw [scopedRest0_eq]; simp only [scM0_0, owns_whole]; try rfl

/-! ## The inputs' buffers hold their blocks -/

/-- An input's current buffer holds its block of the array as the launch found it at every point, fetched there or
    not: where it is not fetched the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Cert.Kernel.Hand

end
-- ==== Proof.Kernel.R0RunA.lean ====
/-
  The body where the tile index is 0: the accumulator is set to zero, then the tile's product is added; the output block is not touched.
-/
import proofs.«152070_j15891378995472_1_alg».proof.Proof.Kernel.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output block and in the accumulator, as lists of pieces (the last store
    first), with the proof that on whole buffers — the five inputs at their contents, the output block at contents `xi5` handed back as found,
    the accumulator at any contents (it is read once before it is set, and that value is not used) — the body runs to a continuation holding the inputs as they were
    and the accumulator with its pieces written. -/
noncomputable def kernelRun0_A (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) :
    Σ' (L5 : List (View.Piece (Elt F) S1x1x64x64 .f32)), { LS0 : List (View.Piece (Elt F) S64x64 .f32) //
      ∀ (xi5 : Vec F S1x1x64x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0_kv_kernel i arg3 harg3 arg4 harg4 arg5 harg5 arg6 harg6 arg7 harg7 arg8 harg8 arg9 harg9) K } := by
  refine ⟨[], ?_, fun xi5 E K => ?run⟩
  case run =>
    simp only [cc0_kv_kernel_eq_skeleton]; unfold cc0_kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.Kernel.R0RunB.lean ====
/-
  The body where the tile index is 1 or 2: the tile's product is added to the accumulator the point before left; the output block is not touched.
-/
import proofs.«152070_j15891378995472_1_alg».proof.Proof.Kernel.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output block and in the accumulator, as lists of pieces (the last store
    first), with the proof that on whole buffers — the five inputs at their contents, the output block at contents `xi5` handed back as found,
    the accumulator at the contents `xs0` the point before left — the body runs to a continuation holding the inputs as they were
    and the accumulator with its pieces written. -/
noncomputable def kernelRun0_B (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) :
    Σ' (L5 : List (View.Piece (Elt F) S1x1x64x64 .f32)), { LS0 : List (View.Piece (Elt F) S64x64 .f32) //
      ∀ (xi5 : Vec F S1x1x64x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0_kv_kernel i arg3 harg3 arg4 harg4 arg5 harg5 arg6 harg6 arg7 harg7 arg8 harg8 arg9 harg9) K } := by
  refine ⟨[], ?_, fun xi5 E K => ?run⟩
  case run =>
    simp only [cc0_kv_kernel_eq_skeleton]; unfold cc0_kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.Kernel.R0RunC.lean ====
/-
  The body where the tile index is 3: the tile's product is added to the accumulator the point before left, and the sum is copied to the output block.
-/
import proofs.«152070_j15891378995472_1_alg».proof.Proof.Kernel.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output block and in the accumulator, as lists of pieces (the last store
    first), with the proof that on whole buffers — the five inputs at their contents, the output block at anything,
    the accumulator at the contents `xs0` the point before left — the body runs to a continuation holding the inputs as they were, the output block with its pieces written
    and the accumulator with its pieces written. -/
noncomputable def kernelRun0_C (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) :
    Σ' (L5 : List (View.Piece (Elt F) S1x1x64x64 .f32)), { LS0 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0_kv_kernel i arg3 harg3 arg4 harg4 arg5 harg5 arg6 harg6 arg7 harg7 arg8 harg8 arg9 harg9) K } := by
  refine ⟨?_, ?_, fun E K => ?run⟩
  case run =>
    simp only [cc0_kv_kernel_eq_skeleton]; unfold cc0_kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Hand

end
-- ==== Proof.Kernel.R0.lean ====
/-
  The state launch: its proof data and its body obligation. Over the three runs of the body (tile index 0; 1 or 2;
  3) this module reads back what each leaves in the accumulator and in the output block, follows the accumulator
  from point to point, and shows that at every point the body takes the invariant before it to the invariant
  after it.
-/
import proofs.«152070_j15891378995472_1_alg».proof.Proof.Kernel.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- Where the tile index is 0 the body stores nothing into the output block: no pieces, a value nothing reads
    (the block is neither written back there nor read at the next point). -/
def out0_A_5 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) : Vec F S1x1x64x64 .f32 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4).1)

/-- The stores into the accumulator cover it. -/
theorem scover0_A_0 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) (y : S64x64.Idx) :
    ∃ pc ∈ (kernelRun0_A c i arg3 harg3 arg4 harg4 arg5 harg5 arg6 harg6 arg7 harg7 arg8 harg8 arg9 harg9 hc0 hc1 x0 x1 x2 x3 x4).2.1, y ∈ pc.1.set :=
  View.cover_of_tiledL (kernelRun0_A c i arg3 harg3 arg4 harg4 arg5 harg5 arg6 harg6 arg7 harg7 arg8 harg8 arg9 harg9 hc0 hc1 x0 x1 x2 x3 x4).2.1 S64x64.size (by sl_kernel_rfl) y

/-- What the body leaves in the accumulator: its pieces read back. -/
def sout0_A_0 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) : Vec F S64x64 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).2.1)

/-- Where the tile index is 1 or 2 the body stores nothing into the output block: no pieces, a value nothing reads
    (the block is neither written back there nor read at the next point). -/
def out0_B_5 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) : Vec F S1x1x64x64 .f32 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)

/-- The stores into the accumulator cover it. -/
theorem scover0_B_0 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) (y : S64x64.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S64x64.size (by sl_kernel_rfl) y

/-- What the body leaves in the accumulator: its pieces read back. -/
def sout0_B_0 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) : Vec F S64x64 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

/-- Where the tile index is 3 the one store into the output block covers it. -/
theorem cover0_C_5 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) (y : S1x1x64x64.Idx) :
    ∃ pc ∈ (kernelRun0_C c i arg3 harg3 arg4 harg4 arg5 harg5 arg6 harg6 arg7 harg7 arg8 harg8 arg9 harg9 hc0 hc1 x0 x1 x2 x3 x4 xs0).1, y ∈ pc.1.set :=
  View.cover_of_tiledL (kernelRun0_C c i arg3 harg3 arg4 harg4 arg5 harg5 arg6 harg6 arg7 harg7 arg8 harg8 arg9 harg9 hc0 hc1 x0 x1 x2 x3 x4 xs0).1 S1x1x64x64.size (by sl_kernel_rfl) y

/-- What the body leaves in the output block where the tile index is 3: its pieces read back. -/
def out0_C_5 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) : Vec F S1x1x64x64 .f32 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 x4 xs0).1)

/-- The stores into the accumulator cover it. -/
theorem scover0_C_0 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) (y : S64x64.Idx) :
    ∃ pc ∈ (kernelRun0_C c i arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg3 harg3 arg4 harg4 arg5 harg5 arg6 harg6 arg7 harg7 arg8 harg8 arg9 harg9 hc0 hc1 x0 x1 x2 x3 x4 xs0).2.1 S64x64.size (by sl_kernel_rfl) y

/-- What the body leaves in the accumulator: its pieces read back. -/
def sout0_C_0 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) : Vec F S64x64 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 x4 xs0).2.1)

/-! ## What the output block and the accumulator hold after each point -/

/-- The accumulation. What the output block's buffer and the accumulator hold after the body at position `n`: the
    case the closed forms select at `n`, run on the point's buffers and input blocks, the accumulator entering at
    what position `n - 1` left. Both conditions at once meet no point. -/
def outsAt0 (c : Dev nD) : (n : ℕ) → n < cfg0.N → Vec F S1x1x64x64 .f32 × Vec F S64x64 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 4 = 0 then
      if h1 : (n + 1) % 4 = 3 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- At a point whose tile index is 0. -/
theorem outsAt0_A (c : Dev nD) (t : Fin cfg0.N) (h0 : t.val % 4 = 0) (h1 : ¬t.val % 4 = 3) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

/-- At a point whose tile index is 1 or 2: over what the point before left. -/
theorem outsAt0_B (c : Dev nD) (t : Fin cfg0.N) (h0 : ¬t.val % 4 = 0) (h1 : ¬t.val % 4 = 3) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point whose tile index is 3: over what the point before left. -/
theorem outsAt0_C (c : Dev nD) (t : Fin cfg0.N) (h0 : ¬t.val % 4 = 0) (h1 : t.val % 4 = 3) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point what the launch is entered with; afterwards the accumulator at what
    the point before left, the second launch's six buffers as they were, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest6 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest6 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest6 c) ∗ (∃ r, prngReg c r)) := by
  cases n with
  | zero => exact absurd rfl hz
  | succ n => rfl

/-! ## The launch's proof data -/

/-- The arrays as the launch finds them; after the body at point `t` each input's buffer at its block and the output
    block's at the accumulation's first component; the invariant `PhiS`; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q0 (c : Dev nD) (w : Fin cfg0.W) : (dat0 V c).q w = fullShare := by
  dsimp only [dat0]
theorem owed0 (c : Dev nD) : (dat0 V c).owed = fun _ => 0 := by
  dsimp only [dat0]

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point. The inputs' buffers hold their blocks; the closed forms say which case the point is in; the
    invariant hands the body the accumulator at what the point before left (at anything before the first point) and
    takes it back at this point's contents, the stores into it covering it; the second launch's buffers, the
    generator register and what the core owes pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 256 := lt_of_lt_of_eq t.isLt (show cfg0.N = 256 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0; (try dsimp only)
      by_cases hz : t.val = 0
      ·
        rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation, at every point. -/
theorem body_obligation0 (c : Dev nD) : BodyObligation (dat0 (F := F) V c) (defs₀ (F := F)) Variants.none () Set.univ := fun t => by
  rw [bigSep_W0, bigSep_W0]
  exact sound_body V c t

/-- What the launch is entered with is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point the invariant gives back what the launch was entered with: the accumulator's contents are forgotten. -/
theorem Phi_out (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ (Pipeline.ΦA spec0 c : sProp 𝕄) :=
  Phi_out V c _ (by rw [Fin.val_last]; have : cfg0.N = 256 := N_0; omega)

end Cert.Kernel.Hand

end
-- ==== Proof.Kernel.R1.lean ====
/-
  The output launch: its proof data and the body's obligation. The launch walks a grid of 4 × 16 × 4 points
  (b, h, j). At each point the body reads the query block (rows 2048·j … 2048·j + 2047 of Q[b, h]) and the 64 × 64
  state of (b, h) whole, and writes the result block whole: the feature map of the queries, scaled, times the state.
-/
import proofs.«152070_j15891378995472_1_alg».proof.Proof.Gen.Kernel.Launch
import proofs.«152070_j15891378995472_1_alg».proof.Proof.Gen.Kernel.Skeleton
import proofs.«152070_j15891378995472_1_alg».proof.Proof.Gen.Kernel.Points
import proofs.«152070_j15891378995472_1_alg».proof.Proof.Kernel.Blk
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows hold their blocks

An input window's current buffer holds its block of the array at every point, whether or not the pipeline moved it
there: where it did not, the block index is the previous point's, and the body left the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_q : Rect S1x1x2048x64 := Rect.unit (s := S1x1x2048x64) ![0, 0, 0, 0] S1x1x2048x64.size inb_S1x1x2048x64_S1x1x2048x64_0_0_0_0
abbrev r1_s : Rect S1x1x64x64 := Rect.unit (s := S1x1x64x64) ![0, 0, 0, 0] S1x1x64x64.size inb_S1x1x64x64_S1x1x64x64_0_0_0_0

/-! ## What the body leaves in the result window's buffer -/

/-- The result window's buffer after the body, from the two input blocks: its one store, of the payload of the
    query block and the state block, over the whole buffer. -/
def out1_2 (x0 : Vec F S1x1x2048x64 .f32) (x1 : Vec F S1x1x64x64 .f32) : Vec F S1x1x2048x64 .f32 :=
  View.canon [⟨r1_q, k1_pay1 (View.ld x0 r1_q) (View.ld x1 r1_s)⟩]

/-- The one store covers the buffer. -/
theorem cover1_2 (p0 : Vec F S1x1x2048x64 .f32) (y : S1x1x2048x64.Idx) :
    ∃ pc ∈ ([⟨r1_q, p0⟩] : List (View.Piece (Elt F) S1x1x2048x64 .f32)), y ∈ pc.1.set :=
  View.cover_of_tiled [⟨r1_q, p0⟩] S1x1x2048x64.size (by rfl) y

/-! ## The body's triple -/

set_option maxHeartbeats 1000000 in
/-- The body on whole buffers, the inputs' reading x0 and x1 and the result's anything, runs to the continuation
    holding the inputs' as they were and the result's at out1_2 x0 x1. -/
theorem sound_kernel1 (c : Dev nD) (E : Set ℕ) (i : grid1.Coords)
    (arg3 : Memref sig .tc .vmem S1x1x2048x64 .f32) (harg3 : arg3.IsWhole)
    (arg4 : Memref sig .tc .vmem S1x1x64x64 .f32) (harg4 : arg4.IsWhole)
    (arg5 : Memref sig .tc .vmem S1x1x2048x64 .f32) (harg5 : arg5.IsWhole)
    (x0 : Vec F S1x1x2048x64 .f32) (x1 : Vec F S1x1x64x64 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out1_2 x0 x1)) -∗ K ⟨⟩))
      ⊢ wp frame (wpE (defs₀ (F := F)) Variants.none c none) E (cc1_out_kernel i arg3 harg3 arg4 harg4 arg5 harg5) K := by
  simp only [cc1_out_kernel_eq_skeleton]; unfold cc1_out_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The proof data of the output launch on core c: the arrays as the launch finds them; after the body at point t
    each input's buffer at its block and the result's at out1_2 of the two blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem q1 (c : Dev nD) (w : Fin cfg1.W) : (dat1 V c).q w = fullShare := by
  dsimp only [dat1]
theorem owed1 (c : Dev nD) : (dat1 V c).owed = fun _ => 0 := by
  dsimp only [dat1]
theorem Phi1 (c : Dev nD) (t : Fin (cfg1.N + 1)) : (dat1 V c).Φ t = (Pipeline.ΦA spec1 c : sProp 𝕄) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Regs.lean ====
/-
  The program's run. @main is three stretches of host operations and two launches. Between two items every unscoped
  buffer of the core is held whole at a known valuation: the launch memory, then what each host stretch computes, then,
  after a launch, the same valuation with that launch's arrays at what its write-backs leave (an input array unchanged,
  the result array the fold of the written blocks). Each launch is entered from the valuation before it and left at the
  one after it: its arrays are split out of the unscoped buffers and put back at their final contents, the register of
  the random generator and the core's empty debt ride along, and the launch's invariant starts from and gives back the
  scoped buffers no window stages. The run ends with every unscoped buffer at the last valuation; the argument arrays
  are there as launched, and the result array holds the second launch's fold.
-/
import proofs.«152070_j15891378995472_1_alg».proof.Proof.Gen.Kernel.Regions
import proofs.«152070_j15891378995472_1_alg».proof.Proof.Kernel.R0
import proofs.«152070_j15891378995472_1_alg».proof.Proof.Kernel.R1
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations at the launches' boundaries -/

/-- What launch 0 finds: the buffers after the three host stretches. -/
abbrev VR0 : (c : Dev nD) → (b : Ref sig .tc) → Buf (Elt F) ((c : Thread nD τ).loc b) := fun c b => V3 m c b

/-- After launch 0: its arrays at what its write-backs leave, every other buffer as it was. -/
def W4 (c : Dev nD) : Valuation τ sig (Elt F) :=
  Pipeline.withArrays spec0 c (V3 m c) fun w => (dat0 (VR0 m) c).arrAt w cfg0.N
theorem W4_arr (c : Dev nD) (w : Fin cfg0.W) :
    W4 m c (Proc.devRef .tc (Pipeline.arrRef spec0 w)) = (dat0 (VR0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = V3 m c (Proc.devRef .tc b) := by
  unfold W4; exact Pipeline.withArrays_of_ne spec0 c _ _ b hb

/-- What launch 1 finds. -/
abbrev VR1 : (c : Dev nD) → (b : Ref sig .tc) → Buf (Elt F) ((c : Thread nD τ).loc b) := fun c b => W4 m c b

/-- After launch 1. -/
def W5 (c : Dev nD) : Valuation τ sig (Elt F) :=
  Pipeline.withArrays spec1 c (W4 m c) fun w => (dat1 (VR1 m) c).arrAt w cfg1.N
theorem W5_arr (c : Dev nD) (w : Fin cfg1.W) :
    W5 m c (Proc.devRef .tc (Pipeline.arrRef spec1 w)) = (dat1 (VR1 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb

abbrev VR2 : (c : Dev nD) → (b : Ref sig .tc) → Buf (Elt F) ((c : Thread nD τ).loc b) := fun c b => W5 m c b

theorem hF0 (c : Dev nD) (w : Fin cfg0.W) : (dat0 (VR0 m) c).arrAt w cfg0.N = VR1 m c (Pipeline.arrRef spec0 w) :=
  (W4_arr m c w).symm
theorem hrest0 (c : Dev nD) : ∀ b, b ∉ Finset.univ.image (Pipeline.arrRef spec0) → VR1 m c b = VR0 m c b :=
  fun b hb => W4_of_ne m c b fun w e => hb (Finset.mem_image.mpr ⟨w, Finset.mem_univ _, e⟩)
theorem hF1 (c : Dev nD) (w : Fin cfg1.W) : (dat1 (VR1 m) c).arrAt w cfg1.N = VR2 m c (Pipeline.arrRef spec1 w) :=
  (W5_arr m c w).symm
theorem hrest1 (c : Dev nD) : ∀ b, b ∉ Finset.univ.image (Pipeline.arrRef spec1) → VR2 m c b = VR1 m c b :=
  fun b hb => W5_of_ne m c b fun w e => hb (Finset.mem_image.mpr ⟨w, Finset.mem_univ _, e⟩)

/-! ## The proof data family and what rides along -/

/-- Each launch's proof data at its entry valuation. -/
def pdats : (p : Fin 2) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR1 m) c

abbrev 𝒱₀ : Variants := Variants.none
abbrev L : GSem nD τ sig → Finset Unit := fun _ => ∅
abbrev lv : GSem nD τ sig → Unit → ℕ := fun _ _ => 0

/-- Beside the buffers: the generator's register at some state and the core owing nothing. -/
abbrev Rr (c : Dev nD) : sProp 𝕄 := iprop((∃ r, prngReg c r) ∗ ∃ W, owes (c : Thread nD τ) (0 : CellTallies nD τ sig Unit) W)
abbrev E : Fin 3 → Dev nD → sProp 𝕄 := fun _ c => Rr c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m c) ∗ ∃ r, prngReg c r)

/-! ## The launches as segments -/

set_option backward.isDefEq.respectTransparency.types false in
/-- Launch 0: entered from the valuation after the host stretches, left with its arrays at their final contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L lv 0 fun c t => congrFun (owed0 (VR0 m) c) t
  pre c := iprop(StableHlo.held (c : Thread nD τ) (Pipeline.ucRefs τ sig) (V3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full (q0 (VR0 m) c)) (VR0 m c) (A_eq0 (VR0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (VR0 m) c)
    unfold Pipeline.ΦA
    iintro ⟨Hp, -, Hr⟩
    isplitl [Hr]; · iexact Hr
    iexact Hp
  hout c := by
    rw [Pipeline.ownSems0_none]
    refine (hout0 (VR0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full (q0 (VR0 m) c))
      (VR0 m c) (VR1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered from the valuation launch 0 leaves, left with the result array at its final contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ L lv 1 fun c t => congrFun (owed1 (VR1 m) c) t
  pre c := iprop(StableHlo.held (c : Thread nD τ) (Pipeline.ucRefs τ sig) (W4 m c) ∗ Rr c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) adm (pdats m) launch1.win launch1.arr_whole c
      ((pdats m 1 c).share_full (q1 (VR1 m) c)) (VR1 m c) (A_eq1 (VR1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1 (VR1 m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi1 (VR1 m) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full (q1 (VR1 m) c))
      (VR1 m c) (VR2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (seg0 m 𝒱₀ L lv E), .host (seg1 m 𝒱₀ L lv E), .host (seg2 m 𝒱₀ L lv E), .region (reg0 m), .region (reg1 m) ]

theorem main_run (c : Dev nD) : main (F := F) c = Pipeline.Seg.run (segs m) := (main_chain c).trans (by chain_rfl)

set_option backward.isDefEq.respectTransparency.types false in
/-- From any memory with zero counters every weakly fair execution of @main ends, nothing faulting, with every unscoped
    buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## The last valuation read at the arguments and at the result -/

/-- The query array is launch 1's first input: it ends as launched. -/
theorem W5_main_arg0 (c : Dev nD) : W5 m c (Proc.devRef .tc main_arg0) = m ((c : Thread nD τ).loc main_arg0) :=
  (W5_arr m c 0).trans <| ((dat1 (VR1 m) c).arrAt_in 0 rfl _).trans <| (A_eq1 (VR1 m) c 0).trans <|
    (W4_of_ne m c main_arg0 (by decide)).trans ((V3_of m c main_arg0 (by decide)).trans <| (V2_of m c main_arg0 (by decide)).trans <| (V1_of m c main_arg0 (by decide)).trans rfl)
/-- The key array is launch 0's first input. -/
theorem W5_main_arg1 (c : Dev nD) : W5 m c (Proc.devRef .tc main_arg1) = m ((c : Thread nD τ).loc main_arg1) :=
  (W5_of_ne m c main_arg1 (by decide)).trans <| (W4_arr m c 0).trans <| ((dat0 (VR0 m) c).arrAt_in 0 rfl _).trans <| (A_eq0 (VR0 m) c 0).trans
    ((V3_of m c main_arg1 (by decide)).trans <| (V2_of m c main_arg1 (by decide)).trans <| (V1_of m c main_arg1 (by decide)).trans rfl)
/-- The value array is launch 0's second input. -/
theorem W5_main_arg2 (c : Dev nD) : W5 m c (Proc.devRef .tc main_arg2) = m ((c : Thread nD τ).loc main_arg2) :=
  (W5_of_ne m c main_arg2 (by decide)).trans <| (W4_arr m c 1).trans <| ((dat0 (VR0 m) c).arrAt_in 1 rfl _).trans <| (A_eq0 (VR0 m) c 1).trans
    ((V3_of m c main_arg2 (by decide)).trans <| (V2_of m c main_arg2 (by decide)).trans <| (V1_of m c main_arg2 (by decide)).trans rfl)
/-- The mask, the mixture weights and the means are no launch's array. -/
theorem W5_main_arg3 (c : Dev nD) : W5 m c (Proc.devRef .tc main_arg3) = m ((c : Thread nD τ).loc main_arg3) :=
  (W5_of_ne m c main_arg3 (by decide)).trans <| (W4_of_ne m c main_arg3 (by decide)).trans ((V3_of m c main_arg3 (by decide)).trans <| (V2_of m c main_arg3 (by decide)).trans <| (V1_of m c main_arg3 (by decide)).trans rfl)
theorem W5_main_arg4 (c : Dev nD) : W5 m c (Proc.devRef .tc main_arg4) = m ((c : Thread nD τ).loc main_arg4) :=
  (W5_of_ne m c main_arg4 (by decide)).trans <| (W4_of_ne m c main_arg4 (by decide)).trans ((V3_of m c main_arg4 (by decide)).trans <| (V2_of m c main_arg4 (by decide)).trans <| (V1_of m c main_arg4 (by decide)).trans rfl)
theorem W5_main_arg5 (c : Dev nD) : W5 m c (Proc.devRef .tc main_arg5) = m ((c : Thread nD τ).loc main_arg5) :=
  (W5_of_ne m c main_arg5 (by decide)).trans <| (W4_of_ne m c main_arg5 (by decide)).trans ((V3_of m c main_arg5 (by decide)).trans <| (V2_of m c main_arg5 (by decide)).trans <| (V1_of m c main_arg5 (by decide)).trans rfl)

/-- The result array ends at launch 1's fold of its written blocks. -/
theorem W5_main_v24 (c : Dev nD) : W5 m c (Proc.devRef .tc main_v24) = (dat1 (VR1 m) c).arrAt 2 cfg1.N := W5_arr m c 2
/-- Launch 1 finds the state array at launch 0's fold, -/
theorem VR1_main_v23 (c : Dev nD) : VR1 m c main_v23 = (dat0 (VR0 m) c).arrAt 5 cfg0.N := W4_arr m c 5
/-- and the query array as the host stretches left it. -/
theorem VR1_main_arg0 (c : Dev nD) : VR1 m c main_arg0 = V3 m c main_arg0 := W4_of_ne m c main_arg0 (by decide)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m c), (h c _ (mem_uc main_arg1 (by decide))).trans (W5_main_arg1 m c),
     (h c _ (mem_uc main_arg2 (by decide))).trans (W5_main_arg2 m c), (h c _ (mem_uc main_arg3 (by decide))).trans (W5_main_arg3 m c),
     (h c _ (mem_uc main_arg4 (by decide))).trans (W5_main_arg4 m c), (h c _ (mem_uc main_arg5 (by decide))).trans (W5_main_arg5 m c)⟩)
    (run_all m ρ)

/-- The run with the result array named too. -/
theorem run_result : θ_run defs (onTc (τ := τ) (main (F := F))) ⟨m, fun _ => 0, ρ⟩ (fun r => ∀ c : Dev nD,
      r.2.mem ((c.tc : Thread nD τ).loc main_v24) = (dat1 (VR1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v24 (by decide))).trans (W5_main_v24 m c),
     (h c _ (mem_uc main_arg0 (by decide))).trans (W5_main_arg0 m c), (h c _ (mem_uc main_arg1 (by decide))).trans (W5_main_arg1 m c),
     (h c _ (mem_uc main_arg2 (by decide))).trans (W5_main_arg2 m c), (h c _ (mem_uc main_arg3 (by decide))).trans (W5_main_arg3 m c),
     (h c _ (mem_uc main_arg4 (by decide))).trans (W5_main_arg4 m c), (h c _ (mem_uc main_arg5 (by decide))).trans (W5_main_arg5 m c)⟩)
    (run_all m ρ)

end Cert.Kernel.Hand

end
-- ==== Proof.KernelIdeal.Blk.lean ====
/-
  The blocks the two launches read. Launch 0 walks a grid of 4 × 16 × 4 points (b, h, j): window 0 is rows
  2048·j … 2048·j + 2047 of K[b, h], window 1 the same rows of V[b, h], window 2 the same rows of the mask column of
  batch b, windows 3 and 4 row h of the two [16, 1, 64] coefficient arrays, window 5 the 64 × 64 state of (b, h).
  Launch 1 walks the same grid: window 0 is the same rows of Q[b, h], window 1 the state of (b, h), window 2 the
  same rows of the result. A block is read off its array as the launch finds it.
-/
import proofs.«152070_j15891378995472_1_alg».proof.Proof.Gen.KernelIdeal.Launch

noncomputable section

namespace Cert.KernelIdeal.Hand

open Cert.KernelIdeal Cert.KernelIdeal.Gen
open Idealize.ShloMosaic Idealize.ShloMosaic.TcCoe Idealize.SL.Sem

variable {F : FTy → Type} [FloatOps F]
variable (V : (c : Dev nD) → (b : Ref sig .tc) → Buf (Elt F) ((c : Thread nD τ).loc b))

/-- Window `w` of launch 0 at point `t`: its block of the array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of launch 1 at point `t`: its block of the array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Cert.KernelIdeal.Hand

end
-- ==== Proof.KernelIdeal.R0Runs.lean ====
/-
  The state launch walks 4 × 16 × 4 points (b, h, j). Its body keeps a 64 × 64 accumulator between points: it
  is set to zero where j = 0, the tile's product is added at every point, and it is copied to the output block
  where j = 3. This module fixes the two conditions on the point and their closed forms, where the output
  window is idle, the names of the buffers the body is called with, and the shape of the invariant around it.
-/
import proofs.«152070_j15891378995472_1_alg».proof.Proof.Gen.KernelIdeal.Launch
import proofs.«152070_j15891378995472_1_alg».proof.Proof.Gen.KernelIdeal.Skeleton
import proofs.«152070_j15891378995472_1_alg».proof.Proof.Gen.KernelIdeal.Points
import proofs.«152070_j15891378995472_1_alg».proof.Proof.KernelIdeal.Blk
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The two conditions on the grid point -/

/-- The first condition: the tile index is 0. -/
abbrev cond0_0 (i : grid0.Coords) : Prop := (Scalar.cmpi .ne (Scalar.extui (Scalar.cmpi .eq (BitVec.ofNat 32 (i 2).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second condition: the tile index is 3. -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The five inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- Where the tile index is 0 the output block is idle and is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- Where the tile index is 1 or 2 the output block is idle and is not written back. -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- Where the tile index is 3 the output block is live. -/
theorem liveAt0_5_C : ∀ t : Fin cfg0.N, ¬cond0_0 (grid0.coords t) → cond0_1 (grid0.coords t) → cfg0.idle 5 (grid0.coords t) = false := by decide +kernel

/-! ## The buffers the body is called with -/

/-- One buffer of the output window, through which its contents are stated. -/
abbrev VO0_5 : View sig .tc .vmem S1x1x64x64 .f32 := (Memref.whole cc0_stg5_0 : Memref sig .tc .vmem S1x1x64x64 .f32).view
/-- Each window's current buffer at point `t`, and that it is a whole buffer. -/
abbrev ms0_0 (t : Fin cfg0.N) : Memref sig .tc .vmem S1x1x2048x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64x64 .f32 := win0_5.stage (cfg0.slots t 5)
abbrev hs0_5 (t : Fin cfg0.N) : (ms0_5 t).IsWhole := hstage0_5 ((cfg0.slots t 5).cast nbuf0_5)
/-- The accumulator: a whole buffer of the launch's own, passed beside the windows. -/
abbrev scM0_0 : Memref sig .tc .vmem S64x64 .f32 := Memref.whole cc0_scratch0
/-- The accumulator as a view: what it holds is stated through it. -/
abbrev VS0_0 : View sig .tc .vmem S64x64 .f32 := scM0_0.view

/-! ## The invariant around the launch -/

/-- The second launch's six buffers, each whole at some contents: carried through this launch untouched. -/
def rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The invariant the launch is entered and left with: the accumulator owned at some contents, the second launch's
    six buffers, and the generator register at some state. -/
theorem PhiA0_eq (c : Dev nD) :
    (Pipeline.ΦA spec0 c : sProp 𝕄)
      = iprop(iprop((∃ d, owns (c : Thread nD τ) scM0_0 fullShare d) ∗ rest6 c) ∗ (∃ r, prngReg c r)) := by
  unfold Pipeline.ΦA rest6; rw [scopedRest0_eq]; simp only [scM0_0, owns_whole]; try rfl

/-! ## The inputs' buffers hold their blocks -/

/-- An input's current buffer holds its block of the array as the launch found it at every point, fetched there or
    not: where it is not fetched the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Cert.KernelIdeal.Hand

end
-- ==== Proof.KernelIdeal.R0RunA.lean ====
/-
  The body where the tile index is 0: the accumulator is set to zero, then the tile's product is added; the output block is not touched.
-/
import proofs.«152070_j15891378995472_1_alg».proof.Proof.KernelIdeal.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output block and in the accumulator, as lists of pieces (the last store
    first), with the proof that on whole buffers — the five inputs at their contents, the output block at contents `xi5` handed back as found,
    the accumulator at any contents (it is read once before it is set, and that value is not used) — the body runs to a continuation holding the inputs as they were
    and the accumulator with its pieces written. -/
noncomputable def kernelRun0_A (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) :
    Σ' (L5 : List (View.Piece (Elt F) S1x1x64x64 .f32)), { LS0 : List (View.Piece (Elt F) S64x64 .f32) //
      ∀ (xi5 : Vec F S1x1x64x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0_kv_kernel i arg3 harg3 arg4 harg4 arg5 harg5 arg6 harg6 arg7 harg7 arg8 harg8 arg9 harg9) K } := by
  refine ⟨[], ?_, fun xi5 E K => ?run⟩
  case run =>
    simp only [cc0_kv_kernel_eq_skeleton]; unfold cc0_kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KernelIdeal.R0RunB.lean ====
/-
  The body where the tile index is 1 or 2: the tile's product is added to the accumulator the point before left; the output block is not touched.
-/
import proofs.«152070_j15891378995472_1_alg».proof.Proof.KernelIdeal.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output block and in the accumulator, as lists of pieces (the last store
    first), with the proof that on whole buffers — the five inputs at their contents, the output block at contents `xi5` handed back as found,
    the accumulator at the contents `xs0` the point before left — the body runs to a continuation holding the inputs as they were
    and the accumulator with its pieces written. -/
noncomputable def kernelRun0_B (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) :
    Σ' (L5 : List (View.Piece (Elt F) S1x1x64x64 .f32)), { LS0 : List (View.Piece (Elt F) S64x64 .f32) //
      ∀ (xi5 : Vec F S1x1x64x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0_kv_kernel i arg3 harg3 arg4 harg4 arg5 harg5 arg6 harg6 arg7 harg7 arg8 harg8 arg9 harg9) K } := by
  refine ⟨[], ?_, fun xi5 E K => ?run⟩
  case run =>
    simp only [cc0_kv_kernel_eq_skeleton]; unfold cc0_kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KernelIdeal.R0RunC.lean ====
/-
  The body where the tile index is 3: the tile's product is added to the accumulator the point before left, and the sum is copied to the output block.
-/
import proofs.«152070_j15891378995472_1_alg».proof.Proof.KernelIdeal.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in the output block and in the accumulator, as lists of pieces (the last store
    first), with the proof that on whole buffers — the five inputs at their contents, the output block at anything,
    the accumulator at the contents `xs0` the point before left — the body runs to a continuation holding the inputs as they were, the output block with its pieces written
    and the accumulator with its pieces written. -/
noncomputable def kernelRun0_C (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) :
    Σ' (L5 : List (View.Piece (Elt F) S1x1x64x64 .f32)), { LS0 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0_kv_kernel i arg3 harg3 arg4 harg4 arg5 harg5 arg6 harg6 arg7 harg7 arg8 harg8 arg9 harg9) K } := by
  refine ⟨?_, ?_, fun E K => ?run⟩
  case run =>
    simp only [cc0_kv_kernel_eq_skeleton]; unfold cc0_kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Hand

end
-- ==== Proof.KernelIdeal.R0.lean ====
/-
  The state launch: its proof data and its body obligation. Over the three runs of the body (tile index 0; 1 or 2;
  3) this module reads back what each leaves in the accumulator and in the output block, follows the accumulator
  from point to point, and shows that at every point the body takes the invariant before it to the invariant
  after it.
-/
import proofs.«152070_j15891378995472_1_alg».proof.Proof.KernelIdeal.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- Where the tile index is 0 the body stores nothing into the output block: no pieces, a value nothing reads
    (the block is neither written back there nor read at the next point). -/
def out0_A_5 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) : Vec F S1x1x64x64 .f32 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4).1)

/-- The stores into the accumulator cover it. -/
theorem scover0_A_0 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) (y : S64x64.Idx) :
    ∃ pc ∈ (kernelRun0_A c i arg3 harg3 arg4 harg4 arg5 harg5 arg6 harg6 arg7 harg7 arg8 harg8 arg9 harg9 hc0 hc1 x0 x1 x2 x3 x4).2.1, y ∈ pc.1.set :=
  View.cover_of_tiledL (kernelRun0_A c i arg3 harg3 arg4 harg4 arg5 harg5 arg6 harg6 arg7 harg7 arg8 harg8 arg9 harg9 hc0 hc1 x0 x1 x2 x3 x4).2.1 S64x64.size (by sl_kernel_rfl) y

/-- What the body leaves in the accumulator: its pieces read back. -/
def sout0_A_0 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) : Vec F S64x64 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).2.1)

/-- Where the tile index is 1 or 2 the body stores nothing into the output block: no pieces, a value nothing reads
    (the block is neither written back there nor read at the next point). -/
def out0_B_5 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) : Vec F S1x1x64x64 .f32 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)

/-- The stores into the accumulator cover it. -/
theorem scover0_B_0 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) (y : S64x64.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S64x64.size (by sl_kernel_rfl) y

/-- What the body leaves in the accumulator: its pieces read back. -/
def sout0_B_0 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) : Vec F S64x64 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

/-- Where the tile index is 3 the one store into the output block covers it. -/
theorem cover0_C_5 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) (y : S1x1x64x64.Idx) :
    ∃ pc ∈ (kernelRun0_C c i arg3 harg3 arg4 harg4 arg5 harg5 arg6 harg6 arg7 harg7 arg8 harg8 arg9 harg9 hc0 hc1 x0 x1 x2 x3 x4 xs0).1, y ∈ pc.1.set :=
  View.cover_of_tiledL (kernelRun0_C c i arg3 harg3 arg4 harg4 arg5 harg5 arg6 harg6 arg7 harg7 arg8 harg8 arg9 harg9 hc0 hc1 x0 x1 x2 x3 x4 xs0).1 S1x1x64x64.size (by sl_kernel_rfl) y

/-- What the body leaves in the output block where the tile index is 3: its pieces read back. -/
def out0_C_5 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) : Vec F S1x1x64x64 .f32 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 x4 xs0).1)

/-- The stores into the accumulator cover it. -/
theorem scover0_C_0 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) (y : S64x64.Idx) :
    ∃ pc ∈ (kernelRun0_C c i arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg3 harg3 arg4 harg4 arg5 harg5 arg6 harg6 arg7 harg7 arg8 harg8 arg9 harg9 hc0 hc1 x0 x1 x2 x3 x4 xs0).2.1 S64x64.size (by sl_kernel_rfl) y

/-- What the body leaves in the accumulator: its pieces read back. -/
def sout0_C_0 (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) : Vec F S64x64 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 x4 xs0).2.1)

/-! ## What the output block and the accumulator hold after each point -/

/-- The accumulation. What the output block's buffer and the accumulator hold after the body at position `n`: the
    case the closed forms select at `n`, run on the point's buffers and input blocks, the accumulator entering at
    what position `n - 1` left. Both conditions at once meet no point. -/
def outsAt0 (c : Dev nD) : (n : ℕ) → n < cfg0.N → Vec F S1x1x64x64 .f32 × Vec F S64x64 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 4 = 0 then
      if h1 : (n + 1) % 4 = 3 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- At a point whose tile index is 0. -/
theorem outsAt0_A (c : Dev nD) (t : Fin cfg0.N) (h0 : t.val % 4 = 0) (h1 : ¬t.val % 4 = 3) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

/-- At a point whose tile index is 1 or 2: over what the point before left. -/
theorem outsAt0_B (c : Dev nD) (t : Fin cfg0.N) (h0 : ¬t.val % 4 = 0) (h1 : ¬t.val % 4 = 3) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point whose tile index is 3: over what the point before left. -/
theorem outsAt0_C (c : Dev nD) (t : Fin cfg0.N) (h0 : ¬t.val % 4 = 0) (h1 : t.val % 4 = 3) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point what the launch is entered with; afterwards the accumulator at what
    the point before left, the second launch's six buffers as they were, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest6 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest6 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest6 c) ∗ (∃ r, prngReg c r)) := by
  cases n with
  | zero => exact absurd rfl hz
  | succ n => rfl

/-! ## The launch's proof data -/

/-- The arrays as the launch finds them; after the body at point `t` each input's buffer at its block and the output
    block's at the accumulation's first component; the invariant `PhiS`; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q0 (c : Dev nD) (w : Fin cfg0.W) : (dat0 V c).q w = fullShare := by
  dsimp only [dat0]
theorem owed0 (c : Dev nD) : (dat0 V c).owed = fun _ => 0 := by
  dsimp only [dat0]

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point. The inputs' buffers hold their blocks; the closed forms say which case the point is in; the
    invariant hands the body the accumulator at what the point before left (at anything before the first point) and
    takes it back at this point's contents, the stores into it covering it; the second launch's buffers, the
    generator register and what the core owes pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 256 := lt_of_lt_of_eq t.isLt (show cfg0.N = 256 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0; (try dsimp only)
      by_cases hz : t.val = 0
      ·
        rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation, at every point. -/
theorem body_obligation0 (c : Dev nD) : BodyObligation (dat0 (F := F) V c) (defs₀ (F := F)) Variants.none () Set.univ := fun t => by
  rw [bigSep_W0, bigSep_W0]
  exact sound_body V c t

/-- What the launch is entered with is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point the invariant gives back what the launch was entered with: the accumulator's contents are forgotten. -/
theorem Phi_out (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ (Pipeline.ΦA spec0 c : sProp 𝕄) :=
  Phi_out V c _ (by rw [Fin.val_last]; have : cfg0.N = 256 := N_0; omega)

end Cert.KernelIdeal.Hand

end
-- ==== Proof.KernelIdeal.R1.lean ====
/-
  The output launch: its proof data and the body's obligation. The launch walks a grid of 4 × 16 × 4 points
  (b, h, j). At each point the body reads the query block (rows 2048·j … 2048·j + 2047 of Q[b, h]) and the 64 × 64
  state of (b, h) whole, and writes the result block whole: the feature map of the queries, scaled, times the state.
-/
import proofs.«152070_j15891378995472_1_alg».proof.Proof.Gen.KernelIdeal.Launch
import proofs.«152070_j15891378995472_1_alg».proof.Proof.Gen.KernelIdeal.Skeleton
import proofs.«152070_j15891378995472_1_alg».proof.Proof.Gen.KernelIdeal.Points
import proofs.«152070_j15891378995472_1_alg».proof.Proof.KernelIdeal.Blk
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows hold their blocks

An input window's current buffer holds its block of the array at every point, whether or not the pipeline moved it
there: where it did not, the block index is the previous point's, and the body left the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_q : Rect S1x1x2048x64 := Rect.unit (s := S1x1x2048x64) ![0, 0, 0, 0] S1x1x2048x64.size inb_S1x1x2048x64_S1x1x2048x64_0_0_0_0
abbrev r1_s : Rect S1x1x64x64 := Rect.unit (s := S1x1x64x64) ![0, 0, 0, 0] S1x1x64x64.size inb_S1x1x64x64_S1x1x64x64_0_0_0_0

/-! ## What the body leaves in the result window's buffer -/

/-- The result window's buffer after the body, from the two input blocks: its one store, of the payload of the
    query block and the state block, over the whole buffer. -/
def out1_2 (x0 : Vec F S1x1x2048x64 .f32) (x1 : Vec F S1x1x64x64 .f32) : Vec F S1x1x2048x64 .f32 :=
  View.canon [⟨r1_q, k1_pay1 (View.ld x0 r1_q) (View.ld x1 r1_s)⟩]

/-- The one store covers the buffer. -/
theorem cover1_2 (p0 : Vec F S1x1x2048x64 .f32) (y : S1x1x2048x64.Idx) :
    ∃ pc ∈ ([⟨r1_q, p0⟩] : List (View.Piece (Elt F) S1x1x2048x64 .f32)), y ∈ pc.1.set :=
  View.cover_of_tiled [⟨r1_q, p0⟩] S1x1x2048x64.size (by rfl) y

/-! ## The body's triple -/

set_option maxHeartbeats 1000000 in
/-- The body on whole buffers, the inputs' reading x0 and x1 and the result's anything, runs to the continuation
    holding the inputs' as they were and the result's at out1_2 x0 x1. -/
theorem sound_kernel1 (c : Dev nD) (E : Set ℕ) (i : grid1.Coords)
    (arg3 : Memref sig .tc .vmem S1x1x2048x64 .f32) (harg3 : arg3.IsWhole)
    (arg4 : Memref sig .tc .vmem S1x1x64x64 .f32) (harg4 : arg4.IsWhole)
    (arg5 : Memref sig .tc .vmem S1x1x2048x64 .f32) (harg5 : arg5.IsWhole)
    (x0 : Vec F S1x1x2048x64 .f32) (x1 : Vec F S1x1x64x64 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out1_2 x0 x1)) -∗ K ⟨⟩))
      ⊢ wp frame (wpE (defs₀ (F := F)) Variants.none c none) E (cc1_out_kernel i arg3 harg3 arg4 harg4 arg5 harg5) K := by
  simp only [cc1_out_kernel_eq_skeleton]; unfold cc1_out_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The proof data of the output launch on core c: the arrays as the launch finds them; after the body at point t
    each input's buffer at its block and the result's at out1_2 of the two blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem q1 (c : Dev nD) (w : Fin cfg1.W) : (dat1 V c).q w = fullShare := by
  dsimp only [dat1]
theorem owed1 (c : Dev nD) : (dat1 V c).owed = fun _ => 0 := by
  dsimp only [dat1]
theorem Phi1 (c : Dev nD) (t : Fin (cfg1.N + 1)) : (dat1 V c).Φ t = (Pipeline.ΦA spec1 c : sProp 𝕄) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Regs.lean ====
/-
  The program's run. @main is three stretches of host operations and two launches. Between two items every unscoped
  buffer of the core is held whole at a known valuation: the launch memory, then what each host stretch computes, then,
  after a launch, the same valuation with that launch's arrays at what its write-backs leave (an input array unchanged,
  the result array the fold of the written blocks). Each launch is entered from the valuation before it and left at the
  one after it: its arrays are split out of the unscoped buffers and put back at their final contents, the register of
  the random generator and the core's empty debt ride along, and the launch's invariant starts from and gives back the
  scoped buffers no window stages. The run ends with every unscoped buffer at the last valuation; the argument arrays
  are there as launched, and the result array holds the second launch's fold.
-/
import proofs.«152070_j15891378995472_1_alg».proof.Proof.Gen.KernelIdeal.Regions
import proofs.«152070_j15891378995472_1_alg».proof.Proof.KernelIdeal.R0
import proofs.«152070_j15891378995472_1_alg».proof.Proof.KernelIdeal.R1
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations at the launches' boundaries -/

/-- What launch 0 finds: the buffers after the three host stretches. -/
abbrev VR0 : (c : Dev nD) → (b : Ref sig .tc) → Buf (Elt F) ((c : Thread nD τ).loc b) := fun c b => V3 m c b

/-- After launch 0: its arrays at what its write-backs leave, every other buffer as it was. -/
def W4 (c : Dev nD) : Valuation τ sig (Elt F) :=
  Pipeline.withArrays spec0 c (V3 m c) fun w => (dat0 (VR0 m) c).arrAt w cfg0.N
theorem W4_arr (c : Dev nD) (w : Fin cfg0.W) :
    W4 m c (Proc.devRef .tc (Pipeline.arrRef spec0 w)) = (dat0 (VR0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = V3 m c (Proc.devRef .tc b) := by
  unfold W4; exact Pipeline.withArrays_of_ne spec0 c _ _ b hb

/-- What launch 1 finds. -/
abbrev VR1 : (c : Dev nD) → (b : Ref sig .tc) → Buf (Elt F) ((c : Thread nD τ).loc b) := fun c b => W4 m c b

/-- After launch 1. -/
def W5 (c : Dev nD) : Valuation τ sig (Elt F) :=
  Pipeline.withArrays spec1 c (W4 m c) fun w => (dat1 (VR1 m) c).arrAt w cfg1.N
theorem W5_arr (c : Dev nD) (w : Fin cfg1.W) :
    W5 m c (Proc.devRef .tc (Pipeline.arrRef spec1 w)) = (dat1 (VR1 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb

abbrev VR2 : (c : Dev nD) → (b : Ref sig .tc) → Buf (Elt F) ((c : Thread nD τ).loc b) := fun c b => W5 m c b

theorem hF0 (c : Dev nD) (w : Fin cfg0.W) : (dat0 (VR0 m) c).arrAt w cfg0.N = VR1 m c (Pipeline.arrRef spec0 w) :=
  (W4_arr m c w).symm
theorem hrest0 (c : Dev nD) : ∀ b, b ∉ Finset.univ.image (Pipeline.arrRef spec0) → VR1 m c b = VR0 m c b :=
  fun b hb => W4_of_ne m c b fun w e => hb (Finset.mem_image.mpr ⟨w, Finset.mem_univ _, e⟩)
theorem hF1 (c : Dev nD) (w : Fin cfg1.W) : (dat1 (VR1 m) c).arrAt w cfg1.N = VR2 m c (Pipeline.arrRef spec1 w) :=
  (W5_arr m c w).symm
theorem hrest1 (c : Dev nD) : ∀ b, b ∉ Finset.univ.image (Pipeline.arrRef spec1) → VR2 m c b = VR1 m c b :=
  fun b hb => W5_of_ne m c b fun w e => hb (Finset.mem_image.mpr ⟨w, Finset.mem_univ _, e⟩)

/-! ## The proof data family and what rides along -/

/-- Each launch's proof data at its entry valuation. -/
def pdats : (p : Fin 2) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR1 m) c

abbrev 𝒱₀ : Variants := Variants.none
abbrev L : GSem nD τ sig → Finset Unit := fun _ => ∅
abbrev lv : GSem nD τ sig → Unit → ℕ := fun _ _ => 0

/-- Beside the buffers: the generator's register at some state and the core owing nothing. -/
abbrev Rr (c : Dev nD) : sProp 𝕄 := iprop((∃ r, prngReg c r) ∗ ∃ W, owes (c : Thread nD τ) (0 : CellTallies nD τ sig Unit) W)
abbrev E : Fin 3 → Dev nD → sProp 𝕄 := fun _ c => Rr c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m c) ∗ ∃ r, prngReg c r)

/-! ## The launches as segments -/

set_option backward.isDefEq.respectTransparency.types false in
/-- Launch 0: entered from the valuation after the host stretches, left with its arrays at their final contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L lv 0 fun c t => congrFun (owed0 (VR0 m) c) t
  pre c := iprop(StableHlo.held (c : Thread nD τ) (Pipeline.ucRefs τ sig) (V3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full (q0 (VR0 m) c)) (VR0 m c) (A_eq0 (VR0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (VR0 m) c)
    unfold Pipeline.ΦA
    iintro ⟨Hp, -, Hr⟩
    isplitl [Hr]; · iexact Hr
    iexact Hp
  hout c := by
    rw [Pipeline.ownSems0_none]
    refine (hout0 (VR0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full (q0 (VR0 m) c))
      (VR0 m c) (VR1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered from the valuation launch 0 leaves, left with the result array at its final contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ L lv 1 fun c t => congrFun (owed1 (VR1 m) c) t
  pre c := iprop(StableHlo.held (c : Thread nD τ) (Pipeline.ucRefs τ sig) (W4 m c) ∗ Rr c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) adm (pdats m) launch1.win launch1.arr_whole c
      ((pdats m 1 c).share_full (q1 (VR1 m) c)) (VR1 m c) (A_eq1 (VR1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1 (VR1 m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi1 (VR1 m) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full (q1 (VR1 m) c))
      (VR1 m c) (VR2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (seg0 m 𝒱₀ L lv E), .host (seg1 m 𝒱₀ L lv E), .host (seg2 m 𝒱₀ L lv E), .region (reg0 m), .region (reg1 m) ]

theorem main_run (c : Dev nD) : main (F := F) c = Pipeline.Seg.run (segs m) := (main_chain c).trans (by chain_rfl)

set_option backward.isDefEq.respectTransparency.types false in
/-- From any memory with zero counters every weakly fair execution of @main ends, nothing faulting, with every unscoped
    buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## The last valuation read at the arguments and at the result -/

/-- The query array is launch 1's first input: it ends as launched. -/
theorem W5_main_arg0 (c : Dev nD) : W5 m c (Proc.devRef .tc main_arg0) = m ((c : Thread nD τ).loc main_arg0) :=
  (W5_arr m c 0).trans <| ((dat1 (VR1 m) c).arrAt_in 0 rfl _).trans <| (A_eq1 (VR1 m) c 0).trans <|
    (W4_of_ne m c main_arg0 (by decide)).trans ((V3_of m c main_arg0 (by decide)).trans <| (V2_of m c main_arg0 (by decide)).trans <| (V1_of m c main_arg0 (by decide)).trans rfl)
/-- The key array is launch 0's first input. -/
theorem W5_main_arg1 (c : Dev nD) : W5 m c (Proc.devRef .tc main_arg1) = m ((c : Thread nD τ).loc main_arg1) :=
  (W5_of_ne m c main_arg1 (by decide)).trans <| (W4_arr m c 0).trans <| ((dat0 (VR0 m) c).arrAt_in 0 rfl _).trans <| (A_eq0 (VR0 m) c 0).trans
    ((V3_of m c main_arg1 (by decide)).trans <| (V2_of m c main_arg1 (by decide)).trans <| (V1_of m c main_arg1 (by decide)).trans rfl)
/-- The value array is launch 0's second input. -/
theorem W5_main_arg2 (c : Dev nD) : W5 m c (Proc.devRef .tc main_arg2) = m ((c : Thread nD τ).loc main_arg2) :=
  (W5_of_ne m c main_arg2 (by decide)).trans <| (W4_arr m c 1).trans <| ((dat0 (VR0 m) c).arrAt_in 1 rfl _).trans <| (A_eq0 (VR0 m) c 1).trans
    ((V3_of m c main_arg2 (by decide)).trans <| (V2_of m c main_arg2 (by decide)).trans <| (V1_of m c main_arg2 (by decide)).trans rfl)
/-- The mask, the mixture weights and the means are no launch's array. -/
theorem W5_main_arg3 (c : Dev nD) : W5 m c (Proc.devRef .tc main_arg3) = m ((c : Thread nD τ).loc main_arg3) :=
  (W5_of_ne m c main_arg3 (by decide)).trans <| (W4_of_ne m c main_arg3 (by decide)).trans ((V3_of m c main_arg3 (by decide)).trans <| (V2_of m c main_arg3 (by decide)).trans <| (V1_of m c main_arg3 (by decide)).trans rfl)
theorem W5_main_arg4 (c : Dev nD) : W5 m c (Proc.devRef .tc main_arg4) = m ((c : Thread nD τ).loc main_arg4) :=
  (W5_of_ne m c main_arg4 (by decide)).trans <| (W4_of_ne m c main_arg4 (by decide)).trans ((V3_of m c main_arg4 (by decide)).trans <| (V2_of m c main_arg4 (by decide)).trans <| (V1_of m c main_arg4 (by decide)).trans rfl)
theorem W5_main_arg5 (c : Dev nD) : W5 m c (Proc.devRef .tc main_arg5) = m ((c : Thread nD τ).loc main_arg5) :=
  (W5_of_ne m c main_arg5 (by decide)).trans <| (W4_of_ne m c main_arg5 (by decide)).trans ((V3_of m c main_arg5 (by decide)).trans <| (V2_of m c main_arg5 (by decide)).trans <| (V1_of m c main_arg5 (by decide)).trans rfl)

/-- The result array ends at launch 1's fold of its written blocks. -/
theorem W5_main_v24 (c : Dev nD) : W5 m c (Proc.devRef .tc main_v24) = (dat1 (VR1 m) c).arrAt 2 cfg1.N := W5_arr m c 2
/-- Launch 1 finds the state array at launch 0's fold, -/
theorem VR1_main_v23 (c : Dev nD) : VR1 m c main_v23 = (dat0 (VR0 m) c).arrAt 5 cfg0.N := W4_arr m c 5
/-- and the query array as the host stretches left it. -/
theorem VR1_main_arg0 (c : Dev nD) : VR1 m c main_arg0 = V3 m c main_arg0 := W4_of_ne m c main_arg0 (by decide)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m c), (h c _ (mem_uc main_arg1 (by decide))).trans (W5_main_arg1 m c),
     (h c _ (mem_uc main_arg2 (by decide))).trans (W5_main_arg2 m c), (h c _ (mem_uc main_arg3 (by decide))).trans (W5_main_arg3 m c),
     (h c _ (mem_uc main_arg4 (by decide))).trans (W5_main_arg4 m c), (h c _ (mem_uc main_arg5 (by decide))).trans (W5_main_arg5 m c)⟩)
    (run_all m ρ)

/-- The run with the result array named too. -/
theorem run_result : θ_run defs (onTc (τ := τ) (main (F := F))) ⟨m, fun _ => 0, ρ⟩ (fun r => ∀ c : Dev nD,
      r.2.mem ((c.tc : Thread nD τ).loc main_v24) = (dat1 (VR1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v24 (by decide))).trans (W5_main_v24 m c),
     (h c _ (mem_uc main_arg0 (by decide))).trans (W5_main_arg0 m c), (h c _ (mem_uc main_arg1 (by decide))).trans (W5_main_arg1 m c),
     (h c _ (mem_uc main_arg2 (by decide))).trans (W5_main_arg2 m c), (h c _ (mem_uc main_arg3 (by decide))).trans (W5_main_arg3 m c),
     (h c _ (mem_uc main_arg4 (by decide))).trans (W5_main_arg4 m c), (h c _ (mem_uc main_arg5 (by decide))).trans (W5_main_arg5 m c)⟩)
    (run_all m ρ)

end Cert.KernelIdeal.Hand

end
-- ==== Proof.KernelIdeal.R0Pieces.lean ====
/-
  What the stores of one run of the state launch's body amount to. The body stores whole buffers only: the accumulator
  (zeroed first where the tile index is 0, then updated) and, where the tile index is 3, the output block. Read back
  as one value, the accumulator's stores are the update of the point's blocks applied to the zero matrix (tile index
  0) or to what the accumulator held on entry (elsewhere), and the output block's store is that new accumulator
  viewed as a [1, 1, 64, 64] block.
-/
import proofs.«152070_j15891378995472_1_alg».proof.Proof.KernelIdeal.R0RunC
import Idealize.ShloMosaic.Lib.Pipeline.Value
set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a whole-buffer access are all zero. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Tile index 0: the accumulator is zeroed, read back and updated; the later store covers the earlier one. -/
theorem canonS_A (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) :
    View.canon (kernelRun0_A c i arg3 harg3 arg4 harg4 arg5 harg5 arg6 harg6 arg7 harg7 arg8 harg8 arg9 harg9 hc0 hc1 x0 x1 x2 x3 x4).2.1
      = k0_pay1 (k0_pay5 x0 x2 x3 x4) (k0_pay6 x1 x2) (k0_pay3 (F := F)) := by
  unfold kernelRun0_A
  dsimp only
  sl_unfold_words
  rw [View.canon_cons_unit_zero (S := S64x64) hz2, View.readCov_unit_zero (S := S64x64) _ hz2]
  simp only [View.readAt_eq_ld, harg3.read_unread, harg4.read_unread, harg5.read_unread, harg6.read_unread, harg7.read_unread,
    View.ld_unit_zero (S := S1x1x2048x64) hz4, View.ld_unit_zero (S := S1x2048x1) hz3, View.ld_unit_zero (S := S1x1x64) hz3]

/-- Tile index 1 or 2: the accumulator as it was on entry, updated. -/
theorem canonS_B (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) :
    View.canon (kernelRun0_B c i arg3 harg3 arg4 harg4 arg5 harg5 arg6 harg6 arg7 harg7 arg8 harg8 arg9 harg9 hc0 hc1 x0 x1 x2 x3 x4 xs0).2.1
      = k0_pay1 (k0_pay5 x0 x2 x3 x4) (k0_pay6 x1 x2) xs0 := by
  unfold kernelRun0_B
  dsimp only
  sl_unfold_words
  rw [View.canon_unit_zero (S := S64x64) hz2]
  simp only [View.readAt_eq_ld, harg3.read_unread, harg4.read_unread, harg5.read_unread, harg6.read_unread, harg7.read_unread, harg9.read_unread,
    View.ld_unit_zero (S := S1x1x2048x64) hz4, View.ld_unit_zero (S := S1x2048x1) hz3, View.ld_unit_zero (S := S1x1x64) hz3,
    View.ld_unit_zero (S := S64x64) hz2]

/-- Tile index 3, the accumulator: as it was on entry, updated. -/
theorem canonS_C (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) :
    View.canon (kernelRun0_C c i arg3 harg3 arg4 harg4 arg5 harg5 arg6 harg6 arg7 harg7 arg8 harg8 arg9 harg9 hc0 hc1 x0 x1 x2 x3 x4 xs0).2.1
      = k0_pay1 (k0_pay5 x0 x2 x3 x4) (k0_pay6 x1 x2) xs0 := by
  unfold kernelRun0_C
  dsimp only
  sl_unfold_words
  rw [View.canon_unit_zero (S := S64x64) hz2]
  simp only [View.readAt_eq_ld, harg3.read_unread, harg4.read_unread, harg5.read_unread, harg6.read_unread, harg7.read_unread, harg9.read_unread,
    View.ld_unit_zero (S := S1x1x2048x64) hz4, View.ld_unit_zero (S := S1x2048x1) hz3, View.ld_unit_zero (S := S1x1x64) hz3,
    View.ld_unit_zero (S := S64x64) hz2]

/-- Tile index 3, the output block: the updated accumulator, read back and viewed as a block. -/
theorem canonO_C (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) :
    View.canon (kernelRun0_C c i arg3 harg3 arg4 harg4 arg5 harg5 arg6 harg6 arg7 harg7 arg8 harg8 arg9 harg9 hc0 hc1 x0 x1 x2 x3 x4 xs0).1
      = k0_pay2 (k0_pay1 (k0_pay5 x0 x2 x3 x4) (k0_pay6 x1 x2) xs0) := by
  unfold kernelRun0_C
  dsimp only
  sl_unfold_words
  rw [View.canon_unit_zero (S := S1x1x64x64) hz4]
  simp only [View.readCov_unit_zero (S := S64x64) _ hz2, View.readAt_eq_ld, harg3.read_unread, harg4.read_unread, harg5.read_unread, harg6.read_unread, harg7.read_unread, harg9.read_unread,
    View.ld_unit_zero (S := S1x1x2048x64) hz4, View.ld_unit_zero (S := S1x2048x1) hz3, View.ld_unit_zero (S := S1x1x64) hz3,
    View.ld_unit_zero (S := S64x64) hz2]

end Cert.KernelIdeal.Hand

end
-- ==== Proof.Spec.lean ====
/-
  The mathematics of the certificate, stated once and over no program: linear attention with keys shifted by a
  mixture of two means. With p = clip(pi, 0, 1), φ(x) = x + 1 for x > 0 and eˣ otherwise, s the scale 8192^(-1/4)
  (one float word, the same on both sides, never evaluated) and a 0/1-or-any mask m[b, l]:

      out[b, h, l, e] = Σ_d (φ(Q[b,h,l,d]) · s) · KV[b,h,d,e],     KV[b,h,d,e] = Σ_l (φ(Km[b,h,l,d]) · m[b,l] · s) · (V[b,h,l,e] · m[b,l]).

  The two programs arrange this differently. The kernel folds the shift: Km = (p₀ + p₁)·K − (μ₀·p₀ + μ₁·p₁), writes φ
  with the exponential itself, and sums over l in four tiles of 2048 rows added up in order (`outK`, over the raw
  arrays its two launches read: `kvArr`, `outArr`). The reference computes Km = (K − μ₀)·p₀ + (K − μ₁)·p₁, writes
  φ(x) = select(x > 0, x, 1·(e^{select(x>0, 0, x)} − 1)) + 1, and sums over all 8192 rows at once (`outR`).
  On finite inputs the two are one function: that is the bridge module's theorem.
-/
import Idealize.ShloMosaic.PureOps.Ideal
import Idealize.ShloMosaic.Lib.ValueIdx

noncomputable section

open scoped BigOperators

namespace Cert.Spec

open Idealize.ShloMosaic Idealize.ShloMosaic.ValueIdx

/-! ## Shapes -/

abbrev SQ : Shape := ⟨4, ![4, 16, 8192, 64]⟩
abbrev SMask : Shape := ⟨2, ![4, 8192]⟩
abbrev SPi : Shape := ⟨1, ![2]⟩
abbrev SMu : Shape := ⟨3, ![2, 16, 64]⟩
abbrev SKV : Shape := ⟨4, ![4, 16, 64, 64]⟩
abbrev SMask3 : Shape := ⟨3, ![4, 8192, 1]⟩
abbrev SRow : Shape := ⟨3, ![16, 1, 64]⟩

/-! ## The three float words, as extended reals -/

/-- The word of 0.0. -/
def z : EReal := Ideal.ofBits .f32 0x00000000#32
/-- The word of 1.0. -/
def one : EReal := Ideal.ofBits .f32 0x3F800000#32
/-- The scale word, the float nearest 8192^(-1/4): both programs carry the same word. -/
def sc : EReal := Ideal.ofBits .f32 0x3DD744FD#32

/-! ## The feature map, in the two spellings -/

/-- φ as the kernel writes it: x + 1 where x > 0, eˣ elsewhere. -/
def phiK (x : EReal) : EReal := Scalar.select (Ideal.cmp .ogt x z) (x + one) (Ideal.exp x)

/-- φ as the reference writes it: elu(x) + 1 with elu through e^y − 1 at y = select(x > 0, 0, x). -/
def phiR (x : EReal) : EReal :=
  Scalar.select (Ideal.cmp .ogt x z) x (one * (Ideal.exp (Scalar.select (Ideal.cmp .ogt x z) z x) - 1)) + one

/-! ## The mixture weights -/

/-- p = clip(pi, 0, 1), entry j. -/
def clip (pi : SPi.Idx → EReal) (j : Fin 2) : EReal := min one (max z (pi (ix1 j)))

/-- p₀ + p₁. -/
def coef (pi : SPi.Idx → EReal) : EReal := clip pi 0 + clip pi 1

/-- μ₀[h,d]·p₀ + μ₁[h,d]·p₁. -/
def adj (pi : SPi.Idx → EReal) (mu : SMu.Idx → EReal) (h : Fin 16) (d : Fin 64) : EReal :=
  mu (ix3 0 h d) * clip pi 0 + mu (ix3 1 h d) * clip pi 1

/-! ## The kernel's arrangement, over the raw arrays its launches read -/

/-- Row `r` of tile `j` of the sequence axis. -/
def lIdx (j : Fin 4) (r : Fin 2048) : Fin 8192 := ⟨2048 * j.val + r.val, by have := j.isLt; have := r.isLt; omega⟩

/-- The kernel's key feature at (b, h, l, d): φ(cf[h,0,d]·K[b,h,l,d] − ad[h,0,d]) · m[b,l,0] · s. -/
def kfA (k : SQ.Idx → EReal) (mk : SMask3.Idx → EReal) (cf ad : SRow.Idx → EReal) (b : Fin 4) (h : Fin 16) (l : Fin 8192) (d : Fin 64) : EReal :=
  phiK (cf (ix3 h 0 d) * k (ix4 b h l d) - ad (ix3 h 0 d)) * mk (ix3 b l 0) * sc

/-- The masked value at (b, h, l, e). -/
def vmA (v : SQ.Idx → EReal) (mk : SMask3.Idx → EReal) (b : Fin 4) (h : Fin 16) (l : Fin 8192) (e : Fin 64) : EReal :=
  v (ix4 b h l e) * mk (ix3 b l 0)

/-- One tile's contribution to KV[b,h,d,e]: the sum over its 2048 rows. -/
def tileA (k v : SQ.Idx → EReal) (mk : SMask3.Idx → EReal) (cf ad : SRow.Idx → EReal) (b : Fin 4) (h : Fin 16) (d e : Fin 64) (j : Fin 4) : EReal :=
  ∑ r : Fin 2048, kfA k mk cf ad b h (lIdx j r) d * vmA v mk b h (lIdx j r) e

/-- KV[b,h,d,e] as the first launch leaves it: the four tiles added in order. -/
def kv4 (k v : SQ.Idx → EReal) (mk : SMask3.Idx → EReal) (cf ad : SRow.Idx → EReal) (b : Fin 4) (h : Fin 16) (d e : Fin 64) : EReal :=
  tileA k v mk cf ad b h d e 0 + tileA k v mk cf ad b h d e 1 + tileA k v mk cf ad b h d e 2 + tileA k v mk cf ad b h d e 3

/-- The first launch's result array. -/
def kvArr (k v : SQ.Idx → EReal) (mk : SMask3.Idx → EReal) (cf ad : SRow.Idx → EReal) : SKV.Idx → EReal :=
  fun i => kv4 k v mk cf ad (i 0) (i 1) (i 2) (i 3)

/-- out[b,h,l,e] from the query array and a state array: Σ_d (φ(Q[b,h,l,d])·s)·KV[b,h,d,e]. -/
def out4 (q : SQ.Idx → EReal) (kv : SKV.Idx → EReal) (b : Fin 4) (h : Fin 16) (l : Fin 8192) (e : Fin 64) : EReal :=
  ∑ d : Fin 64, phiK (q (ix4 b h l d)) * sc * kv (ix4 b h d e)

/-- The second launch's result array. -/
def outArr (q : SQ.Idx → EReal) (kv : SKV.Idx → EReal) : SQ.Idx → EReal :=
  fun i => out4 q kv (i 0) (i 1) (i 2) (i 3)

/-- The mask as the first launch reads it, [4, 8192, 1]. -/
def maskArr (mask : SMask.Idx → EReal) : SMask3.Idx → EReal := fun i => mask (ix2 (i 0) (i 1))
/-- p₀ + p₁ laid out [16, 1, 64]. -/
def coefArr (pi : SPi.Idx → EReal) : SRow.Idx → EReal := fun _ => coef pi
/-- μ₀·p₀ + μ₁·p₁ laid out [16, 1, 64]. -/
def adjArr (pi : SPi.Idx → EReal) (mu : SMu.Idx → EReal) : SRow.Idx → EReal := fun i => adj pi mu (i 0) (i 2)

/-- The kernel's result as a function of the six arguments. -/
def outK (q k v : SQ.Idx → EReal) (mask : SMask.Idx → EReal) (pi : SPi.Idx → EReal) (mu : SMu.Idx → EReal) : SQ.Idx → EReal :=
  outArr q (kvArr k v (maskArr mask) (coefArr pi) (adjArr pi mu))

/-! ## The reference's arrangement -/

/-- Km[b,h,l,d] = (K − μ₀)·p₀ + (K − μ₁)·p₁. -/
def kmR (k : SQ.Idx → EReal) (pi : SPi.Idx → EReal) (mu : SMu.Idx → EReal) (b : Fin 4) (h : Fin 16) (l : Fin 8192) (d : Fin 64) : EReal :=
  (k (ix4 b h l d) - mu (ix3 0 h d)) * clip pi 0 + (k (ix4 b h l d) - mu (ix3 1 h d)) * clip pi 1

/-- The reference's key feature. -/
def kfR (k : SQ.Idx → EReal) (mask : SMask.Idx → EReal) (pi : SPi.Idx → EReal) (mu : SMu.Idx → EReal) (b : Fin 4) (h : Fin 16) (l : Fin 8192) (d : Fin 64) : EReal :=
  phiR (kmR k pi mu b h l d) * mask (ix2 b l) * sc

/-- The reference's masked value. -/
def vmR (v : SQ.Idx → EReal) (mask : SMask.Idx → EReal) (b : Fin 4) (h : Fin 16) (l : Fin 8192) (e : Fin 64) : EReal :=
  v (ix4 b h l e) * mask (ix2 b l)

/-- KV[b,h,d,e] as one sum over the 8192 rows. -/
def kvR (k v : SQ.Idx → EReal) (mask : SMask.Idx → EReal) (pi : SPi.Idx → EReal) (mu : SMu.Idx → EReal) (b : Fin 4) (h : Fin 16) (d e : Fin 64) : EReal :=
  ∑ l : Fin 8192, kfR k mask pi mu b h l d * vmR v mask b h l e

/-- The reference's out[b,h,l,e]. -/
def outR4 (q k v : SQ.Idx → EReal) (mask : SMask.Idx → EReal) (pi : SPi.Idx → EReal) (mu : SMu.Idx → EReal) (b : Fin 4) (h : Fin 16) (l : Fin 8192) (e : Fin 64) : EReal :=
  ∑ d : Fin 64, phiR (q (ix4 b h l d)) * sc * kvR k v mask pi mu b h d e

/-- The reference's result as a function of the six arguments. -/
def outR (q k v : SQ.Idx → EReal) (mask : SMask.Idx → EReal) (pi : SPi.Idx → EReal) (mu : SMu.Idx → EReal) : SQ.Idx → EReal :=
  fun i => outR4 q k v mask pi mu (i 0) (i 1) (i 2) (i 3)

/-- Every entry a real number. -/
def Finite {S : Shape} (x : S.Idx → EReal) : Prop := ∀ i, ∃ r : ℝ, x i = (r : EReal)

end Cert.Spec

end
-- ==== Proof.KernelIdeal.R0Pay.lean ====
/-
  One grid point of the state launch, entry by entry. At a point the kernel holds a block of 2048 key rows, the same
  rows of the values, the rows' mask column and the two coefficient rows of its head. It forms the key features
  φ(cf·K − ad)·m·s and the masked values V·m, both [2048, 64], contracts them over the 2048 rows into a 64 × 64 matrix and
  adds that to the carried state. Here each of those steps is read at one entry, over arbitrary blocks: the feature at
  (r, d), the masked value at (r, e), the updated state at (d, e) as the old entry plus the sum over the rows, the state
  copied out at (0, 0, d, e), and the zero state.
-/
import proofs.«152070_j15891378995472_1_alg».proof.Proof.Gen.KernelIdeal.Skeleton
import proofs.«152070_j15891378995472_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The layout steps at an entry -/

section Layout
variable {α : Type}

/-- A [1, 1, 2048, 64] block viewed [2048, 64] reads (0, 0, r, d) at (r, d). -/
theorem rows_apply (x : S1x1x2048x64.Idx → α) (r : Fin 2048) (d : Fin 64) :
    shapeCast S2048x64 x shapeCasts_S1x1x2048x64_S2048x64 (ix2 r d) = x (ix4 0 0 r d) :=
  shapeCast_apply x _ _ _ (by
    rw [Shape.rowMajor_val_four, Shape.rowMajor_val_two]
    show ((0 * 1 + 0) * 2048 + r.val) * 64 + d.val = r.val * 64 + d.val
    omega)

/-- A [1, 1, 64] row viewed [64], then [1, 64], then repeated down 2048 rows, reads (0, 0, d) at (r, d). -/
theorem coefRow_apply (x : S1x1x64.Idx → α) (r : Fin 2048) (d : Fin 64) :
    broadcastTo S2048x64 (shapeCast S1x64 (shapeCast S64 x shapeCasts_S1x1x64_S64) shapeCasts_S64_S1x64)
      broadcasts_S1x64_S2048x64 (ix2 r d) = x (ix3 0 0 d) := by
  refine (broadcastTo_1b_ab_apply _ _ r d).trans ?_
  refine (shapeCast_a_1a_apply _ _ 0 d).trans ?_
  exact shapeCast_apply x _ _ _ (by
    rw [Shape.rowMajor_val_three, Shape.rowMajor_val_one]
    show (0 * 1 + 0) * 64 + d.val = d.val
    omega)

/-- A [1, 2048, 1] mask column viewed [2048, 1] and repeated along 64 columns reads (0, r, 0) at (r, d). -/
theorem maskCol_apply (x : S1x2048x1.Idx → α) (r : Fin 2048) (d : Fin 64) :
    broadcastTo S2048x64 (shapeCast S2048x1 x shapeCasts_S1x2048x1_S2048x1) broadcasts_S2048x1_S2048x64 (ix2 r d)
      = x (ix3 0 r 0) := by
  refine (broadcastTo_apply _ _ (ix2 r d) (ix2 r (0 : Fin 1)) fun ax => ?_).trans ?_
  · match ax with
    | ⟨0, _⟩ =>
      show r.val = if (2048 : ℕ) = 1 then 0 else r.val
      rw [if_neg (by decide)]
    | ⟨1, _⟩ => rfl
  · exact shapeCast_apply x _ _ _ (by
      rw [Shape.rowMajor_val_three, Shape.rowMajor_val_two]
      show (0 * 2048 + r.val) * 1 + 0 = r.val * 1 + 0
      omega)

/-- A [64, 64] matrix viewed [1, 1, 64, 64] reads (d, e) at (0, 0, d, e). -/
theorem state_apply (x : S64x64.Idx → α) (d e : Fin 64) :
    shapeCast S1x1x64x64 x shapeCasts_S64x64_S1x1x64x64 (ix4 0 0 d e) = x (ix2 d e) :=
  shapeCast_apply x _ _ _ (by
    rw [Shape.rowMajor_val_four, Shape.rowMajor_val_two]
    show d.val * 64 + e.val = ((0 * 1 + 0) * 64 + d.val) * 64 + e.val
    omega)

end Layout

/-! ## The zero state and the state copied out -/

/-- The reset state is zero everywhere. -/
theorem pay3_apply (d e : Fin 64) : (k0_pay3 (F := Ideal)) (ix2 d e) = 0 := by
  unfold k0_pay3
  rw [shapeCast_self]
  exact Ideal.ofBits_zero_f32

/-- The state written to the output block is the carried state, entry for entry. -/
theorem pay2_apply (s : Vec Ideal S64x64 .f32) (d e : Fin 64) : k0_pay2 (F := Ideal) s (ix4 0 0 d e) = s (ix2 d e) :=
  state_apply s d e

/-! ## The key features and the masked values -/

/-- The masked value at (r, e): V·m. -/
theorem pay6_apply (x1 : Vec Ideal S1x1x2048x64 .f32) (x2 : Vec Ideal S1x2048x1 .f32) (r : Fin 2048) (e : Fin 64) :
    k0_pay6 (F := Ideal) x1 x2 (ix2 r e) = x1 (ix4 0 0 r e) * x2 (ix3 0 r 0) := by
  have key : k0_pay6 (F := Ideal) x1 x2 (ix2 r e)
      = shapeCast S2048x64 x1 shapeCasts_S1x1x2048x64_S2048x64 (ix2 r e)
        * broadcastTo S2048x64 (shapeCast S2048x1 x2 shapeCasts_S1x2048x1_S2048x1) broadcasts_S2048x1_S2048x64 (ix2 r e) := rfl
  rw [key, rows_apply, maskCol_apply]

/-- The key feature at (r, d): φ(cf·K − ad)·m·s. -/
theorem pay5_apply (x0 : Vec Ideal S1x1x2048x64 .f32) (x2 : Vec Ideal S1x2048x1 .f32) (x3 x4 : Vec Ideal S1x1x64 .f32)
    (r : Fin 2048) (d : Fin 64) :
    k0_pay5 (F := Ideal) x0 x2 x3 x4 (ix2 r d)
      = Cert.Spec.phiK (x3 (ix3 0 0 d) * x0 (ix4 0 0 r d) - x4 (ix3 0 0 d)) * x2 (ix3 0 r 0) * Cert.Spec.sc := by
  have key : k0_pay5 (F := Ideal) x0 x2 x3 x4 (ix2 r d)
      = Cert.Spec.phiK
          (broadcastTo S2048x64 (shapeCast S1x64 (shapeCast S64 x3 shapeCasts_S1x1x64_S64) shapeCasts_S64_S1x64)
              broadcasts_S1x64_S2048x64 (ix2 r d)
            * shapeCast S2048x64 x0 shapeCasts_S1x1x2048x64_S2048x64 (ix2 r d)
            - broadcastTo S2048x64 (shapeCast S1x64 (shapeCast S64 x4 shapeCasts_S1x1x64_S64) shapeCasts_S64_S1x64)
              broadcasts_S1x64_S2048x64 (ix2 r d))
        * broadcastTo S2048x64 (shapeCast S2048x1 x2 shapeCasts_S1x2048x1_S2048x1) broadcasts_S2048x1_S2048x64 (ix2 r d)
        * Cert.Spec.sc := rfl
  rw [key, rows_apply, coefRow_apply, coefRow_apply, maskCol_apply]

/-! ## The contraction over the rows

The product contracts axis 0 of both operands: entry (d, e) of the result pairs column d of the features with
column e of the masked values, row by row. -/

/-- The left operand's row coordinate is the contraction position. -/
theorem lhs_rows_0 (i : S64x64.Idx) (q : dot_S2048x64_S2048x64_S64x64_0_0_1_1_n_n.contr.Idx) :
    (dot_S2048x64_S2048x64_S64x64_0_0_1_1_n_n.lhsIdx i q 0).val = (q ⟨0, by decide⟩).val :=
  dot_S2048x64_S2048x64_S64x64_0_0_1_1_n_n.lhsIdx_val_of_single rfl i q

/-- The left operand's column is the result's row. -/
theorem lhs_rows_1 (i : S64x64.Idx) (q : dot_S2048x64_S2048x64_S64x64_0_0_1_1_n_n.contr.Idx) :
    (dot_S2048x64_S2048x64_S64x64_0_0_1_1_n_n.lhsIdx i q 1).val = (i 0).val := by
  unfold DotDims.lhsIdx
  rw [dif_neg (show ¬(1 : Fin S2048x64.rank) ∈ dot_S2048x64_S2048x64_S64x64_0_0_1_1_n_n.lhsBatch by decide),
    dif_pos (show (1 : Fin S2048x64.rank) ∈ dot_S2048x64_S2048x64_S64x64_0_0_1_1_n_n.lhsNonContracting by decide)]
  rfl

/-- The right operand's row coordinate is the contraction position. -/
theorem rhs_rows_0 (i : S64x64.Idx) (q : dot_S2048x64_S2048x64_S64x64_0_0_1_1_n_n.contr.Idx) :
    (dot_S2048x64_S2048x64_S64x64_0_0_1_1_n_n.rhsIdx i q 0).val = (q ⟨0, by decide⟩).val :=
  dot_S2048x64_S2048x64_S64x64_0_0_1_1_n_n.rhsIdx_val_of_single rfl i q

/-- The right operand's column is the result's column. -/
theorem rhs_rows_1 (i : S64x64.Idx) (q : dot_S2048x64_S2048x64_S64x64_0_0_1_1_n_n.contr.Idx) :
    (dot_S2048x64_S2048x64_S64x64_0_0_1_1_n_n.rhsIdx i q 1).val = (i 1).val := by
  unfold DotDims.rhsIdx
  rw [dif_neg (show ¬(1 : Fin S2048x64.rank) ∈ dot_S2048x64_S2048x64_S64x64_0_0_1_1_n_n.rhsBatch by decide),
    dif_pos (show (1 : Fin S2048x64.rank) ∈ dot_S2048x64_S2048x64_S64x64_0_0_1_1_n_n.rhsNonContracting by decide)]
  rfl

/-- The updated state at (d, e): the old entry plus Σ over the 2048 rows of feature (r, d) times masked value (r, e). -/
theorem pay1_apply (a b : FVec Ideal S2048x64 .bf16) (s : Vec Ideal S64x64 .f32) (d e : Fin 64) :
    k0_pay1 (F := Ideal) a b s (ix2 d e) = s (ix2 d e) + ∑ r : Fin 2048, a (ix2 r d) * b (ix2 r e) := by
  have key : k0_pay1 (F := Ideal) a b s (ix2 d e)
      = shapeCast S64x64 (addf s (FloatOps.matmul dot_S2048x64_S2048x64_S64x64_0_0_1_1_n_n none a b
          (constant (F := Ideal) S64x64 .f32 0x00000000#32))) shapeCasts_S64x64_S64x64 (ix2 d e) := rfl
  rw [key, shapeCast_self, addf_apply, Ideal.matmul_constant_zero_apply,
    ← Equiv.sum_comp (contrEquiv1 dot_S2048x64_S2048x64_S64x64_0_0_1_1_n_n 2048 rfl rfl).symm]
  refine congrArg (s (ix2 d e) + ·) (Finset.sum_congr rfl fun k _ => ?_)
  have hk := contrEquiv1_symm_val dot_S2048x64_S2048x64_S64x64_0_0_1_1_n_n 2048 rfl rfl k
  have el : dot_S2048x64_S2048x64_S64x64_0_0_1_1_n_n.lhsIdx (ix2 d e)
      ((contrEquiv1 dot_S2048x64_S2048x64_S64x64_0_0_1_1_n_n 2048 rfl rfl).symm k) = ix2 k d :=
    funext fun ax => Fin.ext (by
      match ax with
      | ⟨0, _⟩ => exact (lhs_rows_0 _ _).trans hk
      | ⟨1, _⟩ => exact lhs_rows_1 _ _)
  have er : dot_S2048x64_S2048x64_S64x64_0_0_1_1_n_n.rhsIdx (ix2 d e)
      ((contrEquiv1 dot_S2048x64_S2048x64_S64x64_0_0_1_1_n_n 2048 rfl rfl).symm k) = ix2 k e :=
    funext fun ax => Fin.ext (by
      match ax with
      | ⟨0, _⟩ => exact (rhs_rows_0 _ _).trans hk
      | ⟨1, _⟩ => exact rhs_rows_1 _ _)
  rw [el, er]

end Cert.KernelIdeal.Hand

end
-- ==== Proof.KernelIdeal.R0Blocks.lean ====
/-
  The blocks of the first launch, read at an index. The launch walks 4 × 16 × 4 grid points in order; point t has
  coordinates (b, h, j) with t = 64·b + 4·h + j. At point t the key and value windows hold rows 2048·j … 2048·j + 2047
  of K[b, h] and V[b, h], the mask window the same rows of the mask column of batch b, the two coefficient windows row h
  of their [16, 1, 64] arrays, and the state window the 64 × 64 state of (b, h). The state is written back at j = 3, and
  those 64 points' blocks fill the [4, 16, 64, 64] state array.
-/
import proofs.«152070_j15891378995472_1_alg».proof.Proof.KernelIdeal.Blk
import proofs.«152070_j15891378995472_1_alg».proof.Proof.Gen.KernelIdeal.Points
import proofs.«152070_j15891378995472_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

/-! ## A grid point's coordinates -/

theorem point_lt (t : Fin cfg0.N) : t.val < 256 := by
  have h : t.val < grid0.N := t.isLt
  rwa [N_0] at h

/-- The batch coordinate of point t. -/
def pb (t : Fin cfg0.N) : Fin 4 := ⟨t.val / 64, by have := point_lt t; omega⟩
/-- The head coordinate of point t. -/
def ph (t : Fin cfg0.N) : Fin 16 := ⟨t.val / 4 % 16, by omega⟩
/-- The tile coordinate of point t. -/
def pj (t : Fin cfg0.N) : Fin 4 := ⟨t.val % 4, by omega⟩

/-! ## The index maps, decided over the 256 points -/

theorem index0_0 : ∀ t : Fin cfg0.N, win0_0.index t (0 : Fin 4) = t.val / 64 ∧ win0_0.index t (1 : Fin 4) = t.val / 4 % 16
    ∧ win0_0.index t (2 : Fin 4) = t.val % 4 ∧ win0_0.index t (3 : Fin 4) = 0 :=
  (by decide +kernel : ∀ t : Fin grid0.N, _)

theorem index0_1 : ∀ t : Fin cfg0.N, win0_1.index t (0 : Fin 4) = t.val / 64 ∧ win0_1.index t (1 : Fin 4) = t.val / 4 % 16
    ∧ win0_1.index t (2 : Fin 4) = t.val % 4 ∧ win0_1.index t (3 : Fin 4) = 0 :=
  (by decide +kernel : ∀ t : Fin grid0.N, _)

theorem index0_2 : ∀ t : Fin cfg0.N, win0_2.index t (0 : Fin 3) = t.val / 64 ∧ win0_2.index t (1 : Fin 3) = t.val % 4
    ∧ win0_2.index t (2 : Fin 3) = 0 :=
  (by decide +kernel : ∀ t : Fin grid0.N, _)

theorem index0_3 : ∀ t : Fin cfg0.N, win0_3.index t (0 : Fin 3) = t.val / 4 % 16 ∧ win0_3.index t (1 : Fin 3) = 0
    ∧ win0_3.index t (2 : Fin 3) = 0 :=
  (by decide +kernel : ∀ t : Fin grid0.N, _)

theorem index0_4 : ∀ t : Fin cfg0.N, win0_4.index t (0 : Fin 3) = t.val / 4 % 16 ∧ win0_4.index t (1 : Fin 3) = 0
    ∧ win0_4.index t (2 : Fin 3) = 0 :=
  (by decide +kernel : ∀ t : Fin grid0.N, _)

theorem index0_5 : ∀ t : Fin cfg0.N, win0_5.index t (0 : Fin 4) = t.val / 64 ∧ win0_5.index t (1 : Fin 4) = t.val / 4 % 16
    ∧ win0_5.index t (2 : Fin 4) = 0 ∧ win0_5.index t (3 : Fin 4) = 0 :=
  (by decide +kernel : ∀ t : Fin grid0.N, _)

/-! ## The input blocks at an index -/

/-- The key window: row r of tile j of K[b, h]. -/
theorem iblk0_0_apply (c : Dev nD) (t : Fin cfg0.N) (r : Fin 2048) (d : Fin 64) :
    iblk0 V c 0 t (ix4 (0 : Fin 1) (0 : Fin 1) r d) = V c main_arg1 (ix4 (pb t) (ph t) (Cert.Spec.lIdx (pj t) r) d) := by
  show V c main_arg1 (((cfg0.win 0).blk t).view.emb (ix4 (0 : Fin 1) (0 : Fin 1) r d)) = _
  refine congrArg (V c main_arg1) ?_
  obtain ⟨e0, e1, e2, e3⟩ := index0_0 t
  funext a; apply Fin.ext
  match a with
  | ⟨0, _⟩ => show win0_0.index t (0 : Fin 4) * 1 + 1 * 0 = t.val / 64; omega
  | ⟨1, _⟩ => show win0_0.index t (1 : Fin 4) * 1 + 1 * 0 = t.val / 4 % 16; omega
  | ⟨2, _⟩ => show win0_0.index t (2 : Fin 4) * 2048 + 1 * r.val = 2048 * (t.val % 4) + r.val; omega
  | ⟨3, _⟩ => show win0_0.index t (3 : Fin 4) * 64 + 1 * d.val = d.val; omega

/-- The value window: row r of tile j of V[b, h]. -/
theorem iblk0_1_apply (c : Dev nD) (t : Fin cfg0.N) (r : Fin 2048) (e : Fin 64) :
    iblk0 V c 1 t (ix4 (0 : Fin 1) (0 : Fin 1) r e) = V c main_arg2 (ix4 (pb t) (ph t) (Cert.Spec.lIdx (pj t) r) e) := by
  show V c main_arg2 (((cfg0.win 1).blk t).view.emb (ix4 (0 : Fin 1) (0 : Fin 1) r e)) = _
  refine congrArg (V c main_arg2) ?_
  obtain ⟨e0, e1, e2, e3⟩ := index0_1 t
  funext a; apply Fin.ext
  match a with
  | ⟨0, _⟩ => show win0_1.index t (0 : Fin 4) * 1 + 1 * 0 = t.val / 64; omega
  | ⟨1, _⟩ => show win0_1.index t (1 : Fin 4) * 1 + 1 * 0 = t.val / 4 % 16; omega
  | ⟨2, _⟩ => show win0_1.index t (2 : Fin 4) * 2048 + 1 * r.val = 2048 * (t.val % 4) + r.val; omega
  | ⟨3, _⟩ => show win0_1.index t (3 : Fin 4) * 64 + 1 * e.val = e.val; omega

/-- The mask window: row r of tile j of the mask column of batch b. -/
theorem iblk0_2_apply (c : Dev nD) (t : Fin cfg0.N) (r : Fin 2048) :
    iblk0 V c 2 t (ix3 (0 : Fin 1) r (0 : Fin 1)) = V c main_v22 (ix3 (pb t) (Cert.Spec.lIdx (pj t) r) (0 : Fin 1)) := by
  show V c main_v22 (((cfg0.win 2).blk t).view.emb (ix3 (0 : Fin 1) r (0 : Fin 1))) = _
  refine congrArg (V c main_v22) ?_
  obtain ⟨e0, e1, e2⟩ := index0_2 t
  funext a; apply Fin.ext
  match a with
  | ⟨0, _⟩ => show win0_2.index t (0 : Fin 3) * 1 + 1 * 0 = t.val / 64; omega
  | ⟨1, _⟩ => show win0_2.index t (1 : Fin 3) * 2048 + 1 * r.val = 2048 * (t.val % 4) + r.val; omega
  | ⟨2, _⟩ => show win0_2.index t (2 : Fin 3) * 1 + 1 * 0 = 0; omega

/-- The first coefficient window: row h. -/
theorem iblk0_3_apply (c : Dev nD) (t : Fin cfg0.N) (d : Fin 64) :
    iblk0 V c 3 t (ix3 (0 : Fin 1) (0 : Fin 1) d) = V c main_v20 (ix3 (ph t) (0 : Fin 1) d) := by
  show V c main_v20 (((cfg0.win 3).blk t).view.emb (ix3 (0 : Fin 1) (0 : Fin 1) d)) = _
  refine congrArg (V c main_v20) ?_
  obtain ⟨e0, e1, e2⟩ := index0_3 t
  funext a; apply Fin.ext
  match a with
  | ⟨0, _⟩ => show win0_3.index t (0 : Fin 3) * 1 + 1 * 0 = t.val / 4 % 16; omega
  | ⟨1, _⟩ => show win0_3.index t (1 : Fin 3) * 1 + 1 * 0 = 0; omega
  | ⟨2, _⟩ => show win0_3.index t (2 : Fin 3) * 64 + 1 * d.val = d.val; omega

/-- The second coefficient window: row h. -/
theorem iblk0_4_apply (c : Dev nD) (t : Fin cfg0.N) (d : Fin 64) :
    iblk0 V c 4 t (ix3 (0 : Fin 1) (0 : Fin 1) d) = V c main_v21 (ix3 (ph t) (0 : Fin 1) d) := by
  show V c main_v21 (((cfg0.win 4).blk t).view.emb (ix3 (0 : Fin 1) (0 : Fin 1) d)) = _
  refine congrArg (V c main_v21) ?_
  obtain ⟨e0, e1, e2⟩ := index0_4 t
  funext a; apply Fin.ext
  match a with
  | ⟨0, _⟩ => show win0_4.index t (0 : Fin 3) * 1 + 1 * 0 = t.val / 4 % 16; omega
  | ⟨1, _⟩ => show win0_4.index t (1 : Fin 3) * 1 + 1 * 0 = 0; omega
  | ⟨2, _⟩ => show win0_4.index t (2 : Fin 3) * 64 + 1 * d.val = d.val; omega

/-! ## The state window -/

/-- A function of the whole state array, read through point t's block: the 64 × 64 state of (b, h). -/
theorem read_blk5_apply (G : S4x16x64x64.Idx → Elt F .f32) (t : Fin cfg0.N) (d e : Fin 64) :
    ((cfg0.win 5).blk t).view.read (Elt F) G (ix4 (0 : Fin 1) (0 : Fin 1) d e) = G (ix4 (pb t) (ph t) d e) := by
  show G (((cfg0.win 5).blk t).view.emb (ix4 (0 : Fin 1) (0 : Fin 1) d e)) = _
  refine congrArg G ?_
  obtain ⟨e0, e1, e2, e3⟩ := index0_5 t
  funext a; apply Fin.ext
  match a with
  | ⟨0, _⟩ => show win0_5.index t (0 : Fin 4) * 1 + 1 * 0 = t.val / 64; omega
  | ⟨1, _⟩ => show win0_5.index t (1 : Fin 4) * 1 + 1 * 0 = t.val / 4 % 16; omega
  | ⟨2, _⟩ => show win0_5.index t (2 : Fin 4) * 64 + 1 * d.val = d.val; omega
  | ⟨3, _⟩ => show win0_5.index t (3 : Fin 4) * 64 + 1 * e.val = e.val; omega

/-- An index of a [1, 1, 64, 64] block is (0, 0, d, e). -/
theorem eq_ix4_unit (y : S1x1x64x64.Idx) : y = ix4 (n2 := 64) (n3 := 64) (0 : Fin 1) (0 : Fin 1) (y 2) (y 3) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl
  | ⟨3, _⟩ => rfl

/-- The same for the whole block, over the literal block shape: a block function that is G at (b, h, d, e) for every
    d, e is G read through point t's block. -/
theorem eq_read_blk5_lit (G : S4x16x64x64.Idx → Elt F .f32) (t : Fin cfg0.N) (f : S1x1x64x64.Idx → Elt F .f32)
    (hf : ∀ d e : Fin 64, f (ix4 (0 : Fin 1) (0 : Fin 1) d e) = G (ix4 (pb t) (ph t) d e)) :
    f = ((cfg0.win 5).blk t).view.read (Elt F) G := by
  funext y
  have hy := eq_ix4_unit y
  exact (congrArg f hy).trans ((hf (y 2) (y 3)).trans ((read_blk5_apply G t (y 2) (y 3)).symm.trans
    (congrArg (((cfg0.win 5).blk t).view.read (Elt F) G) hy.symm)))

/-- The same with the block function typed as the window types it (what a point writes back). -/
theorem eq_read_blk5 (G : S4x16x64x64.Idx → Elt F .f32) (t : Fin cfg0.N)
    (f : ((cfg0.win 5).xblock (cfg0.grid.coords t)).Idx → Elt F (cfg0.win 5).elt)
    (hf : ∀ d e : Fin 64, f (ix4 (0 : Fin 1) (0 : Fin 1) d e) = G (ix4 (pb t) (ph t) d e)) :
    f = ((cfg0.win 5).blk t).view.read (Elt F) G :=
  eq_read_blk5_lit G t f hf

/-- An index of the state array is in point t's block iff its batch and head coordinates are the point's. -/
theorem mem_blk5 (t : Fin cfg0.N) (i : S4x16x64x64.Idx) :
    i ∈ ((cfg0.win 5).blk t).view.set ↔ ∀ a : Fin 4, win0_5.index t a * S1x1x64x64.size a ≤ (i a).val ∧ (i a).val < win0_5.index t a * S1x1x64x64.size a + S1x1x64x64.size a := by
  show i ∈ ((View.whole main_v23).slice (win0_5.rect t)).set ↔ _
  rw [View.set_slice_whole, Rect.mem_set_unit]
  exact Iff.rfl

/-- The blocks written back fill the state array: index (b, h, d, e) is in the block of point 64·b + 4·h + 3. -/
theorem cover5 (i : S4x16x64x64.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 64 := (i 2).isLt
  have h3 : (i 3).val < 64 := (i 3).isLt
  have hN : 64 * (i 0).val + 4 * (i 1).val + 3 < grid0.N := by rw [N_0]; omega
  refine ⟨⟨64 * (i 0).val + 4 * (i 1).val + 3, hN⟩, (flush0_5 _).2 (by show (64 * (i 0).val + 4 * (i 1).val + 3) % 4 = 3; omega), ?_⟩
  rw [mem_blk5]
  obtain ⟨e0, e1, e2, e3⟩ := index0_5 ⟨64 * (i 0).val + 4 * (i 1).val + 3, hN⟩
  have e0' : win0_5.index ⟨64 * (i 0).val + 4 * (i 1).val + 3, hN⟩ (0 : Fin 4) = (64 * (i 0).val + 4 * (i 1).val + 3) / 64 := e0
  have e1' : win0_5.index ⟨64 * (i 0).val + 4 * (i 1).val + 3, hN⟩ (1 : Fin 4) = (64 * (i 0).val + 4 * (i 1).val + 3) / 4 % 16 := e1
  intro a
  match a with
  | ⟨0, _⟩ => show win0_5.index _ (0 : Fin 4) * 1 ≤ (i 0).val ∧ (i 0).val < win0_5.index _ (0 : Fin 4) * 1 + 1; omega
  | ⟨1, _⟩ => show win0_5.index _ (1 : Fin 4) * 1 ≤ (i 1).val ∧ (i 1).val < win0_5.index _ (1 : Fin 4) * 1 + 1; omega
  | ⟨2, _⟩ => show win0_5.index _ (2 : Fin 4) * 64 ≤ (i 2).val ∧ (i 2).val < win0_5.index _ (2 : Fin 4) * 64 + 64; omega
  | ⟨3, _⟩ => show win0_5.index _ (3 : Fin 4) * 64 ≤ (i 3).val ∧ (i 3).val < win0_5.index _ (3 : Fin 4) * 64 + 64; omega

end Cert.KernelIdeal.Hand

end
-- ==== Proof.KernelIdeal.R0Value.lean ====
/-
  The state array the first launch leaves. At the grid point (b, h, j) the accumulator gains tile j's sum of key features
  times masked values of head (b, h); it starts from zero at j = 0, so after the point it holds tiles 0 … j added in
  order, and at j = 3 — the four tiles — it is copied to the output block, which is written back to block (b, h) of the
  [4, 16, 64, 64] array. Those 64 blocks fill the array: it ends holding, at (b, h, d, e), the four tiles' sums in order.
-/
import proofs.«152070_j15891378995472_1_alg».proof.Proof.KernelIdeal.R0
import proofs.«152070_j15891378995472_1_alg».proof.Proof.KernelIdeal.R0Pieces
import proofs.«152070_j15891378995472_1_alg».proof.Proof.KernelIdeal.R0Pay
import proofs.«152070_j15891378995472_1_alg».proof.Proof.KernelIdeal.R0Blocks
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

/-! ## What each run of the body leaves, as one value -/

section Pieces
variable {F : FTy → Type} [FloatOps F]

/-- Tile index 0: the accumulator ends at the point's update of the zero matrix. -/
theorem sout_A (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) :
    sout0_A_0 c i arg3 harg3 arg4 harg4 arg5 harg5 arg6 harg6 arg7 harg7 arg8 harg8 arg9 harg9 hc0 hc1 x0 x1 x2 x3 x4
      = k0_pay1 (k0_pay5 x0 x2 x3 x4) (k0_pay6 x1 x2) (k0_pay3 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  exact canonS_A c i arg3 harg3 arg4 harg4 arg5 harg5 arg6 harg6 arg7 harg7 arg8 harg8 arg9 harg9 hc0 hc1 x0 x1 x2 x3 x4

/-- Tile index 1 or 2: the accumulator ends at the point's update of what it held on entry. -/
theorem sout_B (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : ¬cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) :
    sout0_B_0 c i arg3 harg3 arg4 harg4 arg5 harg5 arg6 harg6 arg7 harg7 arg8 harg8 arg9 harg9 hc0 hc1 x0 x1 x2 x3 x4 xs0
      = k0_pay1 (k0_pay5 x0 x2 x3 x4) (k0_pay6 x1 x2) xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  exact canonS_B c i arg3 harg3 arg4 harg4 arg5 harg5 arg6 harg6 arg7 harg7 arg8 harg8 arg9 harg9 hc0 hc1 x0 x1 x2 x3 x4 xs0

/-- Tile index 3: the same for the accumulator, -/
theorem sout_C (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) :
    sout0_C_0 c i arg3 harg3 arg4 harg4 arg5 harg5 arg6 harg6 arg7 harg7 arg8 harg8 arg9 harg9 hc0 hc1 x0 x1 x2 x3 x4 xs0
      = k0_pay1 (k0_pay5 x0 x2 x3 x4) (k0_pay6 x1 x2) xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  exact canonS_C c i arg3 harg3 arg4 harg4 arg5 harg5 arg6 harg6 arg7 harg7 arg8 harg8 arg9 harg9 hc0 hc1 x0 x1 x2 x3 x4 xs0

/-- and the output block ends at that new accumulator viewed as a block. -/
theorem out_C (c : Dev nD) (i : grid0.Coords) (arg3 : Memref sig .tc .vmem S1x1x2048x64 .f32) (harg3 : arg3.IsWhole) (arg4 : Memref sig .tc .vmem S1x1x2048x64 .f32) (harg4 : arg4.IsWhole) (arg5 : Memref sig .tc .vmem S1x2048x1 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64x64 .f32) (harg8 : arg8.IsWhole) (arg9 : Memref sig .tc .vmem S64x64 .f32) (harg9 : arg9.IsWhole) (hc0 : ¬cond0_0 i) (hc1 : cond0_1 i)
    (x0 : Vec F S1x1x2048x64 .f32) (x1 : Vec F S1x1x2048x64 .f32) (x2 : Vec F S1x2048x1 .f32) (x3 : Vec F S1x1x64 .f32) (x4 : Vec F S1x1x64 .f32) (xs0 : Vec F S64x64 .f32) :
    out0_C_5 c i arg3 harg3 arg4 harg4 arg5 harg5 arg6 harg6 arg7 harg7 arg8 harg8 arg9 harg9 hc0 hc1 x0 x1 x2 x3 x4 xs0
      = k0_pay2 (k0_pay1 (k0_pay5 x0 x2 x3 x4) (k0_pay6 x1 x2) xs0) := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  exact canonO_C c i arg3 harg3 arg4 harg4 arg5 harg5 arg6 harg6 arg7 harg7 arg8 harg8 arg9 harg9 hc0 hc1 x0 x1 x2 x3 x4 xs0

end Pieces

/-! ## One point's update at an entry -/

section Step
open Cert.Spec

/-- The state of head (b, h) after tiles 0 … j, added in order. -/
def upTo (k v : SQ.Idx → EReal) (mk : SMask3.Idx → EReal) (cf ad : SRow.Idx → EReal) (b : Fin 4) (h : Fin 16) (d e : Fin 64) : ℕ → EReal
  | 0 => tileA k v mk cf ad b h d e 0
  | 1 => tileA k v mk cf ad b h d e 0 + tileA k v mk cf ad b h d e 1
  | 2 => tileA k v mk cf ad b h d e 0 + tileA k v mk cf ad b h d e 1 + tileA k v mk cf ad b h d e 2
  | _ => kv4 k v mk cf ad b h d e

/-- Adding the next tile. -/
theorem upTo_succ (k v : SQ.Idx → EReal) (mk : SMask3.Idx → EReal) (cf ad : SRow.Idx → EReal) (b : Fin 4) (h : Fin 16) (d e : Fin 64)
    (j : ℕ) (hj : j < 3) (jj : Fin 4) (hjj : jj.val = j + 1) :
    upTo k v mk cf ad b h d e j + tileA k v mk cf ad b h d e jj = upTo k v mk cf ad b h d e (j + 1) := by
  interval_cases j
  · obtain rfl : jj = 1 := Fin.ext hjj; rfl
  · obtain rfl : jj = 2 := Fin.ext hjj; rfl
  · obtain rfl : jj = 3 := Fin.ext hjj; rfl

/-- Over blocks that hold the rows of tile j of head (b, h), the mask rows of batch b and the coefficient rows of head h,
    the update adds tile j's sum to the state entry (d, e). -/
theorem step_apply (k v : SQ.Idx → EReal) (mk : SMask3.Idx → EReal) (cf ad : SRow.Idx → EReal) (b : Fin 4) (h : Fin 16) (j : Fin 4)
    (kb vb : Vec Ideal S1x1x2048x64 .f32) (mb : Vec Ideal S1x2048x1 .f32) (cb ab : Vec Ideal S1x1x64 .f32)
    (hk : ∀ (r : Fin 2048) (d : Fin 64), kb (ix4 (0 : Fin 1) (0 : Fin 1) r d) = k (ix4 b h (lIdx j r) d))
    (hv : ∀ (r : Fin 2048) (e : Fin 64), vb (ix4 (0 : Fin 1) (0 : Fin 1) r e) = v (ix4 b h (lIdx j r) e))
    (hm : ∀ r : Fin 2048, mb (ix3 (0 : Fin 1) r (0 : Fin 1)) = mk (ix3 b (lIdx j r) (0 : Fin 1)))
    (hc : ∀ d : Fin 64, cb (ix3 (0 : Fin 1) (0 : Fin 1) d) = cf (ix3 h (0 : Fin 1) d))
    (ha : ∀ d : Fin 64, ab (ix3 (0 : Fin 1) (0 : Fin 1) d) = ad (ix3 h (0 : Fin 1) d))
    (s : Vec Ideal S64x64 .f32) (d e : Fin 64) :
    k0_pay1 (F := Ideal) (k0_pay5 kb mb cb ab) (k0_pay6 vb mb) s (ix2 d e) = s (ix2 d e) + tileA k v mk cf ad b h d e j := by
  rw [pay1_apply]
  refine congrArg (s (ix2 d e) + ·) (Finset.sum_congr rfl fun r _ => ?_)
  rw [pay5_apply, pay6_apply, hk, hv, hm, hc, ha]
  rfl

end Step

/-! ## The accumulator, point by point -/

section Value
open Cert.Spec

variable (V : (c : Dev nD) → (b : Ref sig .tc) → Buf (Elt Ideal) ((c : Thread nD τ).loc b))

/-- The update at point t, over the point's own blocks: tile j of head (b, h) is added. -/
theorem point_step (c : Dev nD) (t : Fin cfg0.N) (s : Vec Ideal S64x64 .f32) (d e : Fin 64) :
    k0_pay1 (F := Ideal) (k0_pay5 (iblk0 V c 0 t) (iblk0 V c 2 t) (iblk0 V c 3 t) (iblk0 V c 4 t)) (k0_pay6 (iblk0 V c 1 t) (iblk0 V c 2 t)) s (ix2 d e)
      = s (ix2 d e) + tileA (V c main_arg1) (V c main_arg2) (V c main_v22) (V c main_v20) (V c main_v21) (pb t) (ph t) d e (pj t) :=
  step_apply (V c main_arg1) (V c main_arg2) (V c main_v22) (V c main_v20) (V c main_v21) (pb t) (ph t) (pj t)
    (iblk0 V c 0 t) (iblk0 V c 1 t) (iblk0 V c 2 t) (iblk0 V c 3 t) (iblk0 V c 4 t)
    (iblk0_0_apply V c t) (iblk0_1_apply V c t) (iblk0_2_apply V c t) (iblk0_3_apply V c t) (iblk0_4_apply V c t) s d e

/-- At a point whose tile index is not 0, from the accumulator the point before left: the point before is the previous
    tile of the same head, so the update lands on tiles 0 … j. -/
theorem point_next (c : Dev nD) (n : ℕ) (hn : n < cfg0.N) (h0 : ¬n % 4 = 0) (s : Vec Ideal S64x64 .f32) (d e : Fin 64)
    (hs : s (ix2 d e) = upTo (V c main_arg1) (V c main_arg2) (V c main_v22) (V c main_v20) (V c main_v21) (pb ⟨n - 1, Nat.lt_of_le_of_lt (Nat.sub_le _ _) hn⟩) (ph ⟨n - 1, Nat.lt_of_le_of_lt (Nat.sub_le _ _) hn⟩) d e ((n - 1) % 4)) :
    k0_pay1 (F := Ideal) (k0_pay5 (iblk0 V c 0 ⟨n, hn⟩) (iblk0 V c 2 ⟨n, hn⟩) (iblk0 V c 3 ⟨n, hn⟩) (iblk0 V c 4 ⟨n, hn⟩)) (k0_pay6 (iblk0 V c 1 ⟨n, hn⟩) (iblk0 V c 2 ⟨n, hn⟩)) s (ix2 d e)
      = upTo (V c main_arg1) (V c main_arg2) (V c main_v22) (V c main_v20) (V c main_v21) (pb ⟨n, hn⟩) (ph ⟨n, hn⟩) d e (n % 4) := by
  have hb : pb ⟨n - 1, Nat.lt_of_le_of_lt (Nat.sub_le _ _) hn⟩ = pb ⟨n, hn⟩ := Fin.ext (by show (n - 1) / 64 = n / 64; omega)
  have hh : ph ⟨n - 1, Nat.lt_of_le_of_lt (Nat.sub_le _ _) hn⟩ = ph ⟨n, hn⟩ := Fin.ext (by show (n - 1) / 4 % 16 = n / 4 % 16; omega)
  rw [point_step V c ⟨n, hn⟩ s d e, hs, hb, hh,
    upTo_succ (V c main_arg1) (V c main_arg2) (V c main_v22) (V c main_v20) (V c main_v21) (pb ⟨n, hn⟩) (ph ⟨n, hn⟩) d e ((n - 1) % 4) (by omega) (pj ⟨n, hn⟩) (by show n % 4 = (n - 1) % 4 + 1; omega),
    show (n - 1) % 4 + 1 = n % 4 by omega]

/-- After point n the accumulator holds tiles 0 … j of the point's head, j the point's tile index. -/
theorem acc_eq (c : Dev nD) : ∀ (n : ℕ) (hn : n < cfg0.N) (d e : Fin 64),
    (outsAt0 V c n hn).2 (ix2 d e) = upTo (V c main_arg1) (V c main_arg2) (V c main_v22) (V c main_v20) (V c main_v21) (pb ⟨n, hn⟩) (ph ⟨n, hn⟩) d e (n % 4) := by
  intro n
  induction n using Nat.strong_induction_on with
  | _ n ih =>
    intro hn d e
    by_cases h0 : n % 4 = 0
    · have h1 : ¬n % 4 = 3 := by omega
      rw [outsAt0_A V c ⟨n, hn⟩ h0 h1]
      dsimp only
      refine (congrFun (sout_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) ((hcond0_0 ⟨n, hn⟩).mpr h0) (fun h => h1 ((hcond0_1 ⟨n, hn⟩).mp h)) (iblk0 V c 0 ⟨n, hn⟩) (iblk0 V c 1 ⟨n, hn⟩) (iblk0 V c 2 ⟨n, hn⟩) (iblk0 V c 3 ⟨n, hn⟩) (iblk0 V c 4 ⟨n, hn⟩)) (ix2 d e)).trans ?_
      rw [point_step V c ⟨n, hn⟩ (k0_pay3 (F := Ideal)) d e, pay3_apply, zero_add, h0, show pj ⟨n, hn⟩ = 0 from Fin.ext h0]
      rfl
    · have hprev : (outsAt0 V c (n - 1) (Nat.lt_of_le_of_lt (Nat.sub_le _ _) hn)).2 (ix2 d e) = _ := ih (n - 1) (by omega) _ d e
      by_cases h1 : n % 4 = 3
      · rw [outsAt0_C V c ⟨n, hn⟩ h0 h1]
        dsimp only
        refine (congrFun (sout_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (fun h => h0 ((hcond0_0 ⟨n, hn⟩).mp h)) ((hcond0_1 ⟨n, hn⟩).mpr h1) (iblk0 V c 0 ⟨n, hn⟩) (iblk0 V c 1 ⟨n, hn⟩) (iblk0 V c 2 ⟨n, hn⟩) (iblk0 V c 3 ⟨n, hn⟩) (iblk0 V c 4 ⟨n, hn⟩) (outsAt0 V c (n - 1) (Nat.lt_of_le_of_lt (Nat.sub_le _ _) hn)).2) (ix2 d e)).trans ?_
        exact point_next V c n hn h0 _ d e hprev
      · rw [outsAt0_B V c ⟨n, hn⟩ h0 h1]
        dsimp only
        refine (congrFun (sout_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (fun h => h0 ((hcond0_0 ⟨n, hn⟩).mp h)) (fun h => h1 ((hcond0_1 ⟨n, hn⟩).mp h)) (iblk0 V c 0 ⟨n, hn⟩) (iblk0 V c 1 ⟨n, hn⟩) (iblk0 V c 2 ⟨n, hn⟩) (iblk0 V c 3 ⟨n, hn⟩) (iblk0 V c 4 ⟨n, hn⟩) (outsAt0 V c (n - 1) (Nat.lt_of_le_of_lt (Nat.sub_le _ _) hn)).2) (ix2 d e)).trans ?_
        exact point_next V c n hn h0 _ d e hprev

/-- At a point whose tile index is 3 the output block holds the four tiles of the point's head, added in order. -/
theorem out_eq (c : Dev nD) (n : ℕ) (hn : n < cfg0.N) (h3 : n % 4 = 3) (d e : Fin 64) :
    (outsAt0 V c n hn).1 (ix4 (0 : Fin 1) (0 : Fin 1) d e) = kv4 (V c main_arg1) (V c main_arg2) (V c main_v22) (V c main_v20) (V c main_v21) (pb ⟨n, hn⟩) (ph ⟨n, hn⟩) d e := by
  have h0 : ¬n % 4 = 0 := by omega
  rw [outsAt0_C V c ⟨n, hn⟩ h0 h3]
  dsimp only
  refine (congrFun (out_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (fun h => h0 ((hcond0_0 ⟨n, hn⟩).mp h)) ((hcond0_1 ⟨n, hn⟩).mpr h3) (iblk0 V c 0 ⟨n, hn⟩) (iblk0 V c 1 ⟨n, hn⟩) (iblk0 V c 2 ⟨n, hn⟩) (iblk0 V c 3 ⟨n, hn⟩) (iblk0 V c 4 ⟨n, hn⟩) (outsAt0 V c (n - 1) (Nat.lt_of_le_of_lt (Nat.sub_le _ _) hn)).2) (ix4 (0 : Fin 1) (0 : Fin 1) d e)).trans ?_
  rw [pay2_apply, point_next V c n hn h0 _ d e (acc_eq V c (n - 1) _ d e), h3]
  rfl

/-! ## The array the launch leaves -/

/-- What a write-back writes is block (b, h) of the state array of the specification. -/
theorem flushed_eq (c : Dev nD) (t : Fin cfg0.N) (hf : (cfg0.win 5).flush t = true) :
    (dat0 (F := Ideal) V c).flushed 5 t = ((cfg0.win 5).blk t).view.read (Elt Ideal) (kvArr (V c main_arg1) (V c main_arg2) (V c main_v22) (V c main_v20) (V c main_v21)) := by
  have h3 : t.val % 4 = 3 := (flush0_5 t).mp hf
  refine eq_read_blk5 (F := Ideal) (kvArr (V c main_arg1) (V c main_arg2) (V c main_v22) (V c main_v20) (V c main_v21)) t _ fun d e => ?_
  show (cfg0.win 5).cut (grid0.coords t) ((dat0 (F := Ideal) V c).after 5 t) (ix4 (0 : Fin 1) (0 : Fin 1) d e) = _
  rw [after0_5]
  exact out_eq V c t.val t.isLt h3 d e

/-- The 64 blocks written back fill the array: it ends holding the specification's state array. -/
theorem final0 (c : Dev nD) :
    (dat0 (F := Ideal) V c).arrAt 5 cfg0.N = kvArr (V c main_arg1) (V c main_arg2) (V c main_v22) (V c main_v20) (V c main_v21) :=
  (dat0 (F := Ideal) V c).arrAt_eq_of_cover 5 (kvArr (V c main_arg1) (V c main_arg2) (V c main_v22) (V c main_v20) (V c main_v21)) (flushed_eq V c) cover5

end Value

end Cert.KernelIdeal.Hand

end
-- ==== Proof.KernelIdeal.R1Value.lean ====
/-
  The output launch's result array. At each grid point (b, h, j) the body stores, over the whole result block, the
  product of the scaled feature map of the query block (rows 2048·j … 2048·j + 2047 of Q[b, h]) with the 64 × 64 state
  of (b, h); the blocks tile the [4, 16, 8192, 64] result array, so after the launch

      out[b, h, l, e] = Σ_d (φ(Q[b, h, l, d]) · s) · KV[b, h, d, e]

  of the query array and the state array as the launch finds them, φ(x) = x + 1 for x > 0 and eˣ otherwise, s the scale
  word. First the body's arithmetic at one entry (two reshapes around a 2048 × 64 by 64 × 64 product into a zero
  accumulator; the change of float format is the identity on extended reals), then each block as rows of its array,
  then the blocks laid over the array.
-/
import proofs.«152070_j15891378995472_1_alg».proof.Proof.KernelIdeal.R1
import proofs.«152070_j15891378995472_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

/-! ## Two leading unit axes dropped or added by a reshape -/

/-- A [1, 1, a, b] array viewed [a, b] reads, at (i, j), the operand at (0, 0, i, j). -/
theorem cast_11ab_ab {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array viewed [1, 1, a, b] reads, at (u, v, i, j), the operand at (i, j). -/
theorem cast_ab_11ab {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp only [Nat.zero_mul, Nat.zero_add])

/-! ## The block product at an index

The body multiplies a 2048 × 64 matrix by a 64 × 64 matrix, contracting the left operand's columns against the right
operand's rows, into a zero accumulator: at (r, e) the sum over d of left (r, d) · right (d, e). -/

theorem lhs_1_0_0_1_0 (j : S2048x64.Idx) (k : dot_S2048x64_S64x64_S2048x64_1_0_0_1_n_n.contr.Idx) :
    (dot_S2048x64_S64x64_S2048x64_1_0_0_1_n_n.lhsIdx j k 0).val = (j 0).val := rfl
theorem lhs_1_0_0_1_1 (j : S2048x64.Idx) (k : dot_S2048x64_S64x64_S2048x64_1_0_0_1_n_n.contr.Idx) :
    (dot_S2048x64_S64x64_S2048x64_1_0_0_1_n_n.lhsIdx j k 1).val = (k ⟨0, by decide⟩).val := rfl
theorem rhs_1_0_0_1_0 (j : S2048x64.Idx) (k : dot_S2048x64_S64x64_S2048x64_1_0_0_1_n_n.contr.Idx) :
    (dot_S2048x64_S64x64_S2048x64_1_0_0_1_n_n.rhsIdx j k 0).val = (k ⟨0, by decide⟩).val := rfl
theorem rhs_1_0_0_1_1 (j : S2048x64.Idx) (k : dot_S2048x64_S64x64_S2048x64_1_0_0_1_n_n.contr.Idx) :
    (dot_S2048x64_S64x64_S2048x64_1_0_0_1_n_n.rhsIdx j k 1).val = (j 1).val := rfl

theorem product_apply (L : FVec Ideal S2048x64 .bf16) (R : FVec Ideal S64x64 .bf16) (r : Fin 2048) (e : Fin 64) :
    matmul dot_S2048x64_S64x64_S2048x64_1_0_0_1_n_n none L R (constant (F := Ideal) S2048x64 .f32 0x00000000#32) (ix2 r e)
      = ∑ d : Fin 64, L (ix2 r d) * R (ix2 d e) := by
  simp only [matmul]
  rw [Ideal.matmul_constant_zero_apply]
  rw [← Equiv.sum_comp (contrEquiv1 dot_S2048x64_S64x64_S2048x64_1_0_0_1_n_n 64 rfl rfl).symm]
  refine Finset.sum_congr rfl fun d _ => ?_
  have hk := contrEquiv1_symm_val dot_S2048x64_S64x64_S2048x64_1_0_0_1_n_n 64 rfl rfl d
  congr 1
  · congr 1; funext a; apply Fin.ext
    match a with
    | ⟨0, _⟩ => exact lhs_1_0_0_1_0 _ _
    | ⟨1, _⟩ => exact (lhs_1_0_0_1_1 _ _).trans hk
  · congr 1; funext a; apply Fin.ext
    match a with
    | ⟨0, _⟩ => exact (rhs_1_0_0_1_0 _ _).trans hk
    | ⟨1, _⟩ => exact rhs_1_0_0_1_1 _ _

/-! ## The payload at an index -/

/-- The scaled feature map of a matrix, entry by entry: x + 1 where x > 0, the exponential elsewhere, times the
    scale word. -/
theorem feature_apply (v : FVec Ideal S2048x64 .f32) (i : S2048x64.Idx) :
    mulf (select (cmpf .ogt v (broadcast S2048x64 (Scalar.ofBits (F := Ideal) .f32 0x00000000#32)))
        (addf v (broadcast S2048x64 (Scalar.ofBits (F := Ideal) .f32 0x3F800000#32))) (exp v))
      (broadcast S2048x64 (Scalar.ofBits (F := Ideal) .f32 0x3DD744FD#32)) i
      = Cert.Spec.phiK (v i) * Cert.Spec.sc := rfl

/-- What the body stores, at (0, 0, r, e): the sum over d of the scaled feature of the query block's (r, d) times the
    state block's (d, e). -/
theorem pay_apply (x0 : Vec Ideal S1x1x2048x64 .f32) (x1 : Vec Ideal S1x1x64x64 .f32) (r : Fin 2048) (e : Fin 64) :
    k1_pay1 (F := Ideal) x0 x1 (ix4 (0 : Fin 1) (0 : Fin 1) r e)
      = ∑ d : Fin 64, Cert.Spec.phiK (x0 (ix4 (0 : Fin 1) (0 : Fin 1) r d)) * Cert.Spec.sc * x1 (ix4 (0 : Fin 1) (0 : Fin 1) d e) := by
  unfold k1_pay1
  refine (cast_ab_11ab _ _ 0 0 r e).trans ?_
  refine (product_apply _ _ r e).trans ?_
  refine Finset.sum_congr rfl fun d _ => ?_
  refine congrArg₂ (· * ·) ?_ ?_
  · show Cert.Spec.phiK (shapeCast S2048x64 x0 shapeCasts_S1x1x2048x64_S2048x64 (ix2 r d)) * Cert.Spec.sc = _
    exact congrArg (fun y => Cert.Spec.phiK y * Cert.Spec.sc) (cast_11ab_ab x0 _ r d)
  · show shapeCast S64x64 x1 shapeCasts_S1x1x64x64_S64x64 (ix2 d e) = _
    exact cast_11ab_ab x1 _ d e

/-! ## The launch's blocks and its result array -/

variable (V : (c : Dev nD) → (b : Ref sig .tc) → Buf (Elt Ideal) ((c : Thread nD τ).loc b))

theorem hz_out : (![0, 0, 0, 0] : Fin 4 → Nat) = fun _ => 0 := funext fun a => by fin_cases a <;> rfl

/-- The three index maps over the grid: the query window moves with the result window, on rows; the state window
    with its batch and head only; the result window's block indices stay inside 4 × 16 × 4 × 1. -/
theorem idx_facts : ∀ t : Fin cfg1.N,
    win1_0.index t (0 : Fin 4) = win1_2.index t (0 : Fin 4) ∧ win1_0.index t (1 : Fin 4) = win1_2.index t (1 : Fin 4)
    ∧ win1_0.index t (2 : Fin 4) = win1_2.index t (2 : Fin 4) ∧ win1_0.index t (3 : Fin 4) = 0
    ∧ win1_1.index t (0 : Fin 4) = win1_2.index t (0 : Fin 4) ∧ win1_1.index t (1 : Fin 4) = win1_2.index t (1 : Fin 4)
    ∧ win1_1.index t (2 : Fin 4) = 0 ∧ win1_1.index t (3 : Fin 4) = 0
    ∧ win1_2.index t (0 : Fin 4) < 4 ∧ win1_2.index t (1 : Fin 4) < 16 ∧ win1_2.index t (2 : Fin 4) < 4
    ∧ win1_2.index t (3 : Fin 4) = 0 :=
  (by decide +kernel : ∀ t : Fin grid1.N, _)

/-- Every block of the result array is some point's. -/
theorem idx_onto : ∀ (q0 : Fin 4) (q1 : Fin 16) (q2 : Fin 4), ∃ t : Fin cfg1.N, win1_2.index t = ![q0.val, q1.val, q2.val, 0] :=
  (by decide +kernel : ∀ (q0 : Fin 4) (q1 : Fin 16) (q2 : Fin 4), ∃ t : Fin grid1.N, win1_2.index t = ![q0.val, q1.val, q2.val, 0])

/-- The query block at a point whose block index is (b, h, j, 0): entry (0, 0, r, d) is Q[b, h, 2048·j + r, d]. -/
theorem qblk_apply (c : Dev nD) (t : Fin cfg1.N) (b : Fin 4) (h : Fin 16) (jt : Fin 4)
    (h0 : win1_0.index t (0 : Fin 4) = b.val) (h1 : win1_0.index t (1 : Fin 4) = h.val)
    (h2 : win1_0.index t (2 : Fin 4) = jt.val) (h3 : win1_0.index t (3 : Fin 4) = 0) (r : Fin 2048) (d : Fin 64) :
    (iblk1 V c 0 t : Vec Ideal S1x1x2048x64 .f32) (ix4 (0 : Fin 1) (0 : Fin 1) r d)
      = (V c main_arg0 : Cert.Spec.SQ.Idx → EReal) (ix4 b h (Cert.Spec.lIdx jt r) d) := by
  unfold iblk1
  rw [View.read_apply]
  show V c main_arg0 _ = V c main_arg0 _
  congr 1
  funext a
  apply Fin.ext
  match a with
  | ⟨0, _⟩ => show win1_0.index t (0 : Fin 4) * 1 + 1 * 0 = b.val; omega
  | ⟨1, _⟩ => show win1_0.index t (1 : Fin 4) * 1 + 1 * 0 = h.val; omega
  | ⟨2, _⟩ => show win1_0.index t (2 : Fin 4) * 2048 + 1 * r.val = 2048 * jt.val + r.val; omega
  | ⟨3, _⟩ => show win1_0.index t (3 : Fin 4) * 64 + 1 * d.val = d.val; omega

/-- The state block at a point whose block index is (b, h, 0, 0): entry (0, 0, d, e) is KV[b, h, d, e]. -/
theorem sblk_apply (c : Dev nD) (t : Fin cfg1.N) (b : Fin 4) (h : Fin 16)
    (h0 : win1_1.index t (0 : Fin 4) = b.val) (h1 : win1_1.index t (1 : Fin 4) = h.val)
    (h2 : win1_1.index t (2 : Fin 4) = 0) (h3 : win1_1.index t (3 : Fin 4) = 0) (d e : Fin 64) :
    (iblk1 V c 1 t : Vec Ideal S1x1x64x64 .f32) (ix4 (0 : Fin 1) (0 : Fin 1) d e)
      = (V c main_v23 : Cert.Spec.SKV.Idx → EReal) (ix4 b h d e) := by
  unfold iblk1
  rw [View.read_apply]
  show V c main_v23 _ = V c main_v23 _
  congr 1
  funext a
  apply Fin.ext
  match a with
  | ⟨0, _⟩ => show win1_1.index t (0 : Fin 4) * 1 + 1 * 0 = b.val; omega
  | ⟨1, _⟩ => show win1_1.index t (1 : Fin 4) * 1 + 1 * 0 = h.val; omega
  | ⟨2, _⟩ => show win1_1.index t (2 : Fin 4) * 64 + 1 * d.val = d.val; omega
  | ⟨3, _⟩ => show win1_1.index t (3 : Fin 4) * 64 + 1 * e.val = e.val; omega

/-- A block index and an array index, by coordinates: the block's entry (0, 0, r, e) and the array's
    (b, h, 2048·j + r, e). -/
theorem split_idx (b : Fin 4) (h : Fin 16) (jt : Fin 4) (y : S1x1x2048x64.Idx) (i : Cert.Spec.SQ.Idx)
    (hi0 : (i 0).val = b.val) (hi1 : (i 1).val = h.val) (hi2 : (i 2).val = 2048 * jt.val + (y 2).val) (hi3 : (i 3).val = (y 3).val) :
    ∃ (r : Fin 2048) (e : Fin 64), y = ix4 (0 : Fin 1) (0 : Fin 1) r e ∧ i = ix4 b h (Cert.Spec.lIdx jt r) e := by
  obtain ⟨u, v, r, e, rfl⟩ : ∃ (u v : Fin 1) (r : Fin 2048) (e : Fin 64), y = ix4 u v r e := ⟨y 0, y 1, y 2, y 3, eq_ix4 y⟩
  obtain ⟨ib, ih, il, ie, rfl⟩ : ∃ (ib : Fin 4) (ih : Fin 16) (il : Fin 8192) (ie : Fin 64), i = ix4 ib ih il ie :=
    ⟨i 0, i 1, i 2, i 3, eq_ix4 i⟩
  obtain rfl : u = 0 := Subsingleton.elim _ _
  obtain rfl : v = 0 := Subsingleton.elim _ _
  refine ⟨r, e, rfl, ?_⟩
  obtain rfl : ib = b := Fin.ext hi0
  obtain rfl : ih = h := Fin.ext hi1
  obtain rfl : ie = e := Fin.ext hi3
  obtain rfl : il = Cert.Spec.lIdx jt r := Fin.ext hi2
  rfl

/-- The payload of two blocks that are rows 2048·j … 2048·j + 2047 of Q[b, h] and the state KV[b, h], at a block
    entry y, is the result array's entry at the array index i with the same batch, head and column on row
    2048·j + y's row. -/
theorem block_apply (q : Cert.Spec.SQ.Idx → EReal) (kv : Cert.Spec.SKV.Idx → EReal)
    (x0 : Vec Ideal S1x1x2048x64 .f32) (x1 : Vec Ideal S1x1x64x64 .f32) (b : Fin 4) (h : Fin 16) (jt : Fin 4)
    (hx0 : ∀ (r : Fin 2048) (d : Fin 64), x0 (ix4 (0 : Fin 1) (0 : Fin 1) r d) = q (ix4 b h (Cert.Spec.lIdx jt r) d))
    (hx1 : ∀ d e : Fin 64, x1 (ix4 (0 : Fin 1) (0 : Fin 1) d e) = kv (ix4 b h d e))
    (y : S1x1x2048x64.Idx) (i : Cert.Spec.SQ.Idx)
    (hi0 : (i 0).val = b.val) (hi1 : (i 1).val = h.val) (hi2 : (i 2).val = 2048 * jt.val + (y 2).val) (hi3 : (i 3).val = (y 3).val) :
    k1_pay1 (F := Ideal) x0 x1 y = Cert.Spec.outArr q kv i := by
  obtain ⟨r, e, rfl, rfl⟩ := split_idx b h jt y i hi0 hi1 hi2 hi3
  refine (pay_apply x0 x1 r e).trans ?_
  show _ = ∑ d : Fin 64, Cert.Spec.phiK (q (ix4 b h (Cert.Spec.lIdx jt r) d)) * Cert.Spec.sc * kv (ix4 b h d e)
  exact Finset.sum_congr rfl fun d _ => by rw [hx0, hx1]

/-- What point t writes back is its block of the result array. -/
theorem out_flushed_eq (c : Dev nD) (t : Fin cfg1.N) :
    (dat1 (F := Ideal) V c).flushed 2 t
      = ((cfg1.win 2).blk t).view.read (Elt Ideal) (Cert.Spec.outArr (V c main_arg0) (V c main_v23)) := by
  show (cfg1.win 2).cut (grid1.coords t) ((dat1 (F := Ideal) V c).after 2 t) = _
  rw [after1_2]
  unfold out1_2
  rw [View.canon_unit_zero hz_out]
  simp only [View.ld_unit_zero (S := S1x1x2048x64) hz_out, View.ld_unit_zero (S := S1x1x64x64) hz_out]
  obtain ⟨e0, e1, e2, e3, f0, f1, f2, f3, g0, g1, g2, g3⟩ := idx_facts t
  funext y
  show k1_pay1 (F := Ideal) (iblk1 V c 0 t) (iblk1 V c 1 t) y
    = Cert.Spec.outArr (V c main_arg0) (V c main_v23) (((cfg1.win 2).blk t).view.emb y)
  refine block_apply (V c main_arg0) (V c main_v23) (iblk1 V c 0 t) (iblk1 V c 1 t)
    ⟨win1_2.index t (0 : Fin 4), g0⟩ ⟨win1_2.index t (1 : Fin 4), g1⟩ ⟨win1_2.index t (2 : Fin 4), g2⟩
    (qblk_apply V c t ⟨win1_2.index t (0 : Fin 4), g0⟩ ⟨win1_2.index t (1 : Fin 4), g1⟩ ⟨win1_2.index t (2 : Fin 4), g2⟩ e0 e1 e2 e3)
    (sblk_apply V c t ⟨win1_2.index t (0 : Fin 4), g0⟩ ⟨win1_2.index t (1 : Fin 4), g1⟩ f0 f1 f2 f3)
    y (((cfg1.win 2).blk t).view.emb y) ?_ ?_ ?_ ?_
  · show win1_2.index t (0 : Fin 4) * 1 + 1 * (y 0).val = win1_2.index t (0 : Fin 4)
    have hy : (y 0).val < 1 := (y 0).isLt
    omega
  · show win1_2.index t (1 : Fin 4) * 1 + 1 * (y 1).val = win1_2.index t (1 : Fin 4)
    have hy : (y 1).val < 1 := (y 1).isLt
    omega
  · show win1_2.index t (2 : Fin 4) * 2048 + 1 * (y 2).val = 2048 * win1_2.index t (2 : Fin 4) + (y 2).val
    omega
  · show win1_2.index t (3 : Fin 4) * 64 + 1 * (y 3).val = (y 3).val
    omega

/-- An index of the result array is in point t's block iff each coordinate is in the block's range on its axis. -/
theorem mem_blk (t : Fin cfg1.N) (i : S4x16x8192x64.Idx) :
    i ∈ ((cfg1.win 2).blk t).view.set ↔ ∀ a : Fin 4, win1_2.index t a * S1x1x2048x64.size a ≤ (i a).val
      ∧ (i a).val < win1_2.index t a * S1x1x2048x64.size a + S1x1x2048x64.size a := by
  show i ∈ ((View.whole main_v24).slice (win1_2.rect t)).set ↔ _
  rw [View.set_slice_whole, Rect.mem_set_unit]
  exact Iff.rfl

/-- Every index (b, h, l, e) of the result array lies in the block of the point (b, h, l / 2048), which writes back. -/
theorem covered (i : S4x16x8192x64.Idx) :
    ∃ t : Fin cfg1.N, (cfg1.win 2).flush t = true ∧ i ∈ ((cfg1.win 2).blk t).view.set := by
  have hi0 : (i 0).val < 4 := (i 0).isLt
  have hi1 : (i 1).val < 16 := (i 1).isLt
  have hi2 : (i 2).val < 8192 := (i 2).isLt
  have hi3 : (i 3).val < 64 := (i 3).isLt
  obtain ⟨t, ht⟩ := idx_onto ⟨(i 0).val, hi0⟩ ⟨(i 1).val, hi1⟩ ⟨(i 2).val / 2048, by omega⟩
  have q0 : win1_2.index t (0 : Fin 4) = (i 0).val := congrFun ht 0
  have q1 : win1_2.index t (1 : Fin 4) = (i 1).val := congrFun ht 1
  have q2 : win1_2.index t (2 : Fin 4) = (i 2).val / 2048 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 1 ≤ (i 1).val ∧ (i 1).val < win1_2.index t (1 : Fin 4) * 1 + 1; omega
  | ⟨2, _⟩ => show win1_2.index t (2 : Fin 4) * 2048 ≤ (i 2).val ∧ (i 2).val < win1_2.index t (2 : Fin 4) * 2048 + 2048; omega
  | ⟨3, _⟩ => show win1_2.index t (3 : Fin 4) * 64 ≤ (i 3).val ∧ (i 3).val < win1_2.index t (3 : Fin 4) * 64 + 64; omega

/-- The result array after the launch: out[b, h, l, e] = Σ_d (φ(Q[b, h, l, d]) · s) · KV[b, h, d, e], of the query array
    and the state array as the launch finds them. -/
theorem final1 (c : Dev nD) :
    (dat1 (F := Ideal) V c).arrAt 2 cfg1.N = Cert.Spec.outArr (V c main_arg0) (V c main_v23) :=
  (dat1 (F := Ideal) V c).arrAt_eq_of_cover 2 (Cert.Spec.outArr (V c main_arg0) (V c main_v23))
    (fun t _ => out_flushed_eq V c t) covered

end Cert.KernelIdeal.Hand

end
-- ==== Proof.KernelIdeal.HostValue.lean ====
/-
  What the host operations ahead of the first launch leave in the arrays that launch reads.

  Six arrays enter the launch. Three are arguments no earlier operation writes, so they hold what they held at the
  start. The other three are computed from the arguments pi (two mixture weights), mu (two [16, 64] mean arrays) and
  the mask: with p = min(1, max(0, pi)) entry by entry,
    * the coefficient array [16, 1, 64] holds p₀ + p₁ at every entry,
    * the shift array [16, 1, 64] holds mu₀[h, d]·p₀ + mu₁[h, d]·p₁ at (h, 0, d),
    * the mask array [4, 8192, 1] holds mask[b, l] at (b, l, 0).
  Each is read index by index: a reshape keeps the row-major position, a slice shifts by its offset, a broadcast of
  a scalar reads the scalar, and the arithmetic at the ideal instance is the extended reals' own.
-/
import proofs.«152070_j15891378995472_1_alg».proof.Proof.Gen.KernelIdeal.Regions
import proofs.«152070_j15891378995472_1_alg».proof.Proof.Spec
import Idealize.ShloMosaic.Lib.ValueIdx
import Idealize.ShloMosaic.Lib.ValueLayout
import Idealize.ShloMosaic.Lib.StableHlo.Run
import Idealize.ShloMosaic.Lib.Pipeline.Value

noncomputable section

namespace Cert.KernelIdeal.Hand

open Cert.KernelIdeal Cert.KernelIdeal.Gen
open Idealize.ShloMosaic Idealize.ShloMosaic.TcCoe Idealize.SL.Sem
open Idealize.ShloMosaic.ValueIdx

section Generic
variable {F : FTy → Type} [FloatOps F]
variable (m : (ℓ : Loc nD τ sig) → Buf (Elt F) ℓ)

/-- No operation before the first launch writes an argument array: each still holds its launch contents. -/
theorem V3_main_arg0 (c : Dev nD) : V3 m c main_arg0 = m ((c : Thread nD τ).loc main_arg0) :=
  (V3_of m c main_arg0 (by decide)).trans <| (V2_of m c main_arg0 (by decide)).trans <| (V1_of m c main_arg0 (by decide)).trans rfl
theorem V3_main_arg1 (c : Dev nD) : V3 m c main_arg1 = m ((c : Thread nD τ).loc main_arg1) :=
  (V3_of m c main_arg1 (by decide)).trans <| (V2_of m c main_arg1 (by decide)).trans <| (V1_of m c main_arg1 (by decide)).trans rfl
theorem V3_main_arg2 (c : Dev nD) : V3 m c main_arg2 = m ((c : Thread nD τ).loc main_arg2) :=
  (V3_of m c main_arg2 (by decide)).trans <| (V2_of m c main_arg2 (by decide)).trans <| (V1_of m c main_arg2 (by decide)).trans rfl

end Generic

/-! ## Layout steps read at one index -/

section Points

/-- Entry 0 of a pair, cut out and cast to a scalar. -/
private theorem pick0 (P : S2.Idx → EReal) :
    shapeCast S_ (extractStridedSlice S1 ![0] P slices_S2_S1_0) shapeCasts_S1_S_ ix0 = P (ix1 0) := by
  refine (shapeCast_apply _ _ ix0 (ix1 (0 : Fin 1)) ?_).trans ?_
  · rw [Shape.rowMajor_val_one]
    exact (Shape.rowMajorPi_zero _ _).symm
  · exact extractStridedSlice_apply _ _ _ _ (ix1 (0 : Fin 2)) (fun a => match a with | ⟨0, _⟩ => rfl)

/-- Entry 1 of a pair, cut out and cast to a scalar. -/
private theorem pick1 (P : S2.Idx → EReal) :
    shapeCast S_ (extractStridedSlice S1 ![1] P slices_S2_S1_1) shapeCasts_S1_S_ ix0 = P (ix1 1) := by
  refine (shapeCast_apply _ _ ix0 (ix1 (0 : Fin 1)) ?_).trans ?_
  · rw [Shape.rowMajor_val_one]
    exact (Shape.rowMajorPi_zero _ _).symm
  · exact extractStridedSlice_apply _ _ _ _ (ix1 (1 : Fin 2)) (fun a => match a with | ⟨0, _⟩ => rfl)

/-- A scalar spread over a [16, 64] array reads the scalar everywhere. -/
private theorem spread (x : S_.Idx → EReal) (h : Fin 16) (d : Fin 64) :
    broadcastInDim S16x64 ![] bcast_S_S16x64 x (ix2 h d) = x ix0 :=
  broadcastInDim_apply _ _ _ _ ix0 (fun a => a.elim0)

/-- A scalar spread over a pair reads the scalar at both entries. -/
private theorem spread2 (x : S_.Idx → EReal) (j : Fin 2) :
    broadcastInDim S2 ![] bcast_S_S2 x (ix1 j) = x ix0 :=
  broadcastInDim_apply _ _ _ _ ix0 (fun a => a.elim0)

/-- Plane 0 of a [2, 16, 64] array as a [16, 64] array. -/
private theorem plane0 (MU : S2x16x64.Idx → EReal) (h : Fin 16) (d : Fin 64) :
    shapeCast S16x64 (extractStridedSlice S1x16x64 ![0, 0, 0] MU slices_S2x16x64_S1x16x64_0_0_0) shapeCasts_S1x16x64_S16x64 (ix2 h d)
      = MU (ix3 0 h d) := by
  refine (shapeCast_1ab_ab_apply _ _ h d).trans ?_
  exact extractStridedSlice_apply _ _ _ _ (ix3 (0 : Fin 2) h d)
    (fun a => match a with | ⟨0, _⟩ => rfl | ⟨1, _⟩ => (Nat.zero_add _).symm | ⟨2, _⟩ => (Nat.zero_add _).symm)

/-- Plane 1 of a [2, 16, 64] array as a [16, 64] array. -/
private theorem plane1 (MU : S2x16x64.Idx → EReal) (h : Fin 16) (d : Fin 64) :
    shapeCast S16x64 (extractStridedSlice S1x16x64 ![1, 0, 0] MU slices_S2x16x64_S1x16x64_1_0_0) shapeCasts_S1x16x64_S16x64 (ix2 h d)
      = MU (ix3 1 h d) := by
  refine (shapeCast_1ab_ab_apply _ _ h d).trans ?_
  exact extractStridedSlice_apply _ _ _ _ (ix3 (1 : Fin 2) h d)
    (fun a => match a with | ⟨0, _⟩ => rfl | ⟨1, _⟩ => (Nat.zero_add _).symm | ⟨2, _⟩ => (Nat.zero_add _).symm)

/-- A [16, 64] array with a unit middle axis inserted reads the same entry. -/
private theorem midUnit (X : S16x64.Idx → EReal) (h : Fin 16) (u : Fin 1) (d : Fin 64) :
    shapeCast S16x1x64 X shapeCasts_S16x64_S16x1x64 (ix3 h u d) = X (ix2 h d) := by
  refine shapeCast_apply _ _ _ (ix2 h d) ?_
  rw [Shape.rowMajor_val_two, Shape.rowMajor_val_three]
  show h.val * 64 + d.val = (h.val * 1 + u.val) * 64 + d.val
  omega

/-- A [4, 8192] array with a trailing unit axis reads the same entry. -/
private theorem lastUnit (X : S4x8192.Idx → EReal) (b : Fin 4) (l : Fin 8192) (u : Fin 1) :
    shapeCast S4x8192x1 X shapeCasts_S4x8192_S4x8192x1 (ix3 b l u) = X (ix2 b l) := by
  refine shapeCast_apply _ _ _ (ix2 b l) ?_
  rw [Shape.rowMajor_val_two, Shape.rowMajor_val_three]
  show b.val * 8192 + l.val = (b.val * 8192 + l.val) * 1 + u.val
  omega

end Points

section AtIdeal
variable (m : (ℓ : Loc nD τ sig) → Buf (Elt Ideal) ℓ)

/-- The mask the first launch reads is the mask argument with a trailing unit axis. -/
theorem V3_main_v22 (c : Dev nD) : V3 m c main_v22 = Cert.Spec.maskArr (m ((c : Thread nD τ).loc main_arg3)) := by
  have e : (V3 m c main_v22 : S4x8192x1.Idx → EReal)
      = shapeCast S4x8192x1 (V2 m c main_arg3 : S4x8192.Idx → EReal) shapeCasts_S4x8192_S4x8192x1 := by
    show StableHlo.after hostOps0_2 (V2 m c) (Proc.devRef .tc main_v22) = _
    simp only [hostOps0_2]
    after_results
    rfl
  have a3 : V2 m c main_arg3 = m ((c : Thread nD τ).loc main_arg3) :=
    (V2_of m c main_arg3 (by decide)).trans ((V1_of m c main_arg3 (by decide)).trans rfl)
  refine e.trans ?_
  rw [a3]
  funext i
  obtain ⟨b, l, u, rfl⟩ : ∃ (b : Fin 4) (l : Fin 8192) (u : Fin 1), i = ix3 b l u := ⟨i 0, i 1, i 2, eq_ix3 i⟩
  exact lastUnit _ b l u

/-- The two constant words after the first stretch. -/
private theorem V1_cst (c : Dev nD) : (V1 m c main_cst : S_.Idx → EReal) = constant (F := Ideal) S_ .f32 0x00000000#32 := by
  show StableHlo.after hostOps0 (V0 m c) (Proc.devRef .tc main_cst) = _
  simp only [hostOps0]
  after_results
private theorem V1_cst_0 (c : Dev nD) : (V1 m c main_cst_0 : S_.Idx → EReal) = constant (F := Ideal) S_ .f32 0x3F800000#32 := by
  show StableHlo.after hostOps0 (V0 m c) (Proc.devRef .tc main_cst_0) = _
  simp only [hostOps0]
  after_results

/-- The clipped pair after the second stretch: min(1, max(0, pi)) entry by entry. -/
private theorem V2_v0_term (c : Dev nD) : @Eq (FVec Ideal S2 .f32) (V2 m c main_v0)
      (minimumf (broadcastInDim S2 ![] bcast_S_S2 (V1 m c main_cst_0 : FVec Ideal S_ .f32))
          (maximumf (broadcastInDim S2 ![] bcast_S_S2 (V1 m c main_cst : FVec Ideal S_ .f32)) (V1 m c main_arg4 : FVec Ideal S2 .f32))) := by
  show StableHlo.after hostOps0_1 (V1 m c) (Proc.devRef .tc main_v0) = _
  simp only [hostOps0_1]
  after_results
  rfl

private theorem V2_v0_at (c : Dev nD) (j : Fin 2) :
    (V2 m c main_v0 : S2.Idx → EReal) (ix1 j) = Cert.Spec.clip (m ((c : Thread nD τ).loc main_arg4)) j := by
  have a4 : V1 m c main_arg4 = m ((c : Thread nD τ).loc main_arg4) := (V1_of m c main_arg4 (by decide)).trans rfl
  rw [V2_v0_term, V1_cst, V1_cst_0, a4]
  show min (broadcastInDim S2 ![] bcast_S_S2 (constant (F := Ideal) S_ .f32 0x3F800000#32) (ix1 j))
      (max (broadcastInDim S2 ![] bcast_S_S2 (constant (F := Ideal) S_ .f32 0x00000000#32) (ix1 j)) _) = _
  rw [spread2, spread2]
  rfl

/-- p₀ + p₁ spread over [16, 64], then given a unit middle axis. -/
private theorem V3_v20_term (c : Dev nD) : @Eq (FVec Ideal S16x1x64 .f32) (V3 m c main_v20)
      (shapeCast S16x1x64 (broadcastInDim S16x64 ![] bcast_S_S16x64
        (addf (shapeCast S_ (extractStridedSlice S1 ![0] (V2 m c main_v0 : FVec Ideal S2 .f32) slices_S2_S1_0) shapeCasts_S1_S_)
              (shapeCast S_ (extractStridedSlice S1 ![1] (V2 m c main_v0 : FVec Ideal S2 .f32) slices_S2_S1_1) shapeCasts_S1_S_)))
        shapeCasts_S16x64_S16x1x64) := by
  show StableHlo.after hostOps0_2 (V2 m c) (Proc.devRef .tc main_v20) = _
  simp only [hostOps0_2]
  after_results
  rfl

/-- μ₀·p₀ + μ₁·p₁ over [16, 64], then given a unit middle axis. -/
private theorem V3_v21_term (c : Dev nD) : @Eq (FVec Ideal S16x1x64 .f32) (V3 m c main_v21)
      (shapeCast S16x1x64
        (addf
          (mulf (shapeCast S16x64 (extractStridedSlice S1x16x64 ![0, 0, 0] (V2 m c main_arg5 : FVec Ideal S2x16x64 .f32) slices_S2x16x64_S1x16x64_0_0_0) shapeCasts_S1x16x64_S16x64)
                (broadcastInDim S16x64 ![] bcast_S_S16x64 (shapeCast S_ (extractStridedSlice S1 ![0] (V2 m c main_v0 : FVec Ideal S2 .f32) slices_S2_S1_0) shapeCasts_S1_S_)))
          (mulf (shapeCast S16x64 (extractStridedSlice S1x16x64 ![1, 0, 0] (V2 m c main_arg5 : FVec Ideal S2x16x64 .f32) slices_S2x16x64_S1x16x64_1_0_0) shapeCasts_S1x16x64_S16x64)
                (broadcastInDim S16x64 ![] bcast_S_S16x64 (shapeCast S_ (extractStridedSlice S1 ![1] (V2 m c main_v0 : FVec Ideal S2 .f32) slices_S2_S1_1) shapeCasts_S1_S_))))
        shapeCasts_S16x64_S16x1x64) := by
  show StableHlo.after hostOps0_2 (V2 m c) (Proc.devRef .tc main_v21) = _
  simp only [hostOps0_2]
  after_results_simp
  rfl

/-- The coefficient array the first launch reads is p₀ + p₁ at every entry. -/
theorem V3_main_v20 (c : Dev nD) : V3 m c main_v20 = Cert.Spec.coefArr (m ((c : Thread nD τ).loc main_arg4)) := by
  refine (V3_v20_term m c).trans ?_
  funext i
  obtain ⟨h, u, d, rfl⟩ : ∃ (h : Fin 16) (u : Fin 1) (d : Fin 64), i = ix3 h u d := ⟨i 0, i 1, i 2, eq_ix3 i⟩
  refine (midUnit _ h u d).trans ?_
  refine (spread _ h d).trans ?_
  refine (addf_apply _ _ ix0).trans ?_
  rw [pick0, pick1, V2_v0_at, V2_v0_at]
  rfl

/-- The shift array the first launch reads is μ₀[h,d]·p₀ + μ₁[h,d]·p₁ at (h, 0, d). -/
theorem V3_main_v21 (c : Dev nD) :
    V3 m c main_v21 = Cert.Spec.adjArr (m ((c : Thread nD τ).loc main_arg4)) (m ((c : Thread nD τ).loc main_arg5)) := by
  have a5 : V2 m c main_arg5 = m ((c : Thread nD τ).loc main_arg5) :=
    (V2_of m c main_arg5 (by decide)).trans ((V1_of m c main_arg5 (by decide)).trans rfl)
  refine (V3_v21_term m c).trans ?_
  funext i
  obtain ⟨h, u, d, rfl⟩ : ∃ (h : Fin 16) (u : Fin 1) (d : Fin 64), i = ix3 h u d := ⟨i 0, i 1, i 2, eq_ix3 i⟩
  refine (midUnit _ h u d).trans ?_
  refine (addf_apply _ _ (ix2 h d)).trans ?_
  rw [mulf_apply, mulf_apply, plane0, plane1, spread, spread, pick0, pick1, V2_v0_at, V2_v0_at, a5]
  rfl

end AtIdeal

end Cert.KernelIdeal.Hand

end
-- ==== Proof.KernelIdeal.Result.lean ====
/-
  The kernel's result as one function of its six arguments. The second launch leaves in the result array the function
  `outArr` of the query array and of the state array it finds; the state array is what the first launch left, the
  function `kvArr` of the key and value arrays and of the three small arrays the host operations computed from the
  mask, the mixture weights and the means; and those three are the mask laid out as a column, p₀ + p₁ and
  μ₀·p₀ + μ₁·p₁ laid out by head. Composed, that is `outK` of the arguments.
-/
import proofs.«152070_j15891378995472_1_alg».proof.Proof.KernelIdeal.Regs
import proofs.«152070_j15891378995472_1_alg».proof.Proof.KernelIdeal.R0Value
import proofs.«152070_j15891378995472_1_alg».proof.Proof.KernelIdeal.R1Value
import proofs.«152070_j15891378995472_1_alg».proof.Proof.KernelIdeal.HostValue
import proofs.«152070_j15891378995472_1_alg».proof.Proof.Spec

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- After the run the result array holds the kernel's function of the six argument arrays. -/
theorem result_eq (c : Dev nD) :
    (dat1 (F := Ideal) (VR1 m) c).arrAt 2 cfg1.N
      = Cert.Spec.outK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [final1 (VR1 m) c, VR1_main_arg0 m c, V3_main_arg0 m c, VR1_main_v23 m c, final0 (VR0 m) c]
  show Cert.Spec.outArr _ (Cert.Spec.kvArr (V3 m c main_arg1) (V3 m c main_arg2) (V3 m c main_v22) (V3 m c main_v20) (V3 m c main_v21)) = _
  rw [V3_main_arg1 m c, V3_main_arg2 m c, V3_main_v22 m c, V3_main_v20 m c, V3_main_v21 m c]
  rfl

end Cert.KernelIdeal.Hand

end
-- ==== Proof.Ref.Ops.lean ====
/-
  The reference program's @main as one straight line. Each `func.call` is replaced by its callee's operations at the
  call site, over that call's own buffers: @clip's six after the two scalar constants; @elu's fifteen (the comparison
  with zero twice, `_where`'s three selecting 0 where x > 0 and x elsewhere, e^y − 1, the product with one,
  `_where_0`'s select) on the query array; @elu_1's fifteen on the shifted keys. Seventy-six operations, one per
  value: each writes the buffer of its own value and no other.

  The run: every weakly fair execution terminates with each buffer at the fold of the operations' results over the
  launch contents.
-/
import proofs.«152070_j15891378995472_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- @main's operations in order, each call's body in place of the call. -/
abbrev ops : List (HloOp τ sig (Elt F)) :=
  [ StableHlo.nullary main_cst (constant S_ .f32 0x00000000#32),
    StableHlo.nullary main_cst_0 (constant S_ .f32 0x3F800000#32),
    StableHlo.TRef.unary (.of main_cst : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S2, .f32⟩) (broadcastInDim S2 ![] bcast_S_S2),
    StableHlo.TRef.binary (.of main_call0_v1 : StableHlo.TRef sig ⟨S2, .f32⟩) (.of main_arg4 : StableHlo.TRef sig ⟨S2, .f32⟩) (.of main_call0_v2 : StableHlo.TRef sig ⟨S2, .f32⟩) maximumf,
    StableHlo.TRef.unary (.of main_cst_0 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S2, .f32⟩) (broadcastInDim S2 ![] bcast_S_S2),
    StableHlo.TRef.binary (.of main_call0_v4 : StableHlo.TRef sig ⟨S2, .f32⟩) (.of main_call0_v2 : StableHlo.TRef sig ⟨S2, .f32⟩) (.of main_v0 : StableHlo.TRef sig ⟨S2, .f32⟩) minimumf,
    StableHlo.unary main_arg5 main_v1 ((extractStridedSlice S1x16x64 ![0, 0, 0] · slices_S2x16x64_S1x16x64_0_0_0) : (⟨S2x16x64, .f32⟩ : BufTy).Contents (Elt F) → (⟨S1x16x64, .f32⟩ : BufTy).Contents (Elt F)),
    StableHlo.reshape main_v1 main_v2 rfl shapeCasts_S1x16x64_S16x64,
    StableHlo.unary main_v2 main_v3 (broadcastInDim S1x16x1x64 ![1, 3] bcast_S16x64_S1x16x1x64_1_3 : (⟨S16x64, .f32⟩ : BufTy).Contents (Elt F) → (⟨S1x16x1x64, .f32⟩ : BufTy).Contents (Elt F)),
    StableHlo.unary main_v3 main_v4 (broadcastInDim S4x16x8192x64 ![0, 1, 2, 3] bcast_S1x16x1x64_S4x16x8192x64_0_1_2_3 : (⟨S1x16x1x64, .f32⟩ : BufTy).Contents (Elt F) → (⟨S4x16x8192x64, .f32⟩ : BufTy).Contents (Elt F)),
    StableHlo.binary main_arg1 main_v4 main_v5 (subf : (⟨S4x16x8192x64, .f32⟩ : BufTy).Contents (Elt F) → (⟨S4x16x8192x64, .f32⟩ : BufTy).Contents (Elt F) → (⟨S4x16x8192x64, .f32⟩ : BufTy).Contents (Elt F)),
    StableHlo.unary main_arg5 main_v6 ((extractStridedSlice S1x16x64 ![1, 0, 0] · slices_S2x16x64_S1x16x64_1_0_0) : (⟨S2x16x64, .f32⟩ : BufTy).Contents (Elt F) → (⟨S1x16x64, .f32⟩ : BufTy).Contents (Elt F)),
    StableHlo.reshape main_v6 main_v7 rfl shapeCasts_S1x16x64_S16x64,
    StableHlo.unary main_v7 main_v8 (broadcastInDim S1x16x1x64 ![1, 3] bcast_S16x64_S1x16x1x64_1_3 : (⟨S16x64, .f32⟩ : BufTy).Contents (Elt F) → (⟨S1x16x1x64, .f32⟩ : BufTy).Contents (Elt F)),
    StableHlo.unary main_v8 main_v9 (broadcastInDim S4x16x8192x64 ![0, 1, 2, 3] bcast_S1x16x1x64_S4x16x8192x64_0_1_2_3 : (⟨S1x16x1x64, .f32⟩ : BufTy).Contents (Elt F) → (⟨S4x16x8192x64, .f32⟩ : BufTy).Contents (Elt F)),
    StableHlo.binary main_arg1 main_v9 main_v10 (subf : (⟨S4x16x8192x64, .f32⟩ : BufTy).Contents (Elt F) → (⟨S4x16x8192x64, .f32⟩ : BufTy).Contents (Elt F) → (⟨S4x16x8192x64, .f32⟩ : BufTy).Contents (Elt F)),
    StableHlo.unary main_v0 main_v11 ((extractStridedSlice S1 ![0] · slices_S2_S1_0) : (⟨S2, .f32⟩ : BufTy).Contents (Elt F) → (⟨S1, .f32⟩ : BufTy).Contents (Elt F)),
    StableHlo.reshape main_v11 main_v12 rfl shapeCasts_S1_S_,
    StableHlo.unary main_v12 main_v13 (broadcastInDim S4x16x8192x64 ![] bcast_S_S4x16x8192x64 : (⟨S_, .f32⟩ : BufTy).Contents (Elt F) → (⟨S4x16x8192x64, .f32⟩ : BufTy).Contents (Elt F)),
    StableHlo.binary main_v5 main_v13 main_v14 (mulf : (⟨S4x16x8192x64, .f32⟩ : BufTy).Contents (Elt F) → (⟨S4x16x8192x64, .f32⟩ : BufTy).Contents (Elt F) → (⟨S4x16x8192x64, .f32⟩ : BufTy).Contents (Elt F)),
    StableHlo.unary main_v0 main_v15 ((extractStridedSlice S1 ![1] · slices_S2_S1_1) : (⟨S2, .f32⟩ : BufTy).Contents (Elt F) → (⟨S1, .f32⟩ : BufTy).Contents (Elt F)),
    StableHlo.reshape main_v15 main_v16 rfl shapeCasts_S1_S_,
    StableHlo.unary main_v16 main_v17 (broadcastInDim S4x16x8192x64 ![] bcast_S_S4x16x8192x64 : (⟨S_, .f32⟩ : BufTy).Contents (Elt F) → (⟨S4x16x8192x64, .f32⟩ : BufTy).Contents (Elt F)),
    StableHlo.binary main_v10 main_v17 main_v18 (mulf : (⟨S4x16x8192x64, .f32⟩ : BufTy).Contents (Elt F) → (⟨S4x16x8192x64, .f32⟩ : BufTy).Contents (Elt F) → (⟨S4x16x8192x64, .f32⟩ : BufTy).Contents (Elt F)),
    StableHlo.binary main_v14 main_v18 main_v19 (addf : (⟨S4x16x8192x64, .f32⟩ : BufTy).Contents (Elt F) → (⟨S4x16x8192x64, .f32⟩ : BufTy).Contents (Elt F) → (⟨S4x16x8192x64, .f32⟩ : BufTy).Contents (Elt F)),
    StableHlo.unary main_arg3 main_v20 (broadcastInDim S4x1x8192x1 ![0, 2] bcast_S4x8192_S4x1x8192x1_0_2 : (⟨S4x8192, .f32⟩ : BufTy).Contents (Elt F) → (⟨S4x1x8192x1, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S4x16x8192x64, .f32⟩) (broadcastInDim S4x16x8192x64 ![] bcast_S_S4x16x8192x64),
    StableHlo.TRef.binary (.of main_arg0 : StableHlo.TRef sig ⟨S4x16x8192x64, .f32⟩) (.of main_call1_v0 : StableHlo.TRef sig ⟨S4x16x8192x64, .f32⟩) (.of main_call1_v1 : StableHlo.TRef sig ⟨S4x16x8192x64, .i1⟩) (cmpf (F := F) .ogt),
    StableHlo.TRef.nullary (.of main_call1_cst_0 : StableHlo.TRef sig ⟨S_, .f32⟩) (constant S_ .f32 0x00000000#32),
    StableHlo.TRef.unary (.of main_call1_cst_0 : StableHlo.TRef sig ⟨S_, .f32⟩) (.of main_call1_v2 : StableHlo.TRef sig ⟨S4x16x8192x64, .f32⟩) (broadcastInDim S4x16x8192x64 ![] bcast_S_S4x16x8192x64),
    StableHlo.TRef.binary (.of main_arg0 : StableHlo.TRef sig ⟨S4x16x8192x64, .f32⟩) (.of main_call1_v2 : StableHlo.TRef sig ⟨S4x16x8192x64, .f32⟩) (.of main_call1_v3 : StableHlo.TRef sig ⟨S4x16x8192x64, .i1⟩) (cmpf (F := F) .ogt),
    StableHlo.TRef.nullary (.of main_call1_cst_1 : StableHlo.TRef sig ⟨S_, .f32⟩) (constant S_ .f32 0x00000000#32),
    StableHlo.TRef.unary (.of main_call1_cst_1 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S4x16x8192x64, .f32⟩) (broadcastInDim S4x16x8192x64 ![] bcast_S_S4x16x8192x64),
    StableHlo.TRef.ternary (.of main_call1_v3 : StableHlo.TRef sig ⟨S4x16x8192x64, .i1⟩) (.of main_call1_call0_v1 : StableHlo.TRef sig ⟨S4x16x8192x64, .f32⟩) (.of main_arg0 : StableHlo.TRef sig ⟨S4x16x8192x64, .f32⟩) (.of main_call1_v4 : StableHlo.TRef sig ⟨S4x16x8192x64, .f32⟩) select,
    StableHlo.TRef.unary (.of main_call1_v4 : StableHlo.TRef sig ⟨S4x16x8192x64, .f32⟩) (.of main_call1_v5 : StableHlo.TRef sig ⟨S4x16x8192x64, .f32⟩) Host.expm1,
    StableHlo.TRef.nullary (.of main_call1_cst_2 : StableHlo.TRef sig ⟨S_, .f32⟩) (constant S_ .f32 0x3F800000#32),
    StableHlo.TRef.unary (.of main_call1_cst_2 : StableHlo.TRef sig ⟨S_, .f32⟩) (.of main_call1_v6 : StableHlo.TRef sig ⟨S4x16x8192x64, .f32⟩) (broadcastInDim S4x16x8192x64 ![] bcast_S_S4x16x8192x64),
    StableHlo.TRef.binary (.of main_call1_v6 : StableHlo.TRef sig ⟨S4x16x8192x64, .f32⟩) (.of main_call1_v5 : StableHlo.TRef sig ⟨S4x16x8192x64, .f32⟩) (.of main_call1_v7 : StableHlo.TRef sig ⟨S4x16x8192x64, .f32⟩) mulf,
    StableHlo.TRef.ternary (.of main_call1_v1 : StableHlo.TRef sig ⟨S4x16x8192x64, .i1⟩) (.of main_arg0 : StableHlo.TRef sig ⟨S4x16x8192x64, .f32⟩) (.of main_call1_v7 : StableHlo.TRef sig ⟨S4x16x8192x64, .f32⟩) (.of main_v21 : StableHlo.TRef sig ⟨S4x16x8192x64, .f32⟩) select,
    StableHlo.nullary main_cst_1 (constant S_ .f32 0x3F800000#32),
    StableHlo.unary main_cst_1 main_v22 (broadcastInDim S4x16x8192x64 ![] bcast_S_S4x16x8192x64 : (⟨S_, .f32⟩ : BufTy).Contents (Elt F) → (⟨S4x16x8192x64, .f32⟩ : BufTy).Contents (Elt F)),
    StableHlo.binary main_v21 main_v22 main_v23 (addf : (⟨S4x16x8192x64, .f32⟩ : BufTy).Contents (Elt F) → (⟨S4x16x8192x64, .f32⟩ : BufTy).Contents (Elt F) → (⟨S4x16x8192x64, .f32⟩ : BufTy).Contents (Elt F)),
    StableHlo.nullary main_cst_2 (constant S_ .f32 0x3DD744FD#32),
    StableHlo.unary main_cst_2 main_v24 (broadcastInDim S4x16x8192x64 ![] bcast_S_S4x16x8192x64 : (⟨S_, .f32⟩ : BufTy).Contents (Elt F) → (⟨S4x16x8192x64, .f32⟩ : BufTy).Contents (Elt F)),
    StableHlo.binary main_v23 main_v24 main_v25 (mulf : (⟨S4x16x8192x64, .f32⟩ : BufTy).Contents (Elt F) → (⟨S4x16x8192x64, .f32⟩ : BufTy).Contents (Elt F) → (⟨S4x16x8192x64, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S4x16x8192x64, .f32⟩) (broadcastInDim S4x16x8192x64 ![] bcast_S_S4x16x8192x64),
    StableHlo.TRef.binary (.of main_v19 : StableHlo.TRef sig ⟨S4x16x8192x64, .f32⟩) (.of main_call2_v0 : StableHlo.TRef sig ⟨S4x16x8192x64, .f32⟩) (.of main_call2_v1 : StableHlo.TRef sig ⟨S4x16x8192x64, .i1⟩) (cmpf (F := F) .ogt),
    StableHlo.TRef.nullary (.of main_call2_cst_0 : StableHlo.TRef sig ⟨S_, .f32⟩) (constant S_ .f32 0x00000000#32),
    StableHlo.TRef.unary (.of main_call2_cst_0 : StableHlo.TRef sig ⟨S_, .f32⟩) (.of main_call2_v2 : StableHlo.TRef sig ⟨S4x16x8192x64, .f32⟩) (broadcastInDim S4x16x8192x64 ![] bcast_S_S4x16x8192x64),
    StableHlo.TRef.binary (.of main_v19 : StableHlo.TRef sig ⟨S4x16x8192x64, .f32⟩) (.of main_call2_v2 : StableHlo.TRef sig ⟨S4x16x8192x64, .f32⟩) (.of main_call2_v3 : StableHlo.TRef sig ⟨S4x16x8192x64, .i1⟩) (cmpf (F := F) .ogt),
    StableHlo.TRef.nullary (.of main_call2_cst_1 : StableHlo.TRef sig ⟨S_, .f32⟩) (constant S_ .f32 0x00000000#32),
    StableHlo.TRef.unary (.of main_call2_cst_1 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S4x16x8192x64, .f32⟩) (broadcastInDim S4x16x8192x64 ![] bcast_S_S4x16x8192x64),
    StableHlo.TRef.ternary (.of main_call2_v3 : StableHlo.TRef sig ⟨S4x16x8192x64, .i1⟩) (.of main_call2_call0_v1 : StableHlo.TRef sig ⟨S4x16x8192x64, .f32⟩) (.of main_v19 : StableHlo.TRef sig ⟨S4x16x8192x64, .f32⟩) (.of main_call2_v4 : StableHlo.TRef sig ⟨S4x16x8192x64, .f32⟩) select,
    StableHlo.TRef.unary (.of main_call2_v4 : StableHlo.TRef sig ⟨S4x16x8192x64, .f32⟩) (.of main_call2_v5 : StableHlo.TRef sig ⟨S4x16x8192x64, .f32⟩) Host.expm1,
    StableHlo.TRef.nullary (.of main_call2_cst_2 : StableHlo.TRef sig ⟨S_, .f32⟩) (constant S_ .f32 0x3F800000#32),
    StableHlo.TRef.unary (.of main_call2_cst_2 : StableHlo.TRef sig ⟨S_, .f32⟩) (.of main_call2_v6 : StableHlo.TRef sig ⟨S4x16x8192x64, .f32⟩) (broadcastInDim S4x16x8192x64 ![] bcast_S_S4x16x8192x64),
    StableHlo.TRef.binary (.of main_call2_v6 : StableHlo.TRef sig ⟨S4x16x8192x64, .f32⟩) (.of main_call2_v5 : StableHlo.TRef sig ⟨S4x16x8192x64, .f32⟩) (.of main_call2_v7 : StableHlo.TRef sig ⟨S4x16x8192x64, .f32⟩) mulf,
    StableHlo.TRef.ternary (.of main_call2_v1 : StableHlo.TRef sig ⟨S4x16x8192x64, .i1⟩) (.of main_v19 : StableHlo.TRef sig ⟨S4x16x8192x64, .f32⟩) (.of main_call2_v7 : StableHlo.TRef sig ⟨S4x16x8192x64, .f32⟩) (.of main_v26 : StableHlo.TRef sig ⟨S4x16x8192x64, .f32⟩) select,
    StableHlo.nullary main_cst_3 (constant S_ .f32 0x3F800000#32),
    StableHlo.unary main_cst_3 main_v27 (broadcastInDim S4x16x8192x64 ![] bcast_S_S4x16x8192x64 : (⟨S_, .f32⟩ : BufTy).Contents (Elt F) → (⟨S4x16x8192x64, .f32⟩ : BufTy).Contents (Elt F)),
    StableHlo.binary main_v26 main_v27 main_v28 (addf : (⟨S4x16x8192x64, .f32⟩ : BufTy).Contents (Elt F) → (⟨S4x16x8192x64, .f32⟩ : BufTy).Contents (Elt F) → (⟨S4x16x8192x64, .f32⟩ : BufTy).Contents (Elt F)),
    StableHlo.unary main_v20 main_v29 (broadcastInDim S4x16x8192x64 ![0, 1, 2, 3] bcast_S4x1x8192x1_S4x16x8192x64_0_1_2_3 : (⟨S4x1x8192x1, .f32⟩ : BufTy).Contents (Elt F) → (⟨S4x16x8192x64, .f32⟩ : BufTy).Contents (Elt F)),
    StableHlo.binary main_v28 main_v29 main_v30 (mulf : (⟨S4x16x8192x64, .f32⟩ : BufTy).Contents (Elt F) → (⟨S4x16x8192x64, .f32⟩ : BufTy).Contents (Elt F) → (⟨S4x16x8192x64, .f32⟩ : BufTy).Contents (Elt F)),
    StableHlo.nullary main_cst_4 (constant S_ .f32 0x3DD744FD#32),
    StableHlo.unary main_cst_4 main_v31 (broadcastInDim S4x16x8192x64 ![] bcast_S_S4x16x8192x64 : (⟨S_, .f32⟩ : BufTy).Contents (Elt F) → (⟨S4x16x8192x64, .f32⟩ : BufTy).Contents (Elt F)),
    StableHlo.binary main_v30 main_v31 main_v32 (mulf : (⟨S4x16x8192x64, .f32⟩ : BufTy).Contents (Elt F) → (⟨S4x16x8192x64, .f32⟩ : BufTy).Contents (Elt F) → (⟨S4x16x8192x64, .f32⟩ : BufTy).Contents (Elt F)),
    StableHlo.unary main_v20 main_v33 (broadcastInDim S4x16x8192x64 ![0, 1, 2, 3] bcast_S4x1x8192x1_S4x16x8192x64_0_1_2_3 : (⟨S4x1x8192x1, .f32⟩ : BufTy).Contents (Elt F) → (⟨S4x16x8192x64, .f32⟩ : BufTy).Contents (Elt F)),
    StableHlo.binary main_arg2 main_v33 main_v34 (mulf : (⟨S4x16x8192x64, .f32⟩ : BufTy).Contents (Elt F) → (⟨S4x16x8192x64, .f32⟩ : BufTy).Contents (Elt F) → (⟨S4x16x8192x64, .f32⟩ : BufTy).Contents (Elt F)),
    StableHlo.binary main_v32 main_v34 main_v35 ((fun l r => Host.dotGeneral dot_S4x16x8192x64_S4x16x8192x64_S4x16x64x64_2_2_3_3_01_01 none l r) : (⟨S4x16x8192x64, .f32⟩ : BufTy).Contents (Elt F) → (⟨S4x16x8192x64, .f32⟩ : BufTy).Contents (Elt F) → (⟨S4x16x64x64, .f32⟩ : BufTy).Contents (Elt F)),
    StableHlo.binary main_v25 main_v35 main_v36 ((fun l r => Host.dotGeneral dot_S4x16x8192x64_S4x16x64x64_S4x16x8192x64_3_2_2_3_01_01 none l r) : (⟨S4x16x8192x64, .f32⟩ : BufTy).Contents (Elt F) → (⟨S4x16x64x64, .f32⟩ : BufTy).Contents (Elt F) → (⟨S4x16x8192x64, .f32⟩ : BufTy).Contents (Elt F)) ]

/-- @main is that line: unfolding a callee at its call is the substitution of its operations, and sequencing is
    associative. -/
theorem main_eq (c : Dev nD) : main (F := F) c = seq ops := by
  chain_rfl

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Each operation touches TensorCore buffers only. -/
theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., unary_bufs_sub .., reshape_bufs_sub .., unary_bufs_sub .., unary_bufs_sub ..,
    binary_bufs_sub .., unary_bufs_sub .., reshape_bufs_sub .., unary_bufs_sub .., unary_bufs_sub .., binary_bufs_sub ..,
    unary_bufs_sub .., reshape_bufs_sub .., unary_bufs_sub .., binary_bufs_sub .., unary_bufs_sub .., reshape_bufs_sub ..,
    unary_bufs_sub .., binary_bufs_sub .., binary_bufs_sub .., unary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., nullary_bufs_sub .., unary_bufs_sub ..,
    binary_bufs_sub .., unary_bufs_sub .., binary_bufs_sub .., nullary_bufs_sub .., unary_bufs_sub .., binary_bufs_sub ..,
    unary_bufs_sub .., binary_bufs_sub .., binary_bufs_sub .., binary_bufs_sub ..⟩

/-- From any memory with zero counters, every weakly fair execution of @main terminates with each TensorCore buffer at
    the fold of the operations' results over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.Ref.Term.lean ====
import proofs.«152070_j15891378995472_1_alg».proof.ReferenceIdeal

/-!
  The reference program's result as one pure term of its six arguments: the operations of its entry function in
  their order, every call replaced by the callee's operations on the call's operands.
-/

noncomputable section

namespace Cert.ReferenceIdeal.Hand

open Cert.ReferenceIdeal Idealize.ShloMosaic

variable {F : FTy → Type} [FloatOps F] [Cert.ReferenceIdeal.Facts]
open Cert.ReferenceIdeal.Facts₀ Cert.ReferenceIdeal.Facts

/-- The value of the last operation (%36) as a function of the six arguments. -/
noncomputable def term (a0 a1 a2 : FVec F S4x16x8192x64 .f32) (a3 : FVec F S4x8192 .f32) (a4 : FVec F S2 .f32)
    (a5 : FVec F S2x16x64 .f32) : FVec F S4x16x8192x64 .f32 :=
  -- the two scalar words 0 and 1
  have cst : FVec F S_ .f32 := constant S_ .f32 0x00000000#32
  have cst_0 : FVec F S_ .f32 := constant S_ .f32 0x3F800000#32
  -- clip(a4, 0, 1) = min(1, max(0, a4))
  have c0_v0 : FVec F S_ .f32 := id cst
  have c0_v1 : FVec F S2 .f32 := broadcastInDim S2 ![] bcast_S_S2 c0_v0
  have c0_v2 : FVec F S2 .f32 := maximumf c0_v1 a4
  have c0_v3 : FVec F S_ .f32 := id cst_0
  have c0_v4 : FVec F S2 .f32 := broadcastInDim S2 ![] bcast_S_S2 c0_v3
  have v0 : FVec F S2 .f32 := minimumf c0_v4 c0_v2
  -- a1 minus row 0 of a5, spread over the batch and sequence axes
  have v1 : FVec F S1x16x64 .f32 := extractStridedSlice S1x16x64 ![0, 0, 0] a5 slices_S2x16x64_S1x16x64_0_0_0
  have v2 : FVec F S16x64 .f32 := shapeCast S16x64 v1 shapeCasts_S1x16x64_S16x64
  have v3 : FVec F S1x16x1x64 .f32 := broadcastInDim S1x16x1x64 ![1, 3] bcast_S16x64_S1x16x1x64_1_3 v2
  have v4 : FVec F S4x16x8192x64 .f32 := broadcastInDim S4x16x8192x64 ![0, 1, 2, 3] bcast_S1x16x1x64_S4x16x8192x64_0_1_2_3 v3
  have v5 : FVec F S4x16x8192x64 .f32 := subf a1 v4
  -- a1 minus row 1 of a5
  have v6 : FVec F S1x16x64 .f32 := extractStridedSlice S1x16x64 ![1, 0, 0] a5 slices_S2x16x64_S1x16x64_1_0_0
  have v7 : FVec F S16x64 .f32 := shapeCast S16x64 v6 shapeCasts_S1x16x64_S16x64
  have v8 : FVec F S1x16x1x64 .f32 := broadcastInDim S1x16x1x64 ![1, 3] bcast_S16x64_S1x16x1x64_1_3 v7
  have v9 : FVec F S4x16x8192x64 .f32 := broadcastInDim S4x16x8192x64 ![0, 1, 2, 3] bcast_S1x16x1x64_S4x16x8192x64_0_1_2_3 v8
  have v10 : FVec F S4x16x8192x64 .f32 := subf a1 v9
  -- the mixture: each difference times its clipped weight, added
  have v11 : FVec F S1 .f32 := extractStridedSlice S1 ![0] v0 slices_S2_S1_0
  have v12 : FVec F S_ .f32 := shapeCast S_ v11 shapeCasts_S1_S_
  have v13 : FVec F S4x16x8192x64 .f32 := broadcastInDim S4x16x8192x64 ![] bcast_S_S4x16x8192x64 v12
  have v14 : FVec F S4x16x8192x64 .f32 := mulf v5 v13
  have v15 : FVec F S1 .f32 := extractStridedSlice S1 ![1] v0 slices_S2_S1_1
  have v16 : FVec F S_ .f32 := shapeCast S_ v15 shapeCasts_S1_S_
  have v17 : FVec F S4x16x8192x64 .f32 := broadcastInDim S4x16x8192x64 ![] bcast_S_S4x16x8192x64 v16
  have v18 : FVec F S4x16x8192x64 .f32 := mulf v10 v17
  have v19 : FVec F S4x16x8192x64 .f32 := addf v14 v18
  -- the mask laid out [4, 1, 8192, 1]
  have v20 : FVec F S4x1x8192x1 .f32 := broadcastInDim S4x1x8192x1 ![0, 2] bcast_S4x8192_S4x1x8192x1_0_2 a3
  -- elu(a0) = select(a0 > 0, a0, 1 * expm1(select(a0 > 0, 0, a0)))
  have c1_cst : FVec F S_ .f32 := constant S_ .f32 0x00000000#32
  have c1_v0 : FVec F S4x16x8192x64 .f32 := broadcastInDim S4x16x8192x64 ![] bcast_S_S4x16x8192x64 c1_cst
  have c1_v1 : IVec S4x16x8192x64 1 := cmpf .ogt a0 c1_v0
  have c1_cst_0 : FVec F S_ .f32 := constant S_ .f32 0x00000000#32
  have c1_v2 : FVec F S4x16x8192x64 .f32 := broadcastInDim S4x16x8192x64 ![] bcast_S_S4x16x8192x64 c1_cst_0
  have c1_v3 : IVec S4x16x8192x64 1 := cmpf .ogt a0 c1_v2
  have c1_cst_1 : FVec F S_ .f32 := constant S_ .f32 0x00000000#32
  have c1_c0_v0 : FVec F S_ .f32 := id c1_cst_1
  have c1_c0_v1 : FVec F S4x16x8192x64 .f32 := broadcastInDim S4x16x8192x64 ![] bcast_S_S4x16x8192x64 c1_c0_v0
  have c1_v4 : FVec F S4x16x8192x64 .f32 := select c1_v3 c1_c0_v1 a0
  have c1_v5 : FVec F S4x16x8192x64 .f32 := Host.expm1 c1_v4
  have c1_cst_2 : FVec F S_ .f32 := constant S_ .f32 0x3F800000#32
  have c1_v6 : FVec F S4x16x8192x64 .f32 := broadcastInDim S4x16x8192x64 ![] bcast_S_S4x16x8192x64 c1_cst_2
  have c1_v7 : FVec F S4x16x8192x64 .f32 := mulf c1_v6 c1_v5
  have v21 : FVec F S4x16x8192x64 .f32 := select c1_v1 a0 c1_v7
  -- (elu(a0) + 1) times the scale word
  have cst_1 : FVec F S_ .f32 := constant S_ .f32 0x3F800000#32
  have v22 : FVec F S4x16x8192x64 .f32 := broadcastInDim S4x16x8192x64 ![] bcast_S_S4x16x8192x64 cst_1
  have v23 : FVec F S4x16x8192x64 .f32 := addf v21 v22
  have cst_2 : FVec F S_ .f32 := constant S_ .f32 0x3DD744FD#32
  have v24 : FVec F S4x16x8192x64 .f32 := broadcastInDim S4x16x8192x64 ![] bcast_S_S4x16x8192x64 cst_2
  have v25 : FVec F S4x16x8192x64 .f32 := mulf v23 v24
  -- elu of the mixture
  have c2_cst : FVec F S_ .f32 := constant S_ .f32 0x00000000#32
  have c2_v0 : FVec F S4x16x8192x64 .f32 := broadcastInDim S4x16x8192x64 ![] bcast_S_S4x16x8192x64 c2_cst
  have c2_v1 : IVec S4x16x8192x64 1 := cmpf .ogt v19 c2_v0
  have c2_cst_0 : FVec F S_ .f32 := constant S_ .f32 0x00000000#32
  have c2_v2 : FVec F S4x16x8192x64 .f32 := broadcastInDim S4x16x8192x64 ![] bcast_S_S4x16x8192x64 c2_cst_0
  have c2_v3 : IVec S4x16x8192x64 1 := cmpf .ogt v19 c2_v2
  have c2_cst_1 : FVec F S_ .f32 := constant S_ .f32 0x00000000#32
  have c2_c0_v0 : FVec F S_ .f32 := id c2_cst_1
  have c2_c0_v1 : FVec F S4x16x8192x64 .f32 := broadcastInDim S4x16x8192x64 ![] bcast_S_S4x16x8192x64 c2_c0_v0
  have c2_v4 : FVec F S4x16x8192x64 .f32 := select c2_v3 c2_c0_v1 v19
  have c2_v5 : FVec F S4x16x8192x64 .f32 := Host.expm1 c2_v4
  have c2_cst_2 : FVec F S_ .f32 := constant S_ .f32 0x3F800000#32
  have c2_v6 : FVec F S4x16x8192x64 .f32 := broadcastInDim S4x16x8192x64 ![] bcast_S_S4x16x8192x64 c2_cst_2
  have c2_v7 : FVec F S4x16x8192x64 .f32 := mulf c2_v6 c2_v5
  have v26 : FVec F S4x16x8192x64 .f32 := select c2_v1 v19 c2_v7
  -- (elu(mixture) + 1) times the mask times the scale word
  have cst_3 : FVec F S_ .f32 := constant S_ .f32 0x3F800000#32
  have v27 : FVec F S4x16x8192x64 .f32 := broadcastInDim S4x16x8192x64 ![] bcast_S_S4x16x8192x64 cst_3
  have v28 : FVec F S4x16x8192x64 .f32 := addf v26 v27
  have v29 : FVec F S4x16x8192x64 .f32 := broadcastInDim S4x16x8192x64 ![0, 1, 2, 3] bcast_S4x1x8192x1_S4x16x8192x64_0_1_2_3 v20
  have v30 : FVec F S4x16x8192x64 .f32 := mulf v28 v29
  have cst_4 : FVec F S_ .f32 := constant S_ .f32 0x3DD744FD#32
  have v31 : FVec F S4x16x8192x64 .f32 := broadcastInDim S4x16x8192x64 ![] bcast_S_S4x16x8192x64 cst_4
  have v32 : FVec F S4x16x8192x64 .f32 := mulf v30 v31
  -- the masked values
  have v33 : FVec F S4x16x8192x64 .f32 := broadcastInDim S4x16x8192x64 ![0, 1, 2, 3] bcast_S4x1x8192x1_S4x16x8192x64_0_1_2_3 v20
  have v34 : FVec F S4x16x8192x64 .f32 := mulf a2 v33
  -- the two contractions: over the sequence axis, then over the feature axis
  have v35 : FVec F S4x16x64x64 .f32 := Host.dotGeneral dot_S4x16x8192x64_S4x16x8192x64_S4x16x64x64_2_2_3_3_01_01 none v32 v34
  have v36 : FVec F S4x16x8192x64 .f32 := Host.dotGeneral dot_S4x16x8192x64_S4x16x64x64_S4x16x8192x64_3_2_2_3_01_01 none v25 v35
  v36

end Cert.ReferenceIdeal.Hand

end
-- ==== Proof.Ref.Run.lean ====
/-
  The reference program's run, read back as mathematics: from any memory with zero counters, every weakly fair
  execution of @main terminates, the result buffer holds the composed term of the six arguments' launch contents, and
  the arguments' buffers hold what they held.

  The fold of the seventy-six operations at the result buffer is that term: each operation's result at its own
  buffer is its function of its operands' contents, at every other buffer what was there; a callee's value is carried
  to and from its buffer along an equation of types that is the identity at these buffers; a reshape of a value is
  the value re-indexed.
-/
import proofs.«152070_j15891378995472_1_alg».proof.Proof.Ref.Ops
import proofs.«152070_j15891378995472_1_alg».proof.Proof.Ref.Term

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 4096 in
/-- The fold at the result buffer is the composed term of the arguments' contents. -/
theorem out_eq (V : Valuation τ sig (Elt F)) :
    after ops V (main_v36 : DevRef τ sig)
      = term (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  simp only [TRef.ofBuf, TRef.toBuf, cast_eq]
  rfl

/-- No operation writes argument 0's buffer. -/
theorem arg0_eq (V : Valuation τ sig (Elt F)) :
    after ops V (main_arg0 : DevRef τ sig) = V (main_arg0 : DevRef τ sig) := by
  after_results_simp

/-- No operation writes argument 1's buffer. -/
theorem arg1_eq (V : Valuation τ sig (Elt F)) :
    after ops V (main_arg1 : DevRef τ sig) = V (main_arg1 : DevRef τ sig) := by
  after_results_simp

/-- No operation writes argument 2's buffer. -/
theorem arg2_eq (V : Valuation τ sig (Elt F)) :
    after ops V (main_arg2 : DevRef τ sig) = V (main_arg2 : DevRef τ sig) := by
  after_results_simp

/-- No operation writes argument 3's buffer. -/
theorem arg3_eq (V : Valuation τ sig (Elt F)) :
    after ops V (main_arg3 : DevRef τ sig) = V (main_arg3 : DevRef τ sig) := by
  after_results_simp

/-- No operation writes argument 4's buffer. -/
theorem arg4_eq (V : Valuation τ sig (Elt F)) :
    after ops V (main_arg4 : DevRef τ sig) = V (main_arg4 : DevRef τ sig) := by
  after_results_simp

/-- No operation writes argument 5's buffer. -/
theorem arg5_eq (V : Valuation τ sig (Elt F)) :
    after ops V (main_arg5 : DevRef τ sig) = V (main_arg5 : DevRef τ sig) := by
  after_results_simp

/-- On every device, for any float values, from any memory with zero counters: every weakly fair execution of @main
    terminates with the result at the composed term of the arguments and the arguments unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_v36) = term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun _ h c => ⟨(h c main_v36).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_after m ρ)

end Cert.ReferenceIdeal.Hand

end
-- ==== Proof.Ref.ReadDot.lean ====
import proofs.«152070_j15891378995472_1_alg».proof.ReferenceIdeal
import Idealize.ShloMosaic.Lib.ValueIdx
import Idealize.ShloMosaic.PureOps.Ideal.Laws

/-!
  The two contractions of the reference read at an index, at the extended reals.

  The first contracts the sequence axis of two [4, 16, 8192, 64] arrays, batched over the first two axes:
      (x ·₁ y)[b, h, d, e] = Σ_s x[b, h, s, d] · y[b, h, s, e].
  The second contracts the feature axis of a [4, 16, 8192, 64] array with the third axis of a [4, 16, 64, 64] array:
      (x ·₂ y)[b, h, s, e] = Σ_d x[b, h, s, d] · y[b, h, d, e].
  Each is the sum over the one contracted coordinate, once the operand index at a result index and a contraction
  position is known axis by axis.
-/

noncomputable section

open scoped BigOperators

namespace Cert.ReferenceIdeal.Hand

open Cert.ReferenceIdeal Idealize.ShloMosaic Idealize.ShloMosaic.ValueIdx

variable [Cert.ReferenceIdeal.Facts]
open Cert.ReferenceIdeal.Facts₀ Cert.ReferenceIdeal.Facts

/-! ## The contraction over the sequence axis -/

/-- Its dimension numbers: batch axes (0, 1) on both sides, axis 2 contracted on both sides, axis 3 free on both sides. -/
abbrev DA := dot_S4x16x8192x64_S4x16x8192x64_S4x16x64x64_2_2_3_3_01_01

/-- One axis is contracted … -/
theorem rankA : DA.contr.rank = 1 := rfl
/-- … of extent 8192. -/
theorem sizeA : DA.contr.size ⟨0, by rw [rankA]; exact Nat.one_pos⟩ = 8192 := rfl

theorem lhsA_0 (j : S4x16x64x64.Idx) (k : DA.contr.Idx) : (DA.lhsIdx j k 0 : ℕ) = j 0 := by
  simp [DotDims.lhsIdx, DA, dot_S4x16x8192x64_S4x16x8192x64_S4x16x64x64_2_2_3_3_01_01]; rfl
theorem lhsA_1 (j : S4x16x64x64.Idx) (k : DA.contr.Idx) : (DA.lhsIdx j k 1 : ℕ) = j 1 := by
  simp [DotDims.lhsIdx, DA, dot_S4x16x8192x64_S4x16x8192x64_S4x16x64x64_2_2_3_3_01_01]; rfl
theorem lhsA_2 (j : S4x16x64x64.Idx) (k : DA.contr.Idx) :
    (DA.lhsIdx j k 2 : ℕ) = k ⟨0, by rw [rankA]; exact Nat.one_pos⟩ := by
  simp [DotDims.lhsIdx, DA, dot_S4x16x8192x64_S4x16x8192x64_S4x16x64x64_2_2_3_3_01_01]; rfl
theorem lhsA_3 (j : S4x16x64x64.Idx) (k : DA.contr.Idx) : (DA.lhsIdx j k 3 : ℕ) = j 2 := by
  simp [DotDims.lhsIdx, DA, dot_S4x16x8192x64_S4x16x8192x64_S4x16x64x64_2_2_3_3_01_01]; rfl

theorem rhsA_0 (j : S4x16x64x64.Idx) (k : DA.contr.Idx) : (DA.rhsIdx j k 0 : ℕ) = j 0 := by
  simp [DotDims.rhsIdx, DA, dot_S4x16x8192x64_S4x16x8192x64_S4x16x64x64_2_2_3_3_01_01]; rfl
theorem rhsA_1 (j : S4x16x64x64.Idx) (k : DA.contr.Idx) : (DA.rhsIdx j k 1 : ℕ) = j 1 := by
  simp [DotDims.rhsIdx, DA, dot_S4x16x8192x64_S4x16x8192x64_S4x16x64x64_2_2_3_3_01_01]; rfl
theorem rhsA_2 (j : S4x16x64x64.Idx) (k : DA.contr.Idx) :
    (DA.rhsIdx j k 2 : ℕ) = k ⟨0, by rw [rankA]; exact Nat.one_pos⟩ := by
  simp [DotDims.rhsIdx, DA, dot_S4x16x8192x64_S4x16x8192x64_S4x16x64x64_2_2_3_3_01_01]; rfl
theorem rhsA_3 (j : S4x16x64x64.Idx) (k : DA.contr.Idx) : (DA.rhsIdx j k 3 : ℕ) = j 3 := by
  simp [DotDims.rhsIdx, DA, dot_S4x16x8192x64_S4x16x8192x64_S4x16x64x64_2_2_3_3_01_01]; rfl

/-- The left operand's index at result (b, h, d, e) and sequence position s is (b, h, s, d). -/
theorem lhsA_eq (b : Fin 4) (h : Fin 16) (d e : Fin 64) (s : Fin 8192) :
    DA.lhsIdx (ix4 b h d e) ((contrEquiv1 DA 8192 rankA sizeA).symm s) = ix4 b h s d := by
  funext a
  apply Fin.ext
  match a with
  | ⟨0, _⟩ => exact lhsA_0 _ _
  | ⟨1, _⟩ => exact lhsA_1 _ _
  | ⟨2, _⟩ => exact (lhsA_2 _ _).trans (contrEquiv1_symm_val DA 8192 rankA sizeA s)
  | ⟨3, _⟩ => exact lhsA_3 _ _

/-- The right operand's index at result (b, h, d, e) and sequence position s is (b, h, s, e). -/
theorem rhsA_eq (b : Fin 4) (h : Fin 16) (d e : Fin 64) (s : Fin 8192) :
    DA.rhsIdx (ix4 b h d e) ((contrEquiv1 DA 8192 rankA sizeA).symm s) = ix4 b h s e := by
  funext a
  apply Fin.ext
  match a with
  | ⟨0, _⟩ => exact rhsA_0 _ _
  | ⟨1, _⟩ => exact rhsA_1 _ _
  | ⟨2, _⟩ => exact (rhsA_2 _ _).trans (contrEquiv1_symm_val DA 8192 rankA sizeA s)
  | ⟨3, _⟩ => exact rhsA_3 _ _

/-- (x ·₁ y)[b, h, d, e] = Σ_s x[b, h, s, d] · y[b, h, s, e]. -/
theorem dotA_apply (x y : FVec Ideal S4x16x8192x64 .f32) (b : Fin 4) (h : Fin 16) (d e : Fin 64) :
    Host.dotGeneral DA none x y (ix4 b h d e) = ∑ s : Fin 8192, x (ix4 b h s d) * y (ix4 b h s e) := by
  simp only [Host.dotGeneral]
  rw [Ideal.dotGeneral_apply, ← Equiv.sum_comp (contrEquiv1 DA 8192 rankA sizeA).symm]
  refine Finset.sum_congr rfl fun s _ => ?_
  rw [lhsA_eq, rhsA_eq]

/-! ## The contraction over the feature axis -/

/-- Its dimension numbers: batch axes (0, 1) on both sides, the left operand's axis 3 against the right operand's
    axis 2, the left operand's axis 2 and the right operand's axis 3 free. -/
abbrev DB := dot_S4x16x8192x64_S4x16x64x64_S4x16x8192x64_3_2_2_3_01_01

/-- One axis is contracted … -/
theorem rankB : DB.contr.rank = 1 := rfl
/-- … of extent 64. -/
theorem sizeB : DB.contr.size ⟨0, by rw [rankB]; exact Nat.one_pos⟩ = 64 := rfl

theorem lhsB_0 (j : S4x16x8192x64.Idx) (k : DB.contr.Idx) : (DB.lhsIdx j k 0 : ℕ) = j 0 := by
  simp [DotDims.lhsIdx, DB, dot_S4x16x8192x64_S4x16x64x64_S4x16x8192x64_3_2_2_3_01_01]; rfl
theorem lhsB_1 (j : S4x16x8192x64.Idx) (k : DB.contr.Idx) : (DB.lhsIdx j k 1 : ℕ) = j 1 := by
  simp [DotDims.lhsIdx, DB, dot_S4x16x8192x64_S4x16x64x64_S4x16x8192x64_3_2_2_3_01_01]; rfl
theorem lhsB_2 (j : S4x16x8192x64.Idx) (k : DB.contr.Idx) : (DB.lhsIdx j k 2 : ℕ) = j 2 := by
  simp [DotDims.lhsIdx, DB, dot_S4x16x8192x64_S4x16x64x64_S4x16x8192x64_3_2_2_3_01_01]; rfl
theorem lhsB_3 (j : S4x16x8192x64.Idx) (k : DB.contr.Idx) :
    (DB.lhsIdx j k 3 : ℕ) = k ⟨0, by rw [rankB]; exact Nat.one_pos⟩ := by
  simp [DotDims.lhsIdx, DB, dot_S4x16x8192x64_S4x16x64x64_S4x16x8192x64_3_2_2_3_01_01]; rfl

theorem rhsB_0 (j : S4x16x8192x64.Idx) (k : DB.contr.Idx) : (DB.rhsIdx j k 0 : ℕ) = j 0 := by
  simp [DotDims.rhsIdx, DB, dot_S4x16x8192x64_S4x16x64x64_S4x16x8192x64_3_2_2_3_01_01]; rfl
theorem rhsB_1 (j : S4x16x8192x64.Idx) (k : DB.contr.Idx) : (DB.rhsIdx j k 1 : ℕ) = j 1 := by
  simp [DotDims.rhsIdx, DB, dot_S4x16x8192x64_S4x16x64x64_S4x16x8192x64_3_2_2_3_01_01]; rfl
theorem rhsB_2 (j : S4x16x8192x64.Idx) (k : DB.contr.Idx) :
    (DB.rhsIdx j k 2 : ℕ) = k ⟨0, by rw [rankB]; exact Nat.one_pos⟩ := by
  simp [DotDims.rhsIdx, DB, dot_S4x16x8192x64_S4x16x64x64_S4x16x8192x64_3_2_2_3_01_01]; rfl
theorem rhsB_3 (j : S4x16x8192x64.Idx) (k : DB.contr.Idx) : (DB.rhsIdx j k 3 : ℕ) = j 3 := by
  simp [DotDims.rhsIdx, DB, dot_S4x16x8192x64_S4x16x64x64_S4x16x8192x64_3_2_2_3_01_01]; rfl

/-- The left operand's index at result (b, h, s, e) and feature position d is (b, h, s, d). -/
theorem lhsB_eq (b : Fin 4) (h : Fin 16) (s : Fin 8192) (e d : Fin 64) :
    DB.lhsIdx (ix4 b h s e) ((contrEquiv1 DB 64 rankB sizeB).symm d) = ix4 b h s d := by
  funext a
  apply Fin.ext
  match a with
  | ⟨0, _⟩ => exact lhsB_0 _ _
  | ⟨1, _⟩ => exact lhsB_1 _ _
  | ⟨2, _⟩ => exact lhsB_2 _ _
  | ⟨3, _⟩ => exact (lhsB_3 _ _).trans (contrEquiv1_symm_val DB 64 rankB sizeB d)

/-- The right operand's index at result (b, h, s, e) and feature position d is (b, h, d, e). -/
theorem rhsB_eq (b : Fin 4) (h : Fin 16) (s : Fin 8192) (e d : Fin 64) :
    DB.rhsIdx (ix4 b h s e) ((contrEquiv1 DB 64 rankB sizeB).symm d) = ix4 b h d e := by
  funext a
  apply Fin.ext
  match a with
  | ⟨0, _⟩ => exact rhsB_0 _ _
  | ⟨1, _⟩ => exact rhsB_1 _ _
  | ⟨2, _⟩ => exact (rhsB_2 _ _).trans (contrEquiv1_symm_val DB 64 rankB sizeB d)
  | ⟨3, _⟩ => exact rhsB_3 _ _

/-- (x ·₂ y)[b, h, s, e] = Σ_d x[b, h, s, d] · y[b, h, d, e]. -/
theorem dotB_apply (x : FVec Ideal S4x16x8192x64 .f32) (y : FVec Ideal S4x16x64x64 .f32) (b : Fin 4) (h : Fin 16)
    (s : Fin 8192) (e : Fin 64) :
    Host.dotGeneral DB none x y (ix4 b h s e) = ∑ d : Fin 64, x (ix4 b h s d) * y (ix4 b h d e) := by
  simp only [Host.dotGeneral]
  rw [Ideal.dotGeneral_apply, ← Equiv.sum_comp (contrEquiv1 DB 64 rankB sizeB).symm]
  refine Finset.sum_congr rfl fun d _ => ?_
  rw [lhsB_eq, rhsB_eq]

end Cert.ReferenceIdeal.Hand

end
-- ==== Proof.Ref.ReadPoint.lean ====
import proofs.«152070_j15891378995472_1_alg».proof.ReferenceIdeal
import proofs.«152070_j15891378995472_1_alg».proof.Proof.Spec
import Idealize.ShloMosaic.Lib.ValueIdx
import Idealize.ShloMosaic.Lib.ValueLayout
import Idealize.ShloMosaic.Lib.Pipeline.Value

/-!
  The entrywise and layout stages of the reference, each as a function of variable arrays and each read at an index:
  the clipped weights, one weight and one mean row spread over [4, 16, 8192, 64], the mask spread over the head and
  feature axes, the shifted keys, and the feature map φ(x) = elu(x) + 1.
-/

noncomputable section

namespace Cert.ReferenceIdeal.Hand

open Cert.ReferenceIdeal Idealize.ShloMosaic Idealize.ShloMosaic.ValueIdx

variable [Cert.ReferenceIdeal.Facts]
open Cert.ReferenceIdeal.Facts₀ Cert.ReferenceIdeal.Facts

/-! ## Scalars -/

/-- A scalar spread over [4, 16, 8192, 64]. -/
abbrev spread (x : FVec Ideal S_ .f32) : FVec Ideal S4x16x8192x64 .f32 :=
  broadcastInDim S4x16x8192x64 ![] bcast_S_S4x16x8192x64 x

/-- A spread scalar reads the scalar everywhere. -/
theorem spread_apply (x : FVec Ideal S_ .f32) (i : S4x16x8192x64.Idx) : spread x i = x ix0 :=
  broadcastInDim_apply _ _ x i ix0 (fun a => a.elim0)

/-- A spread float word reads the word everywhere. -/
theorem spread_constant_apply (w : BitVec 32) (i : S4x16x8192x64.Idx) :
    spread (constant (F := Ideal) S_ .f32 w) i = Ideal.ofBits .f32 w :=
  spread_apply _ i

/-! ## The clipped weights -/

/-- p = min(1, max(0, π)), entrywise over [2]. -/
def wts (a4 : FVec Ideal S2 .f32) : FVec Ideal S2 .f32 :=
  minimumf (broadcastInDim S2 ![] bcast_S_S2 (id (constant S_ .f32 0x3F800000#32)))
    (maximumf (broadcastInDim S2 ![] bcast_S_S2 (id (constant S_ .f32 0x00000000#32))) a4)

theorem wts_apply (a4 : FVec Ideal S2 .f32) (j : Fin 2) : wts a4 (ix1 j) = Cert.Spec.clip a4 j := rfl

/-- Entry 0 of a [2] array, spread over [4, 16, 8192, 64]. -/
def wt0 (p : FVec Ideal S2 .f32) : FVec Ideal S4x16x8192x64 .f32 :=
  spread (shapeCast S_ (extractStridedSlice S1 ![0] p slices_S2_S1_0) shapeCasts_S1_S_)

/-- Entry 1 of a [2] array, spread over [4, 16, 8192, 64]. -/
def wt1 (p : FVec Ideal S2 .f32) : FVec Ideal S4x16x8192x64 .f32 :=
  spread (shapeCast S_ (extractStridedSlice S1 ![1] p slices_S2_S1_1) shapeCasts_S1_S_)

/-- The one position of [1] is the one position of []. -/
theorem pos_S1_S_ : (S1.rowMajor (ix1 (0 : Fin 1))).val = (S_.rowMajor ix0).val := by
  have h1 : (S1.rowMajor (ix1 (0 : Fin 1))).val = 0 := Shape.rowMajor_val_one _
  have h0 : (S_.rowMajor ix0).val = 0 := Shape.rowMajorPi_zero _ _
  exact h1.trans h0.symm

theorem wt0_apply (p : FVec Ideal S2 .f32) (i : S4x16x8192x64.Idx) : wt0 p i = p (ix1 0) := by
  refine (spread_apply _ i).trans ?_
  refine (shapeCast_apply _ _ ix0 (ix1 (0 : Fin 1)) pos_S1_S_).trans ?_
  exact extractStridedSlice_apply _ _ _ (ix1 (0 : Fin 1)) (ix1 (0 : Fin 2)) (fun a => match a with | ⟨0, _⟩ => rfl)

theorem wt1_apply (p : FVec Ideal S2 .f32) (i : S4x16x8192x64.Idx) : wt1 p i = p (ix1 1) := by
  refine (spread_apply _ i).trans ?_
  refine (shapeCast_apply _ _ ix0 (ix1 (0 : Fin 1)) pos_S1_S_).trans ?_
  exact extractStridedSlice_apply _ _ _ (ix1 (0 : Fin 1)) (ix1 (1 : Fin 2)) (fun a => match a with | ⟨0, _⟩ => rfl)

/-! ## The mean rows -/

/-- A [16, 64] array spread over the batch and sequence axes. -/
abbrev spreadRow (x : FVec Ideal S16x64 .f32) : FVec Ideal S4x16x8192x64 .f32 :=
  broadcastInDim S4x16x8192x64 ![0, 1, 2, 3] bcast_S1x16x1x64_S4x16x8192x64_0_1_2_3
    (broadcastInDim S1x16x1x64 ![1, 3] bcast_S16x64_S1x16x1x64_1_3 x)

theorem spreadRow_apply (x : FVec Ideal S16x64 .f32) (b : Fin 4) (h : Fin 16) (l : Fin 8192) (d : Fin 64) :
    spreadRow x (ix4 b h l d) = x (ix2 h d) := by
  refine (broadcastInDim_apply _ _ _ (ix4 b h l d) (ix4 (0 : Fin 1) h (0 : Fin 1) d)
    (fun a => match a with | ⟨0, _⟩ => rfl | ⟨1, _⟩ => rfl | ⟨2, _⟩ => rfl | ⟨3, _⟩ => rfl)).trans ?_
  exact broadcastInDim_apply _ _ _ (ix4 (0 : Fin 1) h (0 : Fin 1) d) (ix2 h d)
    (fun a => match a with | ⟨0, _⟩ => rfl | ⟨1, _⟩ => rfl)

/-- Row 0 of μ, spread over [4, 16, 8192, 64]. -/
def row0 (a5 : FVec Ideal S2x16x64 .f32) : FVec Ideal S4x16x8192x64 .f32 :=
  spreadRow (shapeCast S16x64 (extractStridedSlice S1x16x64 ![0, 0, 0] a5 slices_S2x16x64_S1x16x64_0_0_0) shapeCasts_S1x16x64_S16x64)

/-- Row 1 of μ, spread over [4, 16, 8192, 64]. -/
def row1 (a5 : FVec Ideal S2x16x64 .f32) : FVec Ideal S4x16x8192x64 .f32 :=
  spreadRow (shapeCast S16x64 (extractStridedSlice S1x16x64 ![1, 0, 0] a5 slices_S2x16x64_S1x16x64_1_0_0) shapeCasts_S1x16x64_S16x64)

theorem row0_apply (a5 : FVec Ideal S2x16x64 .f32) (b : Fin 4) (h : Fin 16) (l : Fin 8192) (d : Fin 64) :
    row0 a5 (ix4 b h l d) = a5 (ix3 0 h d) := by
  refine (spreadRow_apply _ b h l d).trans ?_
  refine (shapeCast_1ab_ab_apply _ _ h d).trans ?_
  exact extractStridedSlice_apply _ _ _ (ix3 (0 : Fin 1) h d) (ix3 (0 : Fin 2) h d)
    (fun a => match a with | ⟨0, _⟩ => rfl | ⟨1, _⟩ => (Nat.zero_add _).symm | ⟨2, _⟩ => (Nat.zero_add _).symm)

theorem row1_apply (a5 : FVec Ideal S2x16x64 .f32) (b : Fin 4) (h : Fin 16) (l : Fin 8192) (d : Fin 64) :
    row1 a5 (ix4 b h l d) = a5 (ix3 1 h d) := by
  refine (spreadRow_apply _ b h l d).trans ?_
  refine (shapeCast_1ab_ab_apply _ _ h d).trans ?_
  exact extractStridedSlice_apply _ _ _ (ix3 (0 : Fin 1) h d) (ix3 (1 : Fin 2) h d)
    (fun a => match a with | ⟨0, _⟩ => rfl | ⟨1, _⟩ => (Nat.zero_add _).symm | ⟨2, _⟩ => (Nat.zero_add _).symm)

/-! ## The mask -/

/-- The mask [4, 8192] laid out [4, 1, 8192, 1]. -/
abbrev mask4 (a3 : FVec Ideal S4x8192 .f32) : FVec Ideal S4x1x8192x1 .f32 :=
  broadcastInDim S4x1x8192x1 ![0, 2] bcast_S4x8192_S4x1x8192x1_0_2 a3

/-- The mask spread over the head and feature axes. -/
def maskV (a3 : FVec Ideal S4x8192 .f32) : FVec Ideal S4x16x8192x64 .f32 :=
  broadcastInDim S4x16x8192x64 ![0, 1, 2, 3] bcast_S4x1x8192x1_S4x16x8192x64_0_1_2_3 (mask4 a3)

theorem maskV_apply (a3 : FVec Ideal S4x8192 .f32) (b : Fin 4) (h : Fin 16) (l : Fin 8192) (d : Fin 64) :
    maskV a3 (ix4 b h l d) = a3 (ix2 b l) := by
  refine (broadcastInDim_apply _ _ _ (ix4 b h l d) (ix4 b (0 : Fin 1) l (0 : Fin 1))
    (fun a => match a with | ⟨0, _⟩ => rfl | ⟨1, _⟩ => rfl | ⟨2, _⟩ => rfl | ⟨3, _⟩ => rfl)).trans ?_
  exact broadcastInDim_apply _ _ _ (ix4 b (0 : Fin 1) l (0 : Fin 1)) (ix2 b l)
    (fun a => match a with | ⟨0, _⟩ => rfl | ⟨1, _⟩ => rfl)

/-! ## The shifted keys -/

/-- Km = (K − μ₀)·p₀ + (K − μ₁)·p₁. -/
def kmV (a1 : FVec Ideal S4x16x8192x64 .f32) (a4 : FVec Ideal S2 .f32) (a5 : FVec Ideal S2x16x64 .f32) :
    FVec Ideal S4x16x8192x64 .f32 :=
  addf (mulf (subf a1 (row0 a5)) (wt0 (wts a4))) (mulf (subf a1 (row1 a5)) (wt1 (wts a4)))

theorem kmV_apply (a1 : FVec Ideal S4x16x8192x64 .f32) (a4 : FVec Ideal S2 .f32) (a5 : FVec Ideal S2x16x64 .f32)
    (b : Fin 4) (h : Fin 16) (l : Fin 8192) (d : Fin 64) :
    kmV a1 a4 a5 (ix4 b h l d) = Cert.Spec.kmR a1 a4 a5 b h l d := by
  show (a1 (ix4 b h l d) - row0 a5 (ix4 b h l d)) * wt0 (wts a4) (ix4 b h l d)
      + (a1 (ix4 b h l d) - row1 a5 (ix4 b h l d)) * wt1 (wts a4) (ix4 b h l d) = _
  rw [row0_apply, row1_apply, wt0_apply, wt1_apply, wts_apply, wts_apply]
  rfl

/-! ## The feature map -/

/-- φ(x) = select(x > 0, x, 1·(e^{select(x > 0, 0, x)} − 1)) + 1, entrywise. -/
def phiV (x : FVec Ideal S4x16x8192x64 .f32) : FVec Ideal S4x16x8192x64 .f32 :=
  addf
    (select (cmpf .ogt x (spread (constant S_ .f32 0x00000000#32))) x
      (mulf (spread (constant S_ .f32 0x3F800000#32))
        (Host.expm1 (select (cmpf .ogt x (spread (constant S_ .f32 0x00000000#32)))
          (spread (id (constant S_ .f32 0x00000000#32))) x))))
    (spread (constant S_ .f32 0x3F800000#32))

theorem phiV_apply (x : FVec Ideal S4x16x8192x64 .f32) (i : S4x16x8192x64.Idx) : phiV x i = Cert.Spec.phiR (x i) := rfl

/-- The scale word spread over [4, 16, 8192, 64]. -/
abbrev scV : FVec Ideal S4x16x8192x64 .f32 := spread (constant S_ .f32 0x3DD744FD#32)

theorem scV_apply (i : S4x16x8192x64.Idx) : scV i = Cert.Spec.sc := rfl

/-! ## The three operands of the contractions -/

/-- φ(Q)·s. -/
def qfV (a0 : FVec Ideal S4x16x8192x64 .f32) : FVec Ideal S4x16x8192x64 .f32 := mulf (phiV a0) scV

theorem qfV_apply (a0 : FVec Ideal S4x16x8192x64 .f32) (i : S4x16x8192x64.Idx) :
    qfV a0 i = Cert.Spec.phiR (a0 i) * Cert.Spec.sc := rfl

/-- φ(Km)·m·s. -/
def kfV (a1 : FVec Ideal S4x16x8192x64 .f32) (a3 : FVec Ideal S4x8192 .f32) (a4 : FVec Ideal S2 .f32)
    (a5 : FVec Ideal S2x16x64 .f32) : FVec Ideal S4x16x8192x64 .f32 :=
  mulf (mulf (phiV (kmV a1 a4 a5)) (maskV a3)) scV

theorem kfV_apply (a1 : FVec Ideal S4x16x8192x64 .f32) (a3 : FVec Ideal S4x8192 .f32) (a4 : FVec Ideal S2 .f32)
    (a5 : FVec Ideal S2x16x64 .f32) (b : Fin 4) (h : Fin 16) (l : Fin 8192) (d : Fin 64) :
    kfV a1 a3 a4 a5 (ix4 b h l d) = Cert.Spec.kfR a1 a3 a4 a5 b h l d := by
  show Cert.Spec.phiR (kmV a1 a4 a5 (ix4 b h l d)) * maskV a3 (ix4 b h l d) * Cert.Spec.sc = _
  rw [kmV_apply, maskV_apply]
  rfl

/-- V·m. -/
def vmV (a2 : FVec Ideal S4x16x8192x64 .f32) (a3 : FVec Ideal S4x8192 .f32) : FVec Ideal S4x16x8192x64 .f32 :=
  mulf a2 (maskV a3)

theorem vmV_apply (a2 : FVec Ideal S4x16x8192x64 .f32) (a3 : FVec Ideal S4x8192 .f32)
    (b : Fin 4) (h : Fin 16) (l : Fin 8192) (e : Fin 64) :
    vmV a2 a3 (ix4 b h l e) = Cert.Spec.vmR a2 a3 b h l e := by
  show a2 (ix4 b h l e) * maskV a3 (ix4 b h l e) = _
  rw [maskV_apply]
  rfl

end Cert.ReferenceIdeal.Hand

end
-- ==== Proof.Ref.Read.lean ====
import proofs.«152070_j15891378995472_1_alg».proof.Proof.Ref.Term
import proofs.«152070_j15891378995472_1_alg».proof.Proof.Ref.ReadDot
import proofs.«152070_j15891378995472_1_alg».proof.Proof.Ref.ReadPoint

/-!
  The reference's result term is the specification's reference arrangement, index by index:
      term[b, h, l, e] = Σ_d (φ(Q[b,h,l,d])·s) · Σ_l' (φ(Km[b,h,l',d])·m[b,l']·s) · (V[b,h,l',e]·m[b,l']).
  The term is the second contraction of φ(Q)·s with the first contraction of φ(Km)·m·s and V·m; each contraction is a
  sum over its one contracted coordinate, and each operand is read entry by entry.
-/

noncomputable section

open scoped BigOperators

namespace Cert.ReferenceIdeal.Hand

open Cert.ReferenceIdeal Idealize.ShloMosaic Idealize.ShloMosaic.ValueIdx

variable [Cert.ReferenceIdeal.Facts]
open Cert.ReferenceIdeal.Facts₀ Cert.ReferenceIdeal.Facts

/-- The term is the two contractions over the three entrywise operands. -/
theorem term_stages (a0 a1 a2 : FVec Ideal S4x16x8192x64 .f32) (a3 : FVec Ideal S4x8192 .f32) (a4 : FVec Ideal S2 .f32)
    (a5 : FVec Ideal S2x16x64 .f32) :
    term (F := Ideal) a0 a1 a2 a3 a4 a5
      = Host.dotGeneral DB none (qfV a0) (Host.dotGeneral DA none (kfV a1 a3 a4 a5) (vmV a2 a3)) := rfl

/-- The first contraction at (b, h, d, e) is the specification's state entry. -/
theorem kv_apply (a1 a2 : FVec Ideal S4x16x8192x64 .f32) (a3 : FVec Ideal S4x8192 .f32) (a4 : FVec Ideal S2 .f32)
    (a5 : FVec Ideal S2x16x64 .f32) (b : Fin 4) (h : Fin 16) (d e : Fin 64) :
    Host.dotGeneral DA none (kfV a1 a3 a4 a5) (vmV a2 a3) (ix4 b h d e) = Cert.Spec.kvR a1 a2 a3 a4 a5 b h d e := by
  refine (dotA_apply _ _ b h d e).trans ?_
  exact Finset.sum_congr rfl fun l _ => congrArg₂ (· * ·) (kfV_apply a1 a3 a4 a5 b h l d) (vmV_apply a2 a3 b h l e)

/-- The second contraction at (b, h, l, e) is the specification's result entry. -/
theorem out_apply (a0 a1 a2 : FVec Ideal S4x16x8192x64 .f32) (a3 : FVec Ideal S4x8192 .f32) (a4 : FVec Ideal S2 .f32)
    (a5 : FVec Ideal S2x16x64 .f32) (b : Fin 4) (h : Fin 16) (l : Fin 8192) (e : Fin 64) :
    Host.dotGeneral DB none (qfV a0) (Host.dotGeneral DA none (kfV a1 a3 a4 a5) (vmV a2 a3)) (ix4 b h l e)
      = Cert.Spec.outR4 a0 a1 a2 a3 a4 a5 b h l e := by
  refine (dotB_apply _ _ b h l e).trans ?_
  exact Finset.sum_congr rfl fun d _ =>
    congrArg₂ (· * ·) (qfV_apply a0 (ix4 b h l d)) (kv_apply a1 a2 a3 a4 a5 b h d e)

/-- The reference's result term is the specification's reference arrangement. -/
theorem term_eq (a0 a1 a2 : FVec Ideal S4x16x8192x64 .f32) (a3 : FVec Ideal S4x8192 .f32) (a4 : FVec Ideal S2 .f32)
    (a5 : FVec Ideal S2x16x64 .f32) :
    term (F := Ideal) a0 a1 a2 a3 a4 a5 = Cert.Spec.outR a0 a1 a2 a3 a4 a5 := by
  funext i
  obtain ⟨b, h, l, e, rfl⟩ : ∃ (b : Fin 4) (h : Fin 16) (l : Fin 8192) (e : Fin 64), i = ix4 b h l e :=
    ⟨i 0, i 1, i 2, i 3, eq_ix4 i⟩
  rw [term_stages]
  exact out_apply a0 a1 a2 a3 a4 a5 b h l e

end Cert.ReferenceIdeal.Hand

end
-- ==== Proof.Bridge.lean ====
/-
  The two arrangements of the certificate's mathematics are one function on finite inputs.

  Three facts carry it. The two spellings of the feature map agree at every real number: above zero both are
  x + 1, elsewhere 1·(eˣ − 1) + 1 = eˣ. The clipped mixture weights of a finite pi are real, and over the reals
  (p₀ + p₁)·k − (μ₀·p₀ + μ₁·p₁) = (k − μ₀)·p₀ + (k − μ₁)·p₁. A sum over 8192 rows is the sum of its four
  consecutive blocks of 2048 rows, in an additive commutative monoid.
-/
import proofs.«152070_j15891378995472_1_alg».proof.Proof.Spec
import Idealize.ShloMosaic.PureOps.Ideal.Laws
import Mathlib.Algebra.BigOperators.Fin
import Mathlib.Logic.Equiv.Fin.Basic
import Mathlib.Data.EReal.Operations

noncomputable section

open scoped BigOperators

namespace Cert.Spec

open Idealize.ShloMosaic Idealize.ShloMosaic.ValueIdx

/-! ## The float words 0.0 and 1.0 -/

theorem z_eq : z = 0 := by
  unfold z; exact Ideal.ofBits_zero_f32

theorem one_eq : one = 1 := by
  unfold one; simp [Ideal.ofBits, Ideal.ieee, -EReal.coe_mul]; norm_num

/-! ## The feature map at a real number -/

/-- Above zero both spellings are x + 1. -/
theorem phiK_pos (x : ℝ) (h : 0 < x) : phiK (x : EReal) = ((x + 1 : ℝ) : EReal) := by
  have hc : Ideal.cmp .ogt (x : EReal) 0 = 1#1 := by
    simp [Ideal.cmp, h]
  unfold phiK
  rw [z_eq, one_eq, hc, select_one, EReal.coe_add, EReal.coe_one]

theorem phiR_pos (x : ℝ) (h : 0 < x) : phiR (x : EReal) = ((x + 1 : ℝ) : EReal) := by
  have hc : Ideal.cmp .ogt (x : EReal) 0 = 1#1 := by
    simp [Ideal.cmp, h]
  unfold phiR
  rw [z_eq, one_eq, hc, select_one, EReal.coe_add, EReal.coe_one]

/-- At or below zero both spellings are eˣ: 1·(eˣ − 1) + 1 = eˣ over the reals. -/
theorem phiK_nonpos (x : ℝ) (h : ¬ 0 < x) : phiK (x : EReal) = ((Real.exp x : ℝ) : EReal) := by
  have hc : Ideal.cmp .ogt (x : EReal) 0 = 0#1 := by
    simp [Ideal.cmp, h]
  unfold phiK
  rw [z_eq, hc, select_zero, Ideal.exp_coe]

theorem phiR_nonpos (x : ℝ) (h : ¬ 0 < x) : phiR (x : EReal) = ((Real.exp x : ℝ) : EReal) := by
  have hc : Ideal.cmp .ogt (x : EReal) 0 = 0#1 := by
    simp [Ideal.cmp, h]
  unfold phiR
  rw [z_eq, one_eq, hc, select_zero, select_zero, Ideal.exp_coe, one_mul, ← EReal.coe_one, ← EReal.coe_sub,
    ← EReal.coe_add]
  congr 1; ring

theorem phiK_eq_phiR (x : ℝ) : phiK (x : EReal) = phiR (x : EReal) := by
  by_cases h : 0 < x
  · rw [phiK_pos x h, phiR_pos x h]
  · rw [phiK_nonpos x h, phiR_nonpos x h]

/-- At a finite entry the two spellings agree. -/
theorem phiK_eq_phiR_of_real {x : EReal} (h : ∃ r : ℝ, x = (r : EReal)) : phiK x = phiR x := by
  obtain ⟨r, rfl⟩ := h
  exact phiK_eq_phiR r

/-! ## The mixture weights and the shifted key -/

/-- A clipped weight of a finite pi is a real number. -/
theorem clip_real (pi : SPi.Idx → EReal) (hp : Finite pi) (j : Fin 2) : ∃ p : ℝ, clip pi j = (p : EReal) := by
  obtain ⟨r, hr⟩ := hp (ix1 j)
  refine ⟨min 1 (max 0 r), ?_⟩
  unfold clip
  rw [z_eq, one_eq, hr, ← EReal.coe_zero, ← EReal.coe_one, ← EReal.coe_strictMono.monotone.map_max,
    ← EReal.coe_strictMono.monotone.map_min]

/-- Over the reals the folded shift is the mixture of the two shifts:
    (p₀ + p₁)·k − (μ₀·p₀ + μ₁·p₁) = (k − μ₀)·p₀ + (k − μ₁)·p₁. -/
theorem shift_real (k m0 m1 p0 p1 : ℝ) :
    ((p0 : EReal) + p1) * k - ((m0 : EReal) * p0 + (m1 : EReal) * p1)
      = ((k : EReal) - m0) * p0 + ((k : EReal) - m1) * p1 := by
  rw [← EReal.coe_add, ← EReal.coe_mul, ← EReal.coe_mul, ← EReal.coe_mul, ← EReal.coe_add, ← EReal.coe_sub,
    ← EReal.coe_sub, ← EReal.coe_sub, ← EReal.coe_mul, ← EReal.coe_mul, ← EReal.coe_add]
  congr 1; ring

/-- The kernel's shifted key is the reference's, and it is a real number. -/
theorem shift_eq (k : SQ.Idx → EReal) (pi : SPi.Idx → EReal) (mu : SMu.Idx → EReal)
    (hk : Finite k) (hp : Finite pi) (hmu : Finite mu) (b : Fin 4) (h : Fin 16) (l : Fin 8192) (d : Fin 64) :
    coef pi * k (ix4 b h l d) - adj pi mu h d = kmR k pi mu b h l d ∧ ∃ r : ℝ, kmR k pi mu b h l d = (r : EReal) := by
  obtain ⟨kr, hkr⟩ := hk (ix4 b h l d)
  obtain ⟨m0, hm0⟩ := hmu (ix3 0 h d)
  obtain ⟨m1, hm1⟩ := hmu (ix3 1 h d)
  obtain ⟨p0, hp0⟩ := clip_real pi hp 0
  obtain ⟨p1, hp1⟩ := clip_real pi hp 1
  unfold coef adj kmR
  rw [hkr, hm0, hm1, hp0, hp1]
  refine ⟨shift_real kr m0 m1 p0 p1, (kr - m0) * p0 + (kr - m1) * p1, ?_⟩
  rw [EReal.coe_add, EReal.coe_mul, EReal.coe_mul, EReal.coe_sub, EReal.coe_sub]

/-- The key features agree. -/
theorem kfA_eq_kfR (k : SQ.Idx → EReal) (mask : SMask.Idx → EReal) (pi : SPi.Idx → EReal) (mu : SMu.Idx → EReal)
    (hk : Finite k) (hp : Finite pi) (hmu : Finite mu) (b : Fin 4) (h : Fin 16) (l : Fin 8192) (d : Fin 64) :
    kfA k (maskArr mask) (coefArr pi) (adjArr pi mu) b h l d = kfR k mask pi mu b h l d := by
  obtain ⟨e, hr⟩ := shift_eq k pi mu hk hp hmu b h l d
  show phiK (coef pi * k (ix4 b h l d) - adj pi mu h d) * mask (ix2 b l) * sc = phiR (kmR k pi mu b h l d) * mask (ix2 b l) * sc
  rw [e, phiK_eq_phiR_of_real hr]

/-- The masked values agree. -/
theorem vmA_eq_vmR (v : SQ.Idx → EReal) (mask : SMask.Idx → EReal) (b : Fin 4) (h : Fin 16) (l : Fin 8192) (e : Fin 64) :
    vmA v (maskArr mask) b h l e = vmR v mask b h l e := rfl

/-! ## A sum over 8192 rows in four tiles of 2048 -/

theorem sum_tiles {M : Type*} [AddCommMonoid M] (f : Fin 8192 → M) :
    ∑ l : Fin 8192, f l
      = (∑ r : Fin 2048, f (lIdx 0 r)) + (∑ r : Fin 2048, f (lIdx 1 r)) + (∑ r : Fin 2048, f (lIdx 2 r))
        + ∑ r : Fin 2048, f (lIdx 3 r) := by
  have hl : ∀ (j : Fin 4) (r : Fin 2048), (finProdFinEquiv (j, r) : Fin (4 * 2048)) = lIdx j r := by
    intro j r
    apply Fin.ext
    show r.val + 2048 * j.val = 2048 * j.val + r.val
    omega
  have h1 : ∑ l : Fin 8192, f l = ∑ x : Fin 4 × Fin 2048, f (finProdFinEquiv x) :=
    (Equiv.sum_comp (finProdFinEquiv : Fin 4 × Fin 2048 ≃ Fin (4 * 2048)) f).symm
  rw [h1, Fintype.sum_prod_type, Fin.sum_univ_four]
  simp only [hl]

/-- The state array entry: four tiles added in order are the one sum over all rows. -/
theorem kv4_eq_kvR (k v : SQ.Idx → EReal) (mask : SMask.Idx → EReal) (pi : SPi.Idx → EReal) (mu : SMu.Idx → EReal)
    (hk : Finite k) (hp : Finite pi) (hmu : Finite mu) (b : Fin 4) (h : Fin 16) (d e : Fin 64) :
    kv4 k v (maskArr mask) (coefArr pi) (adjArr pi mu) b h d e = kvR k v mask pi mu b h d e := by
  unfold kv4 tileA kvR
  rw [sum_tiles (fun l => kfR k mask pi mu b h l d * vmR v mask b h l e)]
  simp only [kfA_eq_kfR k mask pi mu hk hp hmu, vmA_eq_vmR]

/-! ## The two results -/

/-- One entry of the result, at coordinates. -/
theorem out4_eq_outR4 (q k v : SQ.Idx → EReal) (mask : SMask.Idx → EReal) (pi : SPi.Idx → EReal) (mu : SMu.Idx → EReal)
    (hq : Finite q) (hk : Finite k) (hp : Finite pi) (hmu : Finite mu) (b : Fin 4) (h : Fin 16) (l : Fin 8192) (e : Fin 64) :
    out4 q (kvArr k v (maskArr mask) (coefArr pi) (adjArr pi mu)) b h l e = outR4 q k v mask pi mu b h l e := by
  show ∑ d : Fin 64, phiK (q (ix4 b h l d)) * sc * kv4 k v (maskArr mask) (coefArr pi) (adjArr pi mu) b h d e
      = ∑ d : Fin 64, phiR (q (ix4 b h l d)) * sc * kvR k v mask pi mu b h d e
  refine Finset.sum_congr rfl fun d _ => ?_
  rw [phiK_eq_phiR_of_real (hq _), kv4_eq_kvR k v mask pi mu hk hp hmu]

theorem outK_eq_outR (q k v : SQ.Idx → EReal) (mask : SMask.Idx → EReal) (pi : SPi.Idx → EReal) (mu : SMu.Idx → EReal)
    (hq : Finite q) (hk : Finite k) (hv : Finite v) (hm : Finite mask) (hp : Finite pi) (hmu : Finite mu) :
    outK q k v mask pi mu = outR q k v mask pi mu := by
  funext i
  exact out4_eq_outR4 q k v mask pi mu hq hk hp hmu (i 0) (i 1) (i 2) (i 3)

end Cert.Spec

end
-- ==== Proof.PreFinite.lean ====
/-
  The precondition read back: where all six |x| < +∞ tests hold of every entry, every entry of the six argument
  arrays is a real number.
-/
import proofs.«152070_j15891378995472_1_alg».proof.Defs
import proofs.«152070_j15891378995472_1_alg».proof.Proof.Spec
import Idealize.ShloMosaic.Lib.ReduceAll
import Idealize.ShloMosaic.Lib.ValueIdx

noncomputable section

namespace Cert.PreFinite

open Idealize.ShloMosaic Idealize.SL.Sem

/-- The scalar shape has one index. -/
instance : Subsingleton Cert.Pre_finite_inputs.S_.Idx := ⟨fun a b => funext fun d => d.elim0⟩

/-- The word 0x7F800000 is +∞. -/
theorem ofBits_inf : Ideal.ofBits .f32 0x7F800000#32 = ⊤ := by
  simp [Ideal.ofBits, Ideal.ieee]

/-- An extended real whose absolute value max x (−x) is below +∞ is a real number. -/
theorem real_of_abs_lt_top (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- One all-entries test read back: where the conjunction over every entry of |x| < +∞ is 1, every entry is real. -/
theorem finite_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x) (broadcastInDim s ![] hb (constant Cert.Pre_finite_inputs.S_ .f32 0x7F800000#32)))
          init hr hu ValueIdx.ix0 = 1#1) :
    Cert.Spec.Finite (S := s) x := by
  intro i
  have hi := Host.reduce_andi_all _ init hr hu ValueIdx.ix0 e i
  exact real_of_abs_lt_top (x i) hi

/-- The precondition is the conjunction of the six tests, one per argument array. -/
theorem finite_of_fn [Cert.Pre_finite_inputs.Facts]
    (a0 a1 a2 : FVec Ideal Cert.Pre_finite_inputs.S4x16x8192x64 .f32) (a3 : FVec Ideal Cert.Pre_finite_inputs.S4x8192 .f32)
    (a4 : FVec Ideal Cert.Pre_finite_inputs.S2 .f32) (a5 : FVec Ideal Cert.Pre_finite_inputs.S2x16x64 .f32)
    (h : Cert.Pre_finite_inputs.fn (F := Ideal) a0 a1 a2 a3 a4 a5 = fun _ => 1#1) :
    Cert.Spec.Finite (S := Cert.Spec.SQ) a0 ∧ Cert.Spec.Finite (S := Cert.Spec.SQ) a1 ∧ Cert.Spec.Finite (S := Cert.Spec.SQ) a2
      ∧ Cert.Spec.Finite (S := Cert.Spec.SMask) a3 ∧ Cert.Spec.Finite (S := Cert.Spec.SPi) a4
      ∧ Cert.Spec.Finite (S := Cert.Spec.SMu) a5 := by
  have e := congrFun h ValueIdx.ix0
  dsimp only [Cert.Pre_finite_inputs.fn, Cert.Pre_finite_inputs.fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨finite_of_all a0 _ _ _ _ e0, finite_of_all a1 _ _ _ _ e1, finite_of_all a2 _ _ _ _ e2,
    finite_of_all a3 _ _ _ _ e3, finite_of_all a4 _ _ _ _ e4, finite_of_all a5 _ _ _ _ e5⟩

theorem finite_of_pre [Cert.KernelIdeal.Facts] [hPre : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    Cert.Spec.Finite (m ((c.tc : Thread Cert.KernelIdeal.nD Cert.KernelIdeal.τ).loc Cert.KernelIdeal.main_arg0))
      ∧ Cert.Spec.Finite (m ((c.tc : Thread _ _).loc Cert.KernelIdeal.main_arg1)) ∧ Cert.Spec.Finite (m ((c.tc : Thread _ _).loc Cert.KernelIdeal.main_arg2))
      ∧ Cert.Spec.Finite (m ((c.tc : Thread _ _).loc Cert.KernelIdeal.main_arg3)) ∧ Cert.Spec.Finite (m ((c.tc : Thread _ _).loc Cert.KernelIdeal.main_arg4))
      ∧ Cert.Spec.Finite (m ((c.tc : Thread _ _).loc Cert.KernelIdeal.main_arg5)) :=
  finite_of_fn _ _ _ _ _ _ (h c)

end Cert.PreFinite

end
-- ==== Proof.lean ====
/-
  The certificate of the two-launch linear-attention kernel against its jnp reference.

  Frames. The kernel program is three stretches of host operations (the clipped mixture weights, the folded shift
  p₀ + p₁ and μ₀·p₀ + μ₁·p₁ laid out by head, the mask as a column) and two launches over a grid of 4 × 16 × 4 points.
  The first launch accumulates, per (batch, head), the 64 × 64 state Σ_l φ(Km)·m·s ⊗ V·m over four tiles of 2048 rows in
  a scratch buffer it carries from point to point, reset at a tile row's first point and copied to the state array at
  its last; the second multiplies each block of φ(Q)·s by the state. Each launch is certified from its body's run at
  every point, and the program's run chains the host stretches and the launches; no item writes an argument array.
  The same text, read at the word-level program and at the idealized one, gives both frames. The reference is a
  straight line of host operations; its run is their composition.

  Values, over the extended reals. The kernel's result is `Spec.outK` of the arguments and the reference's `Spec.outR`;
  they differ in how the key shift is arranged, in how φ is spelt and in how the sum over the 8192 rows is grouped, and
  on finite inputs they are one function: (k − μ₀)p₀ + (k − μ₁)p₁ = (p₀ + p₁)k − (μ₀p₀ + μ₁p₁) and 1·(eˣ − 1) + 1 = eˣ
  on the reals, and a sum over 8192 rows is the sum of its four tiles. The idealization rewrote nothing, so
  `preserves` is `True`.
-/
import proofs.«152070_j15891378995472_1_alg».proof.Defs
import proofs.«152070_j15891378995472_1_alg».proof.Proof.Gen.Kernel
import proofs.«152070_j15891378995472_1_alg».proof.Proof.Gen.KernelIdeal
import proofs.«152070_j15891378995472_1_alg».proof.Proof.Gen.ReferenceIdeal
import proofs.«152070_j15891378995472_1_alg».proof.Proof.Gen.Pre_finite_inputs
import proofs.«152070_j15891378995472_1_alg».proof.Proof.Kernel.Regs
import proofs.«152070_j15891378995472_1_alg».proof.Proof.KernelIdeal.Regs
import proofs.«152070_j15891378995472_1_alg».proof.Proof.KernelIdeal.Result
import proofs.«152070_j15891378995472_1_alg».proof.Proof.Ref.Run
import proofs.«152070_j15891378995472_1_alg».proof.Proof.Ref.Read
import proofs.«152070_j15891378995472_1_alg».proof.Proof.Bridge
import proofs.«152070_j15891378995472_1_alg».proof.Proof.PreFinite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both idealized programs end with the result array at `Spec.outK` of the kernel's arguments: the kernel by its run,
    the reference because its term is `Spec.outR` of arguments that agree, which on finite inputs is the same function. -/
theorem algebraic : Cert.algebraic_KernelIdeal_ReferenceIdeal := by
  intro m ρ m' ρ' hpre hagree
  refine ⟨fun c => Cert.Spec.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Hand.run_result (F := Ideal) m ρ)
    exact Cert.KernelIdeal.Hand.result_eq m c
  · refine (θ_run Cert.ReferenceIdeal.defs _ _).mono (fun r h c => ⟨(h c).1.trans ?_, (h c).2⟩)
      (Cert.ReferenceIdeal.Hand.run (F := Ideal) m' ρ')
    obtain ⟨h0, h1, h2, h3, h4, h5⟩ := Cert.PreFinite.finite_of_pre m hpre c
    rw [Cert.ReferenceIdeal.Hand.term_eq, (hagree c).1, (hagree c).2.1, (hagree c).2.2.1, (hagree c).2.2.2.1, (hagree c).2.2.2.2.1, (hagree c).2.2.2.2.2]
    exact (Cert.Spec.outK_eq_outR _ _ _ _ _ _ h0 h1 h2 h3 h4 h5).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
